-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S4x65 : Shape := ⟨2, ![4, 65]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x65 : S_.BroadcastsInDim S4x65 (![] : Fin 0 → Fin S4x65.rank)
  reducesTo_S4x65_S_d0_1 : S4x65.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  main_v41

def fn_part1 {F : FTy → Type} [FloatOps F] (main_arg1 : IVec S2x800000 32) (main_arg5 : FVec F S4x65 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x65 .f32 := Host.absf main_arg5
  let main_cst_6 : FVec F S_ .f32 := constant S_ .f32 0x7F800000#32
  let main_v20 : FVec F S4x65 .f32 := broadcastInDim S4x65 ![] bcast_S_S4x65 main_cst_6
  let main_v21 : IVec S4x65 1 := cmpf .olt main_v19 main_v20
  let main_c_7 : IVec S_ 1 := constantI S_ 1 1#1
  let main_v22 : IVec S_ 1 := (fun x v => Host.reduce IntOp.andi x v reducesTo_S4x65_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S800000x1 .f32) (main_arg3 : FVec F S128x128 .f32) (main_arg4 : FVec F S128 .f32) (main_arg5 : FVec F S4x65 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S4x65 : Shape := ⟨2, ![4, 65]⟩
abbrev S1x128 : Shape := ⟨2, ![1, 128]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S1 : Shape := ⟨1, ![1]⟩
abbrev S1x1 : Shape := ⟨2, ![1, 1]⟩
abbrev S800000x128 : Shape := ⟨2, ![800000, 128]⟩
abbrev S4x32 : Shape := ⟨2, ![4, 32]⟩
abbrev S4x1 : Shape := ⟨2, ![4, 1]⟩
abbrev S4 : Shape := ⟨1, ![4]⟩
abbrev S128x1 : Shape := ⟨2, ![128, 1]⟩
abbrev S1x4 : Shape := ⟨2, ![1, 4]⟩
abbrev S128x4 : Shape := ⟨2, ![128, 4]⟩
abbrev S800000x4 : Shape := ⟨2, ![800000, 4]⟩
abbrev S4000x128 : Shape := ⟨2, ![4000, 128]⟩
abbrev S4000x1 : Shape := ⟨2, ![4000, 1]⟩
abbrev S4000x4 : Shape := ⟨2, ![4000, 4]⟩
abbrev S50000x4 : Shape := ⟨2, ![50000, 4]⟩
abbrev S4x128 : Shape := ⟨2, ![4, 128]⟩
abbrev S8000x128 : Shape := ⟨2, ![8000, 128]⟩
abbrev S8000x4 : Shape := ⟨2, ![8000, 4]⟩
abbrev S5000 : Shape := ⟨1, ![5000]⟩
abbrev S5000x1 : Shape := ⟨2, ![5000, 1]⟩

abbrev nBuf : Space → Nat
  | .hbm => 142
  | .vmem => 32
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S128x128, .f32⟩
  | 4 => ⟨S128, .f32⟩
  | 5 => ⟨S4x65, .f32⟩
  | 6 => ⟨S128, .f32⟩
  | 7 => ⟨S128, .f32⟩
  | 8 => ⟨S128x128, .f32⟩
  | 9 => ⟨S1x128, .f32⟩
  | 10 => ⟨S50000x128, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S1, .i32⟩
  | 47 => ⟨S_, .i32⟩
  | 48 => ⟨S800000x1, .i32⟩
  | 49 => ⟨S800000x1, .i1⟩
  | 50 => ⟨S1x1, .i32⟩
  | 51 => ⟨S800000x1, .i32⟩
  | 52 => ⟨S800000x1, .i1⟩
  | 53 => ⟨S800000x1, .i1⟩
  | 54 => ⟨S_, .i1⟩
  | 55 => ⟨S800000, .i1⟩
  | 56 => ⟨S800000x128, .f32⟩
  | 57 => ⟨S800000x128, .i1⟩
  | 58 => ⟨S_, .f32⟩
  | 59 => ⟨S800000x128, .f32⟩
  | 60 => ⟨S800000x128, .f32⟩
  | 61 => ⟨S4x32, .f32⟩
  | 62 => ⟨S4x32, .f32⟩
  | 63 => ⟨S4x1, .f32⟩
  | 64 => ⟨S4, .f32⟩
  | 65 => ⟨S4, .i32⟩
  | 66 => ⟨S4x32, .i32⟩
  | 67 => ⟨S128, .i32⟩
  | 68 => ⟨S128x1, .i32⟩
  | 69 => ⟨S1x4, .i32⟩
  | 70 => ⟨S128x4, .i32⟩
  | 71 => ⟨S128x4, .i32⟩
  | 72 => ⟨S128x4, .i1⟩
  | 73 => ⟨S128x4, .f32⟩
  | 74 => ⟨S128, .f32⟩
  | 75 => ⟨S128x1, .f32⟩
  | 76 => ⟨S128x4, .f32⟩
  | 77 => ⟨S128x4, .f32⟩
  | 78 => ⟨S4, .i32⟩
  | 79 => ⟨S4x32, .i32⟩
  | 80 => ⟨S128, .i32⟩
  | 81 => ⟨S128x1, .i32⟩
  | 82 => ⟨S1x4, .i32⟩
  | 83 => ⟨S128x4, .i32⟩
  | 84 => ⟨S128x4, .i32⟩
  | 85 => ⟨S128x4, .i1⟩
  | 86 => ⟨S128x4, .f32⟩
  | 87 => ⟨S128, .f32⟩
  | 88 => ⟨S128x1, .f32⟩
  | 89 => ⟨S128x4, .f32⟩
  | 90 => ⟨S128x4, .f32⟩
  | 91 => ⟨S1x4, .f32⟩
  | 92 => ⟨S800000x4, .f32⟩
  | 93 => ⟨S_, .f32⟩
  | 94 => ⟨S50000x4, .f32⟩
  | 95 => ⟨S800000x1, .i32⟩
  | 96 => ⟨S50000x4, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x4, .f32⟩
  | 116 => ⟨S800000x4, .i1⟩
  | 117 => ⟨S_, .f32⟩
  | 118 => ⟨S800000x4, .f32⟩
  | 119 => ⟨S800000x4, .f32⟩
  | 120 => ⟨S_, .f32⟩
  | 121 => ⟨S800000x4, .f32⟩
  | 122 => ⟨S800000x4, .f32⟩
  | 123 => ⟨S800000x4, .f32⟩
  | 124 => ⟨S4, .i32⟩
  | 125 => ⟨S4x32, .i32⟩
  | 126 => ⟨S128, .i32⟩
  | 127 => ⟨S128x1, .i32⟩
  | _ => ⟨S50000x128, .f32⟩

abbrev hbmTy0_1 (i : Nat) : BufTy := match i % 128 with
  | 0 => ⟨S1x4, .i32⟩
  | 1 => ⟨S128x4, .i32⟩
  | 2 => ⟨S128x4, .i32⟩
  | 3 => ⟨S128x4, .i1⟩
  | 4 => ⟨S128x4, .f32⟩
  | 5 => ⟨S4x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S1x128, .f32⟩
  | 12 => ⟨S1x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x4, .f32⟩
  | .local _ .vmem, ⟨13, _⟩ => ⟨S128x4, .f32⟩
  | .local _ .vmem, ⟨14, _⟩ => ⟨S1x4, .f32⟩
  | .local _ .vmem, ⟨15, _⟩ => ⟨S4000x4, .f32⟩
  | .local _ .vmem, ⟨16, _⟩ => ⟨S4000x4, .f32⟩
  | .local _ .vmem, ⟨17, _⟩ => ⟨S8000x128, .f32⟩
  | .local _ .vmem, ⟨18, _⟩ => ⟨S8000x128, .f32⟩
  | .local _ .vmem, ⟨19, _⟩ => ⟨S8000x4, .f32⟩
  | .local _ .vmem, ⟨20, _⟩ => ⟨S8000x4, .f32⟩
  | .local _ .vmem, ⟨21, _⟩ => ⟨S4x128, .f32⟩
  | .local _ .vmem, ⟨22, _⟩ => ⟨S8000x128, .f32⟩
  | .local _ .vmem, ⟨23, _⟩ => ⟨S8000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v7 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_call4_c : Ref sig .tc := ⟨.hbm, 97, rfl⟩
abbrev main_call4_v0 : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_c_1 : Ref sig .tc := ⟨.hbm, 105, rfl⟩
abbrev main_call4_c_2 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_3 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_call4_cst : Ref sig .tc := ⟨.hbm, 117, rfl⟩
abbrev main_call4_v15 : Ref sig .tc := ⟨.hbm, 118, rfl⟩
abbrev main_v34 : Ref sig .tc := ⟨.hbm, 119, rfl⟩
abbrev main_cst_0 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_cst_1 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x4 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S4x65_S4x32_0_0 : S4x65.Slices ![0, 0] S4x32
  slices_S4x65_S4x32_0_32 : S4x65.Slices ![0, 32] S4x32
  slices_S4x65_S4x1_0_64 : S4x65.Slices ![0, 64] S4x1
  shapeCasts_S4x1_S4 : S4x1.ShapeCasts S4
  bcast_S4_S4x32_0 : S4.BroadcastsInDim S4x32 (![0] : Fin 1 → Fin S4x32.rank)
  shapeCasts_S4x32_S128 : S4x32.ShapeCasts S128
  bcast_S128_S128x1_0 : S128.BroadcastsInDim S128x1 (![0] : Fin 1 → Fin S128x1.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  shapeCasts_S4_S1x4 : S4.ShapeCasts S1x4
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4000x1_S4000x1_0_0 : ∀ a, (![0, 0] : Fin 2 → Nat) a + S4000x1.size a ≤ S4000x1.size a
  h_S4000x1 : 0 < S4000x1.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S4000x1_S4000x4 : S4000x1.Broadcasts S4000x4
  broadcasts_S1x4_S4000x4 : S1x4.Broadcasts S4000x4
  inb_S4000x4_S4000x4_0_0 : ∀ a, (![0, 0] : Fin 2 → Nat) a + S4000x4.size a ≤ S4000x4.size a
  h_S4000x4 : 0 < S4000x4.numel
  bcast_S_S50000x4 : S_.BroadcastsInDim S50000x4 (![] : Fin 0 → Fin S50000x4.rank)
  bcast_S800000_S800000x4_0 : S800000.BroadcastsInDim S800000x4 (![0] : Fin 1 → Fin S800000x4.rank)
  bcast_S_S800000x4 : S_.BroadcastsInDim S800000x4 (![] : Fin 0 → Fin S800000x4.rank)
  transposes_S128x4_S4x128_1_0 : S128x4.Transposes [1, 0] S4x128
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S4000x128_S128x4_S4000x4_1_0_0_1_n_n_wf : DotDims.WF S4000x128 S128x4 S4000x4 [1] [0] [0] [1] [] []
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  dot_S8000x4_S4x128_S8000x128_1_0_0_1_n_n_wf : DotDims.WF S8000x4 S4x128 S8000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S800000x1.size a
  hwx1_2 : ∀ i : grid1.Coords, EltTy.bits .f32 = 32 ∨ (Rect.block (s := S800000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x4.size a ≤ S128x4.size a
  hwx1_3 : ∀ i : grid1.Coords, EltTy.bits .f32 = 32 ∨ (Rect.block (s := S128x4) S128x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x4.size a ≤ S128x4.size a
  hwx1_4 : ∀ i : grid1.Coords, EltTy.bits .f32 = 32 ∨ (Rect.block (s := S128x4) S128x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4.size a ≤ S1x4.size a
  hwx1_5 : ∀ i : grid1.Coords, EltTy.bits .f32 = 32 ∨ (Rect.block (s := S1x4) S1x4.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x4.size a ≤ S800000x4.size a
  hwx1_6 : ∀ i : grid1.Coords, EltTy.bits .f32 = 32 ∨ (Rect.block (s := S800000x4) S4000x4.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x4.size a ≤ S800000x4.size a
  hwx2_1 : ∀ i : grid2.Coords, EltTy.bits .f32 = 32 ∨ (Rect.block (s := S800000x4) S8000x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x128.size a
  hwx2_2 : ∀ i : grid2.Coords, EltTy.bits .f32 = 32 ∨ (Rect.block (s := S4x128) S4x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S800000x128.size a
  hwx2_3 : ∀ i : grid2.Coords, EltTy.bits .f32 = 32 ∨ (Rect.block (s := S800000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def dot_S8000x4_S4x128_S8000x128_1_0_0_1_n_n : DotDims S8000x4 S4x128 S8000x128 where
  lhsContracting := [1]
  rhsContracting := [0]
  lhsNonContracting := [0]
  rhsNonContracting := [1]
  lhsBatch := []
  rhsBatch := []
  wf := dot_S8000x4_S4x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S4000x4.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S8000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S4x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S4x65 : Shape := ⟨2, ![4, 65]⟩
abbrev S1x128 : Shape := ⟨2, ![1, 128]⟩
abbrev S50000x4x32 : Shape := ⟨3, ![50000, 4, 32]⟩
abbrev S1x800000 : Shape := ⟨2, ![1, 800000]⟩
abbrev S800000 : Shape := ⟨1, ![800000]⟩
abbrev S_ : Shape := ⟨0, ![]⟩
abbrev S800000x4x32 : Shape := ⟨3, ![800000, 4, 32]⟩
abbrev S800000x1x1 : Shape := ⟨3, ![800000, 1, 1]⟩
abbrev S800000x4x1 : Shape := ⟨3, ![800000, 4, 1]⟩
abbrev S800000x4x65 : Shape := ⟨3, ![800000, 4, 65]⟩
abbrev S1x4x65 : Shape := ⟨3, ![1, 4, 65]⟩
abbrev S800000x4 : Shape := ⟨2, ![800000, 4]⟩
abbrev S50000x4 : Shape := ⟨2, ![50000, 4]⟩
abbrev S50000 : Shape := ⟨1, ![50000]⟩
abbrev S50000x1 : Shape := ⟨2, ![50000, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S128x128, .f32⟩
  | 4 => ⟨S128, .f32⟩
  | 5 => ⟨S4x65, .f32⟩
  | 6 => ⟨S128, .f32⟩
  | 7 => ⟨S128, .f32⟩
  | 8 => ⟨S128x128, .f32⟩
  | 9 => ⟨S50000x128, .f32⟩
  | 10 => ⟨S1x128, .f32⟩
  | 11 => ⟨S50000x128, .f32⟩
  | 12 => ⟨S50000x128, .f32⟩
  | 13 => ⟨S50000x4x32, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x4x32, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x4x32, .f32⟩
  | 36 => ⟨S800000x1x1, .f32⟩
  | 37 => ⟨S800000x4x1, .f32⟩
  | 38 => ⟨S800000x4x65, .f32⟩
  | 39 => ⟨S1x4x65, .f32⟩
  | 40 => ⟨S800000x4x65, .f32⟩
  | 41 => ⟨S800000x4x65, .f32⟩
  | 42 => ⟨S_, .f32⟩
  | 43 => ⟨S800000x4, .f32⟩
  | 44 => ⟨S_, .f32⟩
  | 45 => ⟨S800000x4, .f32⟩
  | 46 => ⟨S800000x4, .i1⟩
  | 47 => ⟨S_, .f32⟩
  | 48 => ⟨S800000x4, .f32⟩
  | 49 => ⟨S800000x4, .f32⟩
  | 50 => ⟨S800000x4, .f32⟩
  | 51 => ⟨S_, .f32⟩
  | 52 => ⟨S_, .f32⟩
  | 53 => ⟨S_, .f32⟩
  | 54 => ⟨S800000x4, .f32⟩
  | 55 => ⟨S800000x4, .f32⟩
  | 56 => ⟨S_, .f32⟩
  | 57 => ⟨S800000x4, .f32⟩
  | 58 => ⟨S800000x4, .f32⟩
  | 59 => ⟨S800000x4, .f32⟩
  | 60 => ⟨S_, .f32⟩
  | 61 => ⟨S50000x4, .f32⟩
  | 62 => ⟨S800000x1, .i32⟩
  | 63 => ⟨S50000x4, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x4, .f32⟩
  | 73 => ⟨S_, .f32⟩
  | 74 => ⟨S800000x4, .f32⟩
  | 75 => ⟨S800000x4, .f32⟩
  | 76 => ⟨S800000x4, .f32⟩
  | 77 => ⟨S800000x4x1, .f32⟩
  | 78 => ⟨S800000x4x32, .f32⟩
  | 79 => ⟨S800000x4x32, .f32⟩
  | 80 => ⟨S_, .f32⟩
  | 81 => ⟨S50000x4x32, .f32⟩
  | 82 => ⟨S800000x1, .i32⟩
  | 83 => ⟨S50000x4x32, .f32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S50000x128, .f32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S_, .f32⟩
  | 104 => ⟨S50000x1, .f32⟩
  | 105 => ⟨S50000x1, .f32⟩
  | 106 => ⟨S50000x1, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .i1⟩
  | 118 => ⟨S_, .f32⟩
  | 119 => ⟨S50000x128, .f32⟩
  | 120 => ⟨S50000x128, .i1⟩
  | 121 => ⟨S_, .f32⟩
  | 122 => ⟨S_, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_cst_1 : Ref sig .tc := ⟨.hbm, 121, rfl⟩
abbrev main_call2_call0_v0 : Ref sig .tc := ⟨.hbm, 122, rfl⟩
abbrev main_call2_call0_v1 : Ref sig .tc := ⟨.hbm, 123, rfl⟩
abbrev main_call2_v4 : Ref sig .tc := ⟨.hbm, 124, rfl⟩
abbrev main_call2_v5 : Ref sig .tc := ⟨.hbm, 125, rfl⟩
abbrev main_call2_cst_2 : Ref sig .tc := ⟨.hbm, 126, rfl⟩
abbrev main_call2_v6 : Ref sig .tc := ⟨.hbm, 127, rfl⟩
abbrev main_call2_v7 : Ref sig .tc := ⟨.hbm, 128, rfl⟩
abbrev main_v83 : Ref sig .tc := ⟨.hbm, 129, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x4x32 : S50000x128.ShapeCasts S50000x4x32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x1x1_0_2 : S800000x1.BroadcastsInDim S800000x1x1 (![0, 2] : Fin 2 → Fin S800000x1x1.rank)
  bcast_S800000x1x1_S800000x4x1_0_1_2 : S800000x1x1.BroadcastsInDim S800000x4x1 (![0, 1, 2] : Fin 3 → Fin S800000x4x1.rank)
  concatenates_S800000x4x32_S800000x4x32_S800000x4x1_S800000x4x65_d2 : Shape.Concatenates [S800000x4x32, S800000x4x32, S800000x4x1] S800000x4x65 2
  bcast_S4x65_S1x4x65_1_2 : S4x65.BroadcastsInDim S1x4x65 (![1, 2] : Fin 2 → Fin S1x4x65.rank)
  bcast_S1x4x65_S800000x4x65_0_1_2 : S1x4x65.BroadcastsInDim S800000x4x65 (![0, 1, 2] : Fin 3 → Fin S800000x4x65.rank)
  reducesTo_S800000x4x65_S800000x4_d2 : S800000x4x65.ReducesTo [2] S800000x4
  h_S_ : 0 < S_.numel
  bcast_S_S800000x4 : S_.BroadcastsInDim S800000x4 (![] : Fin 0 → Fin S800000x4.rank)
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  shapeCasts_S50000x4x32_S50000x128 : S50000x4x32.ShapeCasts S50000x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  scatter_S50000x4x32_S800000x1_S800000x4x32_12_0_0_1_wf : ScatterDims.WF S50000x4x32 S800000x1 S800000x4x32 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf

class Facts : Prop extends Facts₀ where

variable [Facts]
-- ==== Proof.Spec.lean ====
/-
  The graph-attention layer as plain mathematics over the extended reals: what every output entry is, as a function
  of the eight argument arrays. N = 50000 nodes, E = 800000 edges, D = 128 features in H = 4 heads of 32.

    z[n, q]      = (∑ₖ h[n, k] · W[q, k]) + bias[q]
    logit[e, a]  = (∑_{d<32} z[src e, 32a + d] · att[a, d]) + (∑_{d<32} z[dst e, 32a + d] · att[a, 32 + d]) + feat[e] · att[a, 64]
    alpha[e, a]  = exp (clip (leaky (logit[e, a])))            leaky s = s if s ≥ 0 else 0.2·s,  clip to [-20, 20]
    denom[n, a]  = ∑ over the edges e with dst e = n of alpha[e, a]          (a scatter-add into zeros)
    na[e, a]     = alpha[e, a] / (denom[dst e, a] + 1e-6)
    msg[e, q]    = z[src e, q] · na[e, q / 32]
    agg[n, q]    = ∑ over the edges e with dst e = n of msg[e, q]            (a scatter-add into zeros)
    x[n, q]      = agg[n, q] + z[n, q]
    out[n, q]    = elu (layernorm over q of x[n, ·], scaled by g[q], shifted by b[q])

  The two scatter-adds are kept as the library's own exact sum (`Ideal.hostScatterAdd`) at this module's own
  dimension records, so that a program applying the same scatter to equal arrays agrees by congruence.
  An edge endpoint is a 32-bit word; `node` reads it signed and clamps it into [0, N): inside the stated range it is
  the word's value.
-/
import Idealize.ShloMosaic.PureOps.Ideal
import Idealize.ShloMosaic.Lib.ValueIdx

noncomputable section

open scoped BigOperators

namespace Cert.GAT

open Idealize.ShloMosaic Idealize.ShloMosaic.ValueIdx

/-! ## Shapes -/

abbrev sNxD : Shape := ⟨2, ![50000, 128]⟩
abbrev sExD : Shape := ⟨2, ![800000, 128]⟩
abbrev sExH : Shape := ⟨2, ![800000, 4]⟩
abbrev sNxH : Shape := ⟨2, ![50000, 4]⟩
abbrev sEx1 : Shape := ⟨2, ![800000, 1]⟩
abbrev s2xE : Shape := ⟨2, ![2, 800000]⟩
abbrev sDxD : Shape := ⟨2, ![128, 128]⟩
abbrev sD : Shape := ⟨1, ![128]⟩
abbrev sHxA : Shape := ⟨2, ![4, 65]⟩

/-- Two arrays over a rank-2 index set are equal when they agree at every pair of coordinates. -/
theorem ext2 {α : Type} {n0 n1 : Nat} {f g : (⟨2, ![n0, n1]⟩ : Shape).Idx → α}
    (h : ∀ (a : Fin n0) (b : Fin n1), f (ix2 a b) = g (ix2 a b)) : f = g := by
  funext j; rw [eq_ix2 j]; exact h _ _

/-- Two arrays over a rank-3 index set are equal when they agree at every triple of coordinates. -/
theorem ext3 {α : Type} {n0 n1 n2 : Nat} {f g : (⟨3, ![n0, n1, n2]⟩ : Shape).Idx → α}
    (h : ∀ (a : Fin n0) (b : Fin n1) (c : Fin n2), f (ix3 a b c) = g (ix3 a b c)) : f = g := by
  funext j; rw [eq_ix3 j]; exact h _ _ _

/-! ## The literals the two programs share (kept as their words; only zero and one are ever evaluated) -/

abbrev c0 : EReal := Ideal.ofBits .f32 0x00000000#32
abbrev c1 : EReal := Ideal.ofBits .f32 0x3F800000#32
abbrev cSlope : EReal := Ideal.ofBits .f32 0x3E4CCCCD#32
abbrev cLo : EReal := Ideal.ofBits .f32 0xC1A00000#32
abbrev cHi : EReal := Ideal.ofBits .f32 0x41A00000#32
abbrev cTiny : EReal := Ideal.ofBits .f32 0x358637BD#32
abbrev cWidth : EReal := Ideal.ofBits .f32 0x43000000#32
abbrev cEps : EReal := Ideal.ofBits .f32 0x3727C5AC#32

/-! ## Edge endpoints -/

/-- The node a 32-bit index word names: read signed, clamped into `[0, 50000)`. -/
def node (w : BitVec 32) : Fin 50000 := ⟨min w.toInt.toNat 49999, by omega⟩

/-- Every endpoint word of the edge list is a node number: `0 ≤ w < 50000` read signed. -/
def InRange (edge : s2xE.Idx → BitVec 32) : Prop :=
  ∀ (r : Fin 2) (e : Fin 800000), 0 ≤ (edge (ix2 r e)).toInt ∧ (edge (ix2 r e)).toInt < 50000

/-- Column `32a + d` of a feature row: feature `d` of head `a`. -/
def col (a : Fin 4) (d : Fin 32) : Fin 128 := ⟨32 * a.val + d.val, by omega⟩
/-- The head a feature column belongs to. -/
def headOf (q : Fin 128) : Fin 4 := ⟨q.val / 32, by omega⟩
/-- A feature column's position inside its head. -/
def within (q : Fin 128) : Fin 32 := ⟨q.val % 32, Nat.mod_lt _ (by decide)⟩

section
variable (h : sNxD.Idx → EReal) (edge : s2xE.Idx → BitVec 32) (feat : sEx1.Idx → EReal) (W : sDxD.Idx → EReal)
  (bias : sD.Idx → EReal) (att : sHxA.Idx → EReal) (g b : sD.Idx → EReal)

/-- Source and destination node of edge `e`. -/
def src (e : Fin 800000) : Fin 50000 := node (edge (ix2 (0 : Fin 2) e))
def dst (e : Fin 800000) : Fin 50000 := node (edge (ix2 (1 : Fin 2) e))

/-- The projected features. -/
def z (n : Fin 50000) (q : Fin 128) : EReal := (∑ k : Fin 128, h (ix2 n k) * W (ix2 q k)) + bias (ix1 q)
def zA : sNxD.Idx → EReal := fun j => z h W bias (idxEquiv2 j).1 (idxEquiv2 j).2

/-- The attention logit of edge `e`, head `a`. -/
def logit (e : Fin 800000) (a : Fin 4) : EReal :=
  (∑ d : Fin 32, z h W bias (src edge e) (col a d) * att (ix2 a (⟨d.val, by omega⟩ : Fin 65)))
  + (∑ d : Fin 32, z h W bias (dst edge e) (col a d) * att (ix2 a (⟨32 + d.val, by omega⟩ : Fin 65)))
  + feat (ix2 e (0 : Fin 1)) * att (ix2 a (⟨64, by omega⟩ : Fin 65))

/-- Leaky rectifier, clip and exponential: the unnormalised attention weight of a logit. -/
def leaky (s : EReal) : EReal := Scalar.select (Ideal.cmp .oge s c0) s (cSlope * s)
def clip (s : EReal) : EReal := min cHi (max cLo s)
def weightOf (s : EReal) : EReal := Ideal.exp (clip (leaky s))

def alpha (e : Fin 800000) (a : Fin 4) : EReal := weightOf (logit h edge feat W bias att e a)
def alphaA : sExH.Idx → EReal := fun j => alpha h edge feat W bias att (idxEquiv2 j).1 (idxEquiv2 j).2

/-- The destination words as the one-column index array both programs scatter and gather through. -/
def dstCol : IVec sEx1 32 := fun j => edge (ix2 (1 : Fin 2) (idxEquiv2 j).1)

/-- Dimension numbers of a row scatter of `[E, 4]` updates into `[N, 4]`. -/
def scatH : ScatterDims sNxH sEx1 sExH where
  updateWindowDims := [1]
  insertedWindowDims := [0]
  scatterDimsToOperandDims := [0]
  indexVectorDim := 1
/-- Dimension numbers of a row scatter of `[E, 128]` updates into `[N, 128]`. -/
def scatD : ScatterDims sNxD sEx1 sExD where
  updateWindowDims := [1]
  insertedWindowDims := [0]
  scatterDimsToOperandDims := [0]
  indexVectorDim := 1

/-- The per-node, per-head sum of the weights of the edges arriving at the node. -/
def denomA : sNxH.Idx → EReal :=
  Ideal.hostScatterAdd scatH (fun _ => c0) (dstCol edge) (alphaA h edge feat W bias att)

/-- The normalised attention weight. -/
def na (e : Fin 800000) (a : Fin 4) : EReal :=
  Ideal.div (alpha h edge feat W bias att e a) (denomA h edge feat W bias att (ix2 (dst edge e) a) + cTiny)
def naA : sExH.Idx → EReal := fun j => na h edge feat W bias att (idxEquiv2 j).1 (idxEquiv2 j).2

/-- The message an edge carries: its source's features, each head scaled by the edge's weight for that head. -/
def msg (e : Fin 800000) (q : Fin 128) : EReal := z h W bias (src edge e) q * na h edge feat W bias att e (headOf q)
def msgA : sExD.Idx → EReal := fun j => msg h edge feat W bias att (idxEquiv2 j).1 (idxEquiv2 j).2

/-- The messages summed at their destinations. -/
def aggA : sNxD.Idx → EReal :=
  Ideal.hostScatterAdd scatD (fun _ => c0) (dstCol edge) (msgA h edge feat W bias att)

/-- Residual, layer normalisation over the 128 features, exponential linear unit. -/
def resid (n : Fin 50000) (q : Fin 128) : EReal := aggA h edge feat W bias att (ix2 n q) + z h W bias n q
end

/-- Layer normalisation and ELU of one row `x`, at feature `q`. -/
def mean (x : Fin 128 → EReal) : EReal := Ideal.div (∑ q : Fin 128, x q) cWidth
def variance (x : Fin 128 → EReal) : EReal := Ideal.div (∑ q : Fin 128, (x q - mean x) * (x q - mean x)) cWidth
def normed (x : Fin 128 → EReal) (g b : Fin 128 → EReal) (q : Fin 128) : EReal :=
  (x q - mean x) * Ideal.rsqrt (variance x + cEps) * g q + b q
def elu (y : EReal) : EReal := Scalar.select (Ideal.cmp .ogt y c0) y (Ideal.exp y - 1)

section
variable (h : sNxD.Idx → EReal) (edge : s2xE.Idx → BitVec 32) (feat : sEx1.Idx → EReal) (W : sDxD.Idx → EReal)
  (bias : sD.Idx → EReal) (att : sHxA.Idx → EReal) (g b : sD.Idx → EReal)

/-- The layer's output. -/
def out (n : Fin 50000) (q : Fin 128) : EReal :=
  elu (normed (fun q' => resid h edge feat W bias att n q') (fun q' => g (ix1 q')) (fun q' => b (ix1 q')) q)
def outA : sNxD.Idx → EReal := fun j => out h edge feat W bias att g b (idxEquiv2 j).1 (idxEquiv2 j).2
end

/-! ## The four kernels' bodies as functions of the arrays a launch is handed (any arrays of those shapes)

What one launch writes, entry by entry, in the arrangement the kernel computes it: the projections as dense products
against a 128 × 4 table, the per-head weight spread over a head's 32 columns by a product with a 4 × 128 table. -/

abbrev s1xD : Shape := ⟨2, ![1, 128]⟩
abbrev sDxH : Shape := ⟨2, ![128, 4]⟩
abbrev s1xH : Shape := ⟨2, ![1, 4]⟩
abbrev sHxD : Shape := ⟨2, ![4, 128]⟩

/-- The linear kernel: `x · wt + brow`. -/
def kLin (x : sNxD.Idx → EReal) (wt : sDxD.Idx → EReal) (brow : s1xD.Idx → EReal) (n : Fin 50000) (q : Fin 128) : EReal :=
  (∑ k : Fin 128, x (ix2 n k) * wt (ix2 k q)) + brow (ix2 (0 : Fin 1) q)
def kLinA (x : sNxD.Idx → EReal) (wt : sDxD.Idx → EReal) (brow : s1xD.Idx → EReal) : sNxD.Idx → EReal :=
  fun j => kLin x wt brow (idxEquiv2 j).1 (idxEquiv2 j).2

/-- The score kernel: two dense products, the edge feature's term, then the weight of the logit. -/
def kAlpha (hs hd : sExD.Idx → EReal) (feat : sEx1.Idx → EReal) (ms md : sDxH.Idx → EReal) (ae : s1xH.Idx → EReal)
    (e : Fin 800000) (a : Fin 4) : EReal :=
  weightOf ((∑ r : Fin 128, hs (ix2 e r) * ms (ix2 r a)) + (∑ r : Fin 128, hd (ix2 e r) * md (ix2 r a))
    + feat (ix2 e (0 : Fin 1)) * ae (ix2 (0 : Fin 1) a))
def kAlphaA (hs hd : sExD.Idx → EReal) (feat : sEx1.Idx → EReal) (ms md : sDxH.Idx → EReal) (ae : s1xH.Idx → EReal) :
    sExH.Idx → EReal := fun j => kAlpha hs hd feat ms md ae (idxEquiv2 j).1 (idxEquiv2 j).2

/-- The weighting kernel: the source row times the weights spread over the columns. -/
def kMsg (hs : sExD.Idx → EReal) (w : sExH.Idx → EReal) (em : sHxD.Idx → EReal) (e : Fin 800000) (q : Fin 128) : EReal :=
  hs (ix2 e q) * ∑ a : Fin 4, w (ix2 e a) * em (ix2 a q)
def kMsgA (hs : sExD.Idx → EReal) (w : sExH.Idx → EReal) (em : sHxD.Idx → EReal) : sExD.Idx → EReal :=
  fun j => kMsg hs w em (idxEquiv2 j).1 (idxEquiv2 j).2

/-- The closing kernel: residual, layer normalisation, exponential linear unit. -/
def kOut (agg zz : sNxD.Idx → EReal) (grow brow : s1xD.Idx → EReal) (n : Fin 50000) (q : Fin 128) : EReal :=
  elu (normed (fun q' => agg (ix2 n q') + zz (ix2 n q')) (fun q' => grow (ix2 (0 : Fin 1) q')) (fun q' => brow (ix2 (0 : Fin 1) q')) q)
def kOutA (agg zz : sNxD.Idx → EReal) (grow brow : s1xD.Idx → EReal) : sNxD.Idx → EReal :=
  fun j => kOut agg zz grow brow (idxEquiv2 j).1 (idxEquiv2 j).2

end Cert.GAT

end
-- ==== Proof.KernelMath.lean ====
/-
  The algebra that joins the kernels' arrangement to the layer's definition, over the extended reals.

  A sum over the 128 feature columns is the double sum over the 4 heads and the 32 columns of a head (`32a + d`).
  A product against a table that is zero off a head's own rows keeps that head's 32 terms (`0 · x = 0` and
  `x + 0 = x` hold on the extended reals without any finiteness), so the dense 128 × 4 projection of the score
  kernel is the per-head dot product; and a weight spread over the columns by a 4 × 128 table of zeros and ones
  is the weight of the column's head.
-/
import proofs.«411918_j61280593379541_2_alg».proof.Proof.Spec

noncomputable section

open scoped BigOperators

namespace Cert.GAT

open Idealize.ShloMosaic Idealize.ShloMosaic.ValueIdx

theorem headOf_col (a : Fin 4) (d : Fin 32) : headOf (col a d) = a :=
  Fin.ext (by show (32 * a.val + d.val) / 32 = a.val; omega)
theorem within_col (a : Fin 4) (d : Fin 32) : within (col a d) = d :=
  Fin.ext (by show (32 * a.val + d.val) % 32 = d.val; omega)
theorem col_headOf_within (q : Fin 128) : col (headOf q) (within q) = q :=
  Fin.ext (by show 32 * (q.val / 32) + q.val % 32 = q.val; omega)

/-- A feature column is a head and a position inside it. -/
def headEquiv : Fin 4 × Fin 32 ≃ Fin 128 where
  toFun p := col p.1 p.2
  invFun q := (headOf q, within q)
  left_inv p := Prod.ext (headOf_col p.1 p.2) (within_col p.1 p.2)
  right_inv q := col_headOf_within q

/-- A sum over the feature columns, head by head. -/
theorem sum_heads {M : Type*} [AddCommMonoid M] (f : Fin 128 → M) :
    ∑ q : Fin 128, f q = ∑ a : Fin 4, ∑ d : Fin 32, f (col a d) := by
  rw [← Equiv.sum_comp headEquiv f, Fintype.sum_prod_type]
  rfl

/-- Against a column of a table that vanishes off head `a`'s rows only head `a`'s 32 terms remain. -/
theorem sum_onehot (a : Fin 4) (x f : Fin 128 → EReal) :
    ∑ r : Fin 128, x r * ((if headOf r = a then (1 : EReal) else 0) * f r) = ∑ d : Fin 32, x (col a d) * f (col a d) := by
  rw [sum_heads, Finset.sum_eq_single a]
  · refine Finset.sum_congr rfl fun d _ => ?_
    rw [headOf_col, if_pos rfl, one_mul]
  · intro a' _ hne
    refine Finset.sum_eq_zero fun d _ => ?_
    rw [headOf_col, if_neg hne, zero_mul, mul_zero]
  · intro h; exact absurd (Finset.mem_univ a) h

/-- A per-head weight spread over the columns by the zero-one table reads the column's head. -/
theorem sum_spread (q : Fin 128) (w : Fin 4 → EReal) :
    ∑ a : Fin 4, w a * (if headOf q = a then (1 : EReal) else 0) = w (headOf q) := by
  rw [Finset.sum_eq_single (headOf q)]
  · rw [if_pos rfl, mul_one]
  · intro a _ hne
    rw [if_neg (fun h => hne h.symm), mul_zero]
  · intro h; exact absurd (Finset.mem_univ _) h

section
variable (h : sNxD.Idx → EReal) (edge : s2xE.Idx → BitVec 32) (feat : sEx1.Idx → EReal) (W : sDxD.Idx → EReal)
  (bias : sD.Idx → EReal) (att : sHxA.Idx → EReal)

/-- The linear kernel on the transposed table and the bias row is the projection. -/
theorem kLin_eq (x : sNxD.Idx → EReal) (wt : sDxD.Idx → EReal) (brow : s1xD.Idx → EReal)
    (hx : x = h) (hwt : ∀ k q : Fin 128, wt (ix2 k q) = W (ix2 q k)) (hb : ∀ q : Fin 128, brow (ix2 (0 : Fin 1) q) = bias (ix1 q))
    (n : Fin 50000) (q : Fin 128) : kLin x wt brow n q = z h W bias n q := by
  subst hx
  unfold kLin z
  rw [hb]
  congr 1
  exact Finset.sum_congr rfl fun k _ => by rw [hwt]

/-- An attention coefficient read at equal places. -/
theorem att_congr {a a' : Fin 4} {j j' : Fin 65} (ha : a = a') (hj : j = j') : att (ix2 a j) = att (ix2 a' j') := by
  subst ha hj; rfl

/-- The score kernel on the gathered rows and the two projection tables is the attention weight. -/
theorem kAlpha_eq (hs hd : sExD.Idx → EReal) (ms md : sDxH.Idx → EReal) (ae : s1xH.Idx → EReal)
    (hhs : ∀ (e : Fin 800000) (q : Fin 128), hs (ix2 e q) = z h W bias (src edge e) q)
    (hhd : ∀ (e : Fin 800000) (q : Fin 128), hd (ix2 e q) = z h W bias (dst edge e) q)
    (hms : ∀ (r : Fin 128) (a : Fin 4), ms (ix2 r a)
      = (if headOf r = a then (1 : EReal) else 0) * att (ix2 (headOf r) (⟨(within r).val, by omega⟩ : Fin 65)))
    (hmd : ∀ (r : Fin 128) (a : Fin 4), md (ix2 r a)
      = (if headOf r = a then (1 : EReal) else 0) * att (ix2 (headOf r) (⟨32 + (within r).val, by omega⟩ : Fin 65)))
    (hae : ∀ a : Fin 4, ae (ix2 (0 : Fin 1) a) = att (ix2 a (⟨64, by omega⟩ : Fin 65)))
    (e : Fin 800000) (a : Fin 4) :
    kAlpha hs hd feat ms md ae e a = alpha h edge feat W bias att e a := by
  unfold kAlpha alpha logit
  congr 1
  rw [hae]
  congr 1
  congr 1
  · simp only [hhs, hms]
    rw [sum_onehot a (fun r => z h W bias (src edge e) r) (fun r => att (ix2 (headOf r) (⟨(within r).val, by omega⟩ : Fin 65)))]
    refine Finset.sum_congr rfl fun d _ => ?_
    congr 1
    exact att_congr att (headOf_col a d) (Fin.ext (by show (within (col a d)).val = d.val; rw [within_col]))
  · simp only [hhd, hmd]
    rw [sum_onehot a (fun r => z h W bias (dst edge e) r) (fun r => att (ix2 (headOf r) (⟨32 + (within r).val, by omega⟩ : Fin 65)))]
    refine Finset.sum_congr rfl fun d _ => ?_
    congr 1
    exact att_congr att (headOf_col a d) (Fin.ext (by show 32 + (within (col a d)).val = 32 + d.val; rw [within_col]))

/-- The weighting kernel on the gathered source rows, the normalised weights and the zero-one table is the message. -/
theorem kMsg_eq (hs : sExD.Idx → EReal) (w : sExH.Idx → EReal) (em : sHxD.Idx → EReal)
    (hhs : ∀ (e : Fin 800000) (q : Fin 128), hs (ix2 e q) = z h W bias (src edge e) q)
    (hw : ∀ (e : Fin 800000) (a : Fin 4), w (ix2 e a) = na h edge feat W bias att e a)
    (hem : ∀ (a : Fin 4) (q : Fin 128), em (ix2 a q) = if headOf q = a then (1 : EReal) else 0)
    (e : Fin 800000) (q : Fin 128) :
    kMsg hs w em e q = msg h edge feat W bias att e q := by
  unfold kMsg msg
  rw [hhs]
  refine congrArg (z h W bias (src edge e) q * ·) ?_
  simp only [hw, hem]
  exact sum_spread q (fun a => na h edge feat W bias att e a)
end

end Cert.GAT

end
-- ==== Proof.RegionLinear.lean ====
/-
  The linear kernel's launch as a whole-array function: run over its ten row blocks from any entry contents, the output
  array ends at `x · wt + brow` of the three arrays it is handed, entry by entry (each block of 5000 rows is the same
  function of the rows it covers, and the ten blocks tile the 50000 rows).
-/
import proofs.«411918_j61280593379541_2_alg».proof.Proof.Gen.KernelIdeal.Frame
import proofs.«411918_j61280593379541_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.GAT

/-- On the row axis the left factor is read at the result's row. -/
theorem linear_dot_lhs_0 (j : S5000x128.Idx) (k : dot_S5000x128_S128x128_S5000x128_1_0_0_1_n_n.contr.Idx) :
    (dot_S5000x128_S128x128_S5000x128_1_0_0_1_n_n.lhsIdx j k (0 : Fin 2)).val = (j (0 : Fin 2)).val := by
  simp [DotDims.lhsIdx, dot_S5000x128_S128x128_S5000x128_1_0_0_1_n_n]
  rfl

/-- On the contracted axis the left factor is read at the contraction position. -/
theorem linear_dot_lhs_1 (j : S5000x128.Idx) (k : dot_S5000x128_S128x128_S5000x128_1_0_0_1_n_n.contr.Idx) :
    (dot_S5000x128_S128x128_S5000x128_1_0_0_1_n_n.lhsIdx j k (1 : Fin 2)).val = (k ⟨0, by decide⟩).val :=
  DotDims.lhsIdx_val_of_single _ rfl j k

/-- On the contracted axis the right factor is read at the contraction position. -/
theorem linear_dot_rhs_0 (j : S5000x128.Idx) (k : dot_S5000x128_S128x128_S5000x128_1_0_0_1_n_n.contr.Idx) :
    (dot_S5000x128_S128x128_S5000x128_1_0_0_1_n_n.rhsIdx j k (0 : Fin 2)).val = (k ⟨0, by decide⟩).val :=
  DotDims.rhsIdx_val_of_single _ rfl j k

/-- On the column axis the right factor is read at the result's column. -/
theorem linear_dot_rhs_1 (j : S5000x128.Idx) (k : dot_S5000x128_S128x128_S5000x128_1_0_0_1_n_n.contr.Idx) :
    (dot_S5000x128_S128x128_S5000x128_1_0_0_1_n_n.rhsIdx j k (1 : Fin 2)).val = (j (1 : Fin 2)).val := by
  simp [DotDims.rhsIdx, dot_S5000x128_S128x128_S5000x128_1_0_0_1_n_n]
  rfl

/-- The body's payload at row `p`, column `q`: the block's row against the table's column, plus the one-row array's entry. -/
theorem linear_pay_apply (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 k q)) + x2 (ix2 (0 : Fin 1) q) := by
  unfold k0_pay1
  rw [addf_apply, shapeCast_self, shapeCast_self, broadcastTo_1b_ab_apply]
  refine (congrArg (· + x2 (ix2 (0 : Fin 1) q)) (Ideal.matmul_constant_zero_apply _ _ _ _ _)).trans ?_
  rw [← Equiv.sum_comp (contrEquiv1 dot_S5000x128_S128x128_S5000x128_1_0_0_1_n_n 128 rfl rfl).symm]
  refine congrArg (· + x2 (ix2 (0 : Fin 1) q)) (Finset.sum_congr rfl fun k _ => ?_)
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact linear_dot_lhs_0 _ _
    | ⟨1, _⟩ => exact (linear_dot_lhs_1 _ _).trans hk
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (linear_dot_rhs_0 _ _).trans hk
    | ⟨1, _⟩ => exact linear_dot_rhs_1 _ _
  rw [truncf_apply, truncf_apply, hl, hr]

/-- Every access of the body starts at the origin of its block. -/
theorem linear_origin2 : (![0, 0] : Fin 2 → Nat) = fun _ => 0 := funext fun a => by fin_cases a <;> rfl

/-- The windows' index maps over the ten grid points: the input's row block moves with the output's, which is
    the grid point itself; the column blocks and both tables' blocks stay at the origin. -/
theorem linear_idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `5000 t + p` of the array; the tables are read whole: the block's product and added
    row, read through the four windows, is the whole-array function at the place the output block sits. -/
theorem linear_block_read (t : Fin cfg0.N) (x : sNxD.Idx → EReal) (wt : sDxD.Idx → EReal) (brow : s1xD.Idx → EReal)
    (p : Fin 5000) (q : Fin 128) :
    (∑ k : Fin 128, x (((cfg0.win 0).blk t).view.emb (ix2 p k)) * wt (((cfg0.win 1).blk t).view.emb (ix2 k q)))
        + brow (((cfg0.win 2).blk t).view.emb (ix2 (0 : Fin 1) q))
      = kLinA x wt brow (((cfg0.win 3).blk t).view.emb (ix2 p q)) := by
  obtain ⟨e00, e01, e10, e11, e20, e21, e30, e31⟩ := linear_idx_facts t
  have hn : 5000 * t.val + p.val < 50000 := by
    have h1 : t.val < grid0.N := t.isLt
    have h2 := p.isLt
    rw [N_0] at h1; omega
  have h3 : ((cfg0.win 3).blk t).view.emb (ix2 p q) = ix2 (⟨5000 * t.val + p.val, hn⟩ : Fin 50000) q := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  have h0 : ∀ k : Fin 128, ((cfg0.win 0).blk t).view.emb (ix2 p k) = ix2 (⟨5000 * t.val + p.val, hn⟩ : Fin 50000) k := by
    intro k; funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  have h1 : ∀ k : Fin 128, ((cfg0.win 1).blk t).view.emb (ix2 k q) = ix2 k q := by
    intro k; funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega
  rw [h3, h2]
  show _ = kLin x wt brow (⟨5000 * t.val + p.val, hn⟩ : Fin 50000) q
  unfold kLin
  refine congrArg (· + brow (ix2 (0 : Fin 1) q)) (Finset.sum_congr rfl fun k _ => ?_)
  rw [h0 k, h1 k]

variable (V : (c : Dev nD) → (b : Ref sig .tc) → Buf (Elt Ideal) ((c : Thread nD τ).loc b))

/-- What grid point `t` writes back is block `t` of the whole-array product. -/
theorem linear_flushed (c : Dev nD) (t : Fin cfg0.N) :
    (dat0 (F := Ideal) V c).flushed 3 t
      = ((cfg0.win 3).blk t).view.read (Elt Ideal) (kLinA (V c main_arg0) (V c main_v0) (V c main_v1)) := by
  show (cfg0.win 3).cut (grid0.coords t) ((dat0 V c).after 3 t) = _
  rw [after0_3]
  unfold out0_3
  rw [View.canon_unit_zero linear_origin2]
  simp only [View.ld_unit_zero (S := S5000x128) linear_origin2, View.ld_unit_zero (S := S128x128) linear_origin2,
    View.ld_unit_zero (S := S1x128) linear_origin2]
  refine funext fun (j : S5000x128.Idx) => ?_
  obtain ⟨p, q, rfl⟩ : ∃ (p : Fin 5000) (q : Fin 128), j = ix2 p q := ⟨j 0, j 1, eq_ix2 j⟩
  refine (linear_pay_apply _ _ _ p q).trans ?_
  exact linear_block_read t (V c main_arg0) (V c main_v0) (V c main_v1) p q

/-- An index of the array is in grid point `t`'s block iff each coordinate is in the block's range on its axis. -/
theorem linear_mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- The ten row blocks tile the array: row `r` lies in the block of grid point `r / 5000`. -/
theorem linear_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, e30, e31⟩ := linear_idx_facts t
  refine ⟨t, flush0_3 t, ?_⟩
  rw [linear_mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The linear launch leaves its output array at `kLinA` of its three input arrays as the region finds them. -/
theorem linear_value (c : Dev nD) :
    (dat0 (F := Ideal) V c).arrAt 3 cfg0.N = kLinA (V c main_arg0) (V c main_v0) (V c main_v1) :=
  (dat0 (F := Ideal) V c).arrAt_eq_of_cover 3 _ (fun t _ => linear_flushed V c t) linear_cover

end Cert.KernelIdeal.RegionValue

end
-- ==== Proof.RegionScore.lean ====
/-
  The score kernel's launch as a whole-array function: over its 200 blocks of 4000 edges, the output array ends at the
  attention weight of each edge and head, a function of the edge's two feature rows, its edge feature and the three small tables.
-/
import proofs.«411918_j61280593379541_2_alg».proof.Proof.Gen.KernelIdeal.Frame
import proofs.«411918_j61280593379541_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.GAT

/-! ## One dense product of a block of edge rows with a 128 × 4 table, entry by entry -/

/-- The left operand's row is the entry's row. -/
theorem score_dot_lhs_row (j : S4000x4.Idx) (k : dot_S4000x128_S128x4_S4000x4_1_0_0_1_n_n.contr.Idx) :
    ((dot_S4000x128_S128x4_S4000x4_1_0_0_1_n_n.lhsIdx j k (0 : Fin S4000x128.rank) : Fin _) : ℕ) = (j (0 : Fin S4000x4.rank)).val := by
  unfold DotDims.lhsIdx
  rw [dif_neg (show ¬(0 : Fin S4000x128.rank) ∈ dot_S4000x128_S128x4_S4000x4_1_0_0_1_n_n.lhsBatch by decide),
    dif_pos (show (0 : Fin S4000x128.rank) ∈ dot_S4000x128_S128x4_S4000x4_1_0_0_1_n_n.lhsNonContracting by decide)]
  rfl

/-- The left operand's column is the summation position. -/
theorem score_dot_lhs_col (j : S4000x4.Idx) (k : dot_S4000x128_S128x4_S4000x4_1_0_0_1_n_n.contr.Idx) :
    ((dot_S4000x128_S128x4_S4000x4_1_0_0_1_n_n.lhsIdx j k (1 : Fin S4000x128.rank) : Fin _) : ℕ) = (k ⟨0, by decide⟩).val :=
  DotDims.lhsIdx_val_of_single _ rfl j k

/-- The right operand's row is the summation position. -/
theorem score_dot_rhs_row (j : S4000x4.Idx) (k : dot_S4000x128_S128x4_S4000x4_1_0_0_1_n_n.contr.Idx) :
    ((dot_S4000x128_S128x4_S4000x4_1_0_0_1_n_n.rhsIdx j k (0 : Fin S128x4.rank) : Fin _) : ℕ) = (k ⟨0, by decide⟩).val :=
  DotDims.rhsIdx_val_of_single _ rfl j k

/-- The right operand's column is the entry's head. -/
theorem score_dot_rhs_col (j : S4000x4.Idx) (k : dot_S4000x128_S128x4_S4000x4_1_0_0_1_n_n.contr.Idx) :
    ((dot_S4000x128_S128x4_S4000x4_1_0_0_1_n_n.rhsIdx j k (1 : Fin S128x4.rank) : Fin _) : ℕ) = (j (1 : Fin S4000x4.rank)).val := by
  unfold DotDims.rhsIdx
  rw [dif_neg (show ¬(1 : Fin S128x4.rank) ∈ dot_S4000x128_S128x4_S4000x4_1_0_0_1_n_n.rhsBatch by decide),
    dif_pos (show (1 : Fin S128x4.rank) ∈ dot_S4000x128_S128x4_S4000x4_1_0_0_1_n_n.rhsNonContracting by decide)]
  rfl

/-- The product into the zero accumulator, at row `p` and head `q`: the sum over the 128 features. -/
theorem score_dot_apply (x : FVec Ideal S4000x128 .bf16) (w : FVec Ideal S128x4 .bf16) (p : Fin 4000) (q : Fin 4) :
    matmul dot_S4000x128_S128x4_S4000x4_1_0_0_1_n_n none x w (constant (F := Ideal) S4000x4 .f32 0x00000000#32) (ix2 p q)
      = ∑ r : Fin 128, x (ix2 p r) * w (ix2 r q) := by
  show FloatOps.matmul dot_S4000x128_S128x4_S4000x4_1_0_0_1_n_n none x w (constant (F := Ideal) S4000x4 .f32 0x00000000#32) (ix2 p q) = _
  rw [Ideal.matmul_constant_zero_apply,
    ← Equiv.sum_comp (contrEquiv1 dot_S4000x128_S128x4_S4000x4_1_0_0_1_n_n 128 rfl rfl).symm]
  refine Finset.sum_congr rfl fun r _ => ?_
  have hk := contrEquiv1_symm_val dot_S4000x128_S128x4_S4000x4_1_0_0_1_n_n 128 rfl rfl r
  have hl : dot_S4000x128_S128x4_S4000x4_1_0_0_1_n_n.lhsIdx (ix2 p q) ((contrEquiv1 dot_S4000x128_S128x4_S4000x4_1_0_0_1_n_n 128 rfl rfl).symm r) = ix2 p r := by
    funext a; apply Fin.ext
    match a with
    | ⟨0, _⟩ => exact score_dot_lhs_row _ _
    | ⟨1, _⟩ => exact (score_dot_lhs_col _ _).trans hk
  have hr : dot_S4000x128_S128x4_S4000x4_1_0_0_1_n_n.rhsIdx (ix2 p q) ((contrEquiv1 dot_S4000x128_S128x4_S4000x4_1_0_0_1_n_n 128 rfl rfl).symm r) = ix2 r q := by
    funext a; apply Fin.ext
    match a with
    | ⟨0, _⟩ => exact (score_dot_rhs_row _ _).trans hk
    | ⟨1, _⟩ => exact score_dot_rhs_col _ _
  rw [hl, hr]

/-! ## The body's value at one edge of the block and one head -/

/-- The rectifier, the clip and the exponential applied to a block of logits, entry by entry. -/
theorem score_tail_apply (s : FVec Ideal S4000x4 .f32) (i : S4000x4.Idx) :
    exp (minimumf (broadcast S4000x4 (Scalar.ofBits (F := Ideal) .f32 0x41A00000#32))
        (maximumf (broadcast S4000x4 (Scalar.ofBits (F := Ideal) .f32 0xC1A00000#32))
          (select (cmpf .oge s (broadcast S4000x4 (Scalar.ofBits (F := Ideal) .f32 0x00000000#32))) s
            (mulf (broadcast S4000x4 (Scalar.ofBits (F := Ideal) .f32 0x3E4CCCCD#32)) s)))) i
      = weightOf (s i) := rfl

/-- The edge-feature column spread over the four heads reads the edge's feature. -/
theorem score_featSpread_apply (x : FVec Ideal S4000x1 .f32) (p : Fin 4000) (q : Fin 4) :
    broadcastTo S4000x4 x broadcasts_S4000x1_S4000x4 (ix2 p q) = x (ix2 p (0 : Fin 1)) :=
  broadcastTo_apply x _ (ix2 p q) (ix2 p (0 : Fin 1)) (fun a => by
    match a with
    | ⟨0, _⟩ => rfl
    | ⟨1, _⟩ => rfl)

/-- The head row spread over the edges reads the head's entry. -/
theorem score_headSpread_apply (x : FVec Ideal S1x4 .f32) (p : Fin 4000) (q : Fin 4) :
    broadcastTo S4000x4 x broadcasts_S1x4_S4000x4 (ix2 p q) = x (ix2 (0 : Fin 1) q) :=
  broadcastTo_apply x _ (ix2 p q) (ix2 (0 : Fin 1) q) (fun a => by
    match a with
    | ⟨0, _⟩ => rfl
    | ⟨1, _⟩ => rfl)

/-- The body's stored block at edge `p` of the block and head `q`: the weight of the edge's logit. -/
theorem score_pay_apply (x0 x1 : Vec Ideal S4000x128 .f32) (x3 x4 : Vec Ideal S128x4 .f32) (x2 : Vec Ideal S4000x1 .f32)
    (x5 : Vec Ideal S1x4 .f32) (p : Fin 4000) (q : Fin 4) :
    k1_pay1 (F := Ideal) x0 x1 x3 x4 x2 x5 (ix2 p q)
      = weightOf ((∑ r : Fin 128, x0 (ix2 p r) * x3 (ix2 r q)) + (∑ r : Fin 128, x1 (ix2 p r) * x4 (ix2 r q))
          + x2 (ix2 p (0 : Fin 1)) * x5 (ix2 (0 : Fin 1) q)) := by
  unfold k1_pay1
  simp only [shapeCast_self]
  refine (score_tail_apply _ _).trans (congrArg weightOf ?_)
  rw [addf_apply, addf_apply, mulf_apply, score_dot_apply, score_dot_apply, score_featSpread_apply, score_headSpread_apply]
  rfl

/-! ## From the blocks to the arrays -/

variable (V : (c : Dev nD) → (b : Ref sig .tc) → Buf (Elt Ideal) ((c : Thread nD τ).loc b))

/-- The zero offsets, as the constant function. -/
theorem score_zeroOffsets : (![0, 0] : Fin 2 → Nat) = fun _ => 0 :=
  funext fun a => by match a with | ⟨0, _⟩ => rfl | ⟨1, _⟩ => rfl

/-- The index maps over the grid: the three edge-indexed inputs and the output sit at block `t` of their rows,
    the three small tables at their one block. -/
theorem score_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The grid has 200 points. -/
theorem score_point_lt (t : Fin cfg1.N) : t.val < 200 := Nat.lt_of_lt_of_eq t.isLt N_1

/-- The source rows' block at point `t`: rows `4000 t …` of the array. -/
theorem score_srcBlock_apply (c : Dev nD) (t : Fin cfg1.N) (p : Fin 4000) (r : Fin 128) (e : Fin 800000)
    (he : e.val = 4000 * t.val + p.val) :
    (iblk1 V c 0 t : Vec Ideal S4000x128 .f32) (ix2 p r) = (V c main_v7 : S800000x128.Idx → EReal) (ix2 e r) := by
  obtain ⟨h0, h1, -⟩ := score_idx_facts t
  unfold iblk1
  rw [View.read_apply]
  show V c main_v7 _ = V c main_v7 _
  congr 1
  funext a; apply Fin.ext
  match a with
  | ⟨0, _⟩ => show win1_0.index t (0 : Fin 2) * 4000 + 1 * p.val = e.val; omega
  | ⟨1, _⟩ => show win1_0.index t (1 : Fin 2) * 128 + 1 * r.val = r.val; omega

/-- The destination rows' block at point `t`: rows `4000 t …` of the array. -/
theorem score_dstBlock_apply (c : Dev nD) (t : Fin cfg1.N) (p : Fin 4000) (r : Fin 128) (e : Fin 800000)
    (he : e.val = 4000 * t.val + p.val) :
    (iblk1 V c 1 t : Vec Ideal S4000x128 .f32) (ix2 p r) = (V c main_v8 : S800000x128.Idx → EReal) (ix2 e r) := by
  obtain ⟨-, -, h0, h1, -⟩ := score_idx_facts t
  unfold iblk1
  rw [View.read_apply]
  show V c main_v8 _ = V c main_v8 _
  congr 1
  funext a; apply Fin.ext
  match a with
  | ⟨0, _⟩ => show win1_1.index t (0 : Fin 2) * 4000 + 1 * p.val = e.val; omega
  | ⟨1, _⟩ => show win1_1.index t (1 : Fin 2) * 128 + 1 * r.val = r.val; omega

/-- The edge features' block at point `t`: rows `4000 t …` of the column. -/
theorem score_featBlock_apply (c : Dev nD) (t : Fin cfg1.N) (p : Fin 4000) (e : Fin 800000)
    (he : e.val = 4000 * t.val + p.val) :
    (iblk1 V c 2 t : Vec Ideal S4000x1 .f32) (ix2 p (0 : Fin 1)) = (V c main_arg2 : S800000x1.Idx → EReal) (ix2 e (0 : Fin 1)) := by
  obtain ⟨-, -, -, -, h0, h1, -⟩ := score_idx_facts t
  unfold iblk1
  rw [View.read_apply]
  show V c main_arg2 _ = V c main_arg2 _
  congr 1
  funext a; apply Fin.ext
  match a with
  | ⟨0, _⟩ => show win1_2.index t (0 : Fin 2) * 4000 + 1 * p.val = e.val; omega
  | ⟨1, _⟩ => show win1_2.index t (1 : Fin 2) * 1 + 1 * 0 = 0; omega

/-- The source table's block at every point is the whole table. -/
theorem score_srcTable_apply (c : Dev nD) (t : Fin cfg1.N) (r : Fin 128) (q : Fin 4) :
    (iblk1 V c 3 t : Vec Ideal S128x4 .f32) (ix2 r q) = (V c main_v20 : S128x4.Idx → EReal) (ix2 r q) := by
  obtain ⟨-, -, -, -, -, -, h0, h1, -⟩ := score_idx_facts t
  unfold iblk1
  rw [View.read_apply]
  show V c main_v20 _ = V c main_v20 _
  congr 1
  funext a; apply Fin.ext
  match a with
  | ⟨0, _⟩ => show win1_3.index t (0 : Fin 2) * 128 + 1 * r.val = r.val; omega
  | ⟨1, _⟩ => show win1_3.index t (1 : Fin 2) * 4 + 1 * q.val = q.val; omega

/-- The destination table's block at every point is the whole table. -/
theorem score_dstTable_apply (c : Dev nD) (t : Fin cfg1.N) (r : Fin 128) (q : Fin 4) :
    (iblk1 V c 4 t : Vec Ideal S128x4 .f32) (ix2 r q) = (V c main_v28 : S128x4.Idx → EReal) (ix2 r q) := by
  obtain ⟨-, -, -, -, -, -, -, -, h0, h1, -⟩ := score_idx_facts t
  unfold iblk1
  rw [View.read_apply]
  show V c main_v28 _ = V c main_v28 _
  congr 1
  funext a; apply Fin.ext
  match a with
  | ⟨0, _⟩ => show win1_4.index t (0 : Fin 2) * 128 + 1 * r.val = r.val; omega
  | ⟨1, _⟩ => show win1_4.index t (1 : Fin 2) * 4 + 1 * q.val = q.val; omega

/-- The edge-feature row's block at every point is the whole row. -/
theorem score_edgeRow_apply (c : Dev nD) (t : Fin cfg1.N) (q : Fin 4) :
    (iblk1 V c 5 t : Vec Ideal S1x4 .f32) (ix2 (0 : Fin 1) q) = (V c main_v29 : S1x4.Idx → EReal) (ix2 (0 : Fin 1) q) := by
  obtain ⟨-, -, -, -, -, -, -, -, -, -, h0, h1, -⟩ := score_idx_facts t
  unfold iblk1
  rw [View.read_apply]
  show V c main_v29 _ = V c main_v29 _
  congr 1
  funext a; apply Fin.ext
  match a with
  | ⟨0, _⟩ => show win1_5.index t (0 : Fin 2) * 1 + 1 * 0 = 0; omega
  | ⟨1, _⟩ => show win1_5.index t (1 : Fin 2) * 4 + 1 * q.val = q.val; omega

/-- What point `t` writes back is block `t` of the weights of its edges' logits. -/
theorem score_flushed (c : Dev nD) (t : Fin cfg1.N) :
    (dat1 (F := Ideal) V c).flushed 6 t = ((cfg1.win 6).blk t).view.read (Elt Ideal)
      (kAlphaA (V c main_v7) (V c main_v8) (V c main_arg2) (V c main_v20) (V c main_v28) (V c main_v29)) := by
  show (cfg1.win 6).cut (grid1.coords t) ((dat1 V c).after 6 t) = _
  rw [after1_6]
  unfold out1_6
  rw [View.canon_unit_zero score_zeroOffsets]
  simp only [View.ld_unit_zero (S := S4000x128) score_zeroOffsets, View.ld_unit_zero (S := S128x4) score_zeroOffsets,
    View.ld_unit_zero (S := S4000x1) score_zeroOffsets, View.ld_unit_zero (S := S1x4) score_zeroOffsets]
  funext j
  obtain ⟨p, q, rfl⟩ : ∃ (p : Fin 4000) (q : Fin 4), j = ix2 p q := ⟨j 0, j 1, eq_ix2 j⟩
  have ht := score_point_lt t
  have hp : p.val < 4000 := p.isLt
  obtain ⟨-, -, -, -, -, -, -, -, -, -, -, -, h0, h1⟩ := score_idx_facts t
  refine (score_pay_apply _ _ _ _ _ _ p q).trans ?_
  rw [View.read_apply]
  have hemb : ((cfg1.win 6).blk t).view.emb (ix2 p q) = ix2 (⟨4000 * t.val + p.val, by omega⟩ : Fin 800000) q := by
    funext a; apply Fin.ext
    match a with
    | ⟨0, _⟩ => show win1_6.index t (0 : Fin 2) * 4000 + 1 * p.val = 4000 * t.val + p.val; omega
    | ⟨1, _⟩ => show win1_6.index t (1 : Fin 2) * 4 + 1 * q.val = q.val; omega
  show _ = kAlphaA (V c main_v7) (V c main_v8) (V c main_arg2) (V c main_v20) (V c main_v28) (V c main_v29)
    (((cfg1.win 6).blk t).view.emb (ix2 p q))
  rw [hemb]
  show _ = weightOf _
  refine congrArg weightOf ?_
  refine congrArg₂ (· + ·) (congrArg₂ (· + ·) (Finset.sum_congr rfl fun r _ => ?_) (Finset.sum_congr rfl fun r _ => ?_)) ?_
  · exact congrArg₂ (· * ·) (score_srcBlock_apply V c t p r _ rfl) (score_srcTable_apply V c t r q)
  · exact congrArg₂ (· * ·) (score_dstBlock_apply V c t p r _ rfl) (score_dstTable_apply V c t r q)
  · exact congrArg₂ (· * ·) (score_featBlock_apply V c t p _ rfl) (score_edgeRow_apply V c t q)

/-- An index of the output array is in point `t`'s block iff each coordinate is in the block's range on its axis. -/
theorem score_block_mem (t : Fin cfg1.N) (i : S800000x4.Idx) :
    i ∈ ((cfg1.win 6).blk t).view.set ↔ ∀ a : Fin 2, win1_6.index t a * S4000x4.size a ≤ (i a).val
      ∧ (i a).val < win1_6.index t a * S4000x4.size a + S4000x4.size a := by
  show i ∈ ((View.whole main_v30).slice (win1_6.rect t)).set ↔ _
  rw [View.set_slice_whole, Rect.mem_set_unit]
  exact Iff.rfl

/-- Every block of 4000 rows is some point's. -/
theorem score_idx_onto : ∀ b : Fin 200, ∃ t : Fin cfg1.N, win1_6.index t = ![b.val, 0] :=
  (by decide +kernel : ∀ b : Fin 200, ∃ t : Fin grid1.N, win1_6.index t = ![b.val, 0])

/-- The 200 blocks tile the output: edge `e` is in block `e / 4000`. -/
theorem score_cover (i : S800000x4.Idx) :
    ∃ t : Fin cfg1.N, (cfg1.win 6).flush t = true ∧ i ∈ ((cfg1.win 6).blk t).view.set := by
  have hi0 : (i 0).val < 800000 := (i 0).isLt
  have hi1 : (i 1).val < 4 := (i 1).isLt
  obtain ⟨t, ht⟩ := score_idx_onto ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [score_block_mem]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 4 ≤ (i 1).val ∧ (i 1).val < win1_6.index t (1 : Fin 2) * 4 + 4
    omega

/-- The score launch leaves its output array at `kAlphaA` of its six input arrays as the region finds them. -/
theorem score_value (c : Dev nD) :
    (dat1 (F := Ideal) V c).arrAt 6 cfg1.N
      = kAlphaA (V c main_v7) (V c main_v8) (V c main_arg2) (V c main_v20) (V c main_v28) (V c main_v29) :=
  (dat1 (F := Ideal) V c).arrAt_eq_of_cover 6 _ (fun t _ => score_flushed V c t) score_cover

end Cert.KernelIdeal.RegionValue

end
-- ==== Proof.RegionMessage.lean ====
/-
  The weighting kernel's launch as a whole-array function: over its 100 blocks of 8000 edges, the output array ends at
  each source row times the edge's per-head weights spread over the columns by the 4 × 128 table.
-/
import proofs.«411918_j61280593379541_2_alg».proof.Proof.Gen.KernelIdeal.Frame
import proofs.«411918_j61280593379541_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.GAT

variable (V : (c : Dev nD) → (b : Ref sig .tc) → Buf (Elt Ideal) ((c : Thread nD τ).loc b))

/-! ## The product of the weights by the spreading table, at an entry -/

/-- The product's operand indices, axis by axis: the weights are read at (row, head), the table at (head, column). -/
theorem message_spread_lhs_0 (j : S8000x128.Idx) (k : dot_S8000x4_S4x128_S8000x128_1_0_0_1_n_n.contr.Idx) :
    (dot_S8000x4_S4x128_S8000x128_1_0_0_1_n_n.lhsIdx j k 0).val = (j 0).val := by
  unfold DotDims.lhsIdx
  rw [dif_neg (show ¬(0 : Fin S8000x4.rank) ∈ dot_S8000x4_S4x128_S8000x128_1_0_0_1_n_n.lhsBatch by decide),
    dif_pos (show (0 : Fin S8000x4.rank) ∈ dot_S8000x4_S4x128_S8000x128_1_0_0_1_n_n.lhsNonContracting by decide)]
  rfl

theorem message_spread_lhs_1 (j : S8000x128.Idx) (k : dot_S8000x4_S4x128_S8000x128_1_0_0_1_n_n.contr.Idx) :
    (dot_S8000x4_S4x128_S8000x128_1_0_0_1_n_n.lhsIdx j k 1).val = (k ⟨0, by decide⟩).val :=
  DotDims.lhsIdx_val_of_single (d := dot_S8000x4_S4x128_S8000x128_1_0_0_1_n_n) (cl := 1) rfl j k

theorem message_spread_rhs_0 (j : S8000x128.Idx) (k : dot_S8000x4_S4x128_S8000x128_1_0_0_1_n_n.contr.Idx) :
    (dot_S8000x4_S4x128_S8000x128_1_0_0_1_n_n.rhsIdx j k 0).val = (k ⟨0, by decide⟩).val :=
  DotDims.rhsIdx_val_of_single (d := dot_S8000x4_S4x128_S8000x128_1_0_0_1_n_n) (cr := 0) rfl j k

theorem message_spread_rhs_1 (j : S8000x128.Idx) (k : dot_S8000x4_S4x128_S8000x128_1_0_0_1_n_n.contr.Idx) :
    (dot_S8000x4_S4x128_S8000x128_1_0_0_1_n_n.rhsIdx j k 1).val = (j 1).val := by
  unfold DotDims.rhsIdx
  rw [dif_neg (show ¬(1 : Fin S4x128.rank) ∈ dot_S8000x4_S4x128_S8000x128_1_0_0_1_n_n.rhsBatch by decide),
    dif_pos (show (1 : Fin S4x128.rank) ∈ dot_S8000x4_S4x128_S8000x128_1_0_0_1_n_n.rhsNonContracting by decide)]
  rfl

/-- The block product into zeros, at row `p` and column `q`: the sum over the four heads. -/
theorem message_spread_apply (x : FVec Ideal S8000x4 .bf16) (y : FVec Ideal S4x128 .bf16) (p : Fin 8000) (q : Fin 128) :
    matmul dot_S8000x4_S4x128_S8000x128_1_0_0_1_n_n none x y (constant (F := Ideal) S8000x128 .f32 0x00000000#32) (ix2 p q)
      = ∑ a : Fin 4, x (ix2 p a) * y (ix2 a q) := by
  simp only [matmul]
  rw [Ideal.matmul_constant_zero_apply, ← Equiv.sum_comp (contrEquiv1 dot_S8000x4_S4x128_S8000x128_1_0_0_1_n_n 4 rfl rfl).symm]
  refine Finset.sum_congr rfl fun a _ => ?_
  have ca := contrEquiv1_symm_val dot_S8000x4_S4x128_S8000x128_1_0_0_1_n_n 4 rfl rfl a
  have hl : dot_S8000x4_S4x128_S8000x128_1_0_0_1_n_n.lhsIdx (ix2 p q) ((contrEquiv1 _ 4 rfl rfl).symm a) = ix2 p a := by
    funext ax; apply Fin.ext
    match ax with
    | ⟨0, _⟩ => exact message_spread_lhs_0 _ _
    | ⟨1, _⟩ => exact (message_spread_lhs_1 _ _).trans ca
  have hr : dot_S8000x4_S4x128_S8000x128_1_0_0_1_n_n.rhsIdx (ix2 p q) ((contrEquiv1 _ 4 rfl rfl).symm a) = ix2 a q := by
    funext ax; apply Fin.ext
    match ax with
    | ⟨0, _⟩ => exact (message_spread_rhs_0 _ _).trans ca
    | ⟨1, _⟩ => exact message_spread_rhs_1 _ _
  rw [hl, hr]

/-- What the body stores, at row `p` and column `q` of its blocks: the source entry times the weights spread to that column. -/
theorem message_pay_apply (x1 : Vec Ideal S8000x4 .f32) (x2 : Vec Ideal S4x128 .f32) (x0 : Vec Ideal S8000x128 .f32)
    (p : Fin 8000) (q : Fin 128) :
    k2_pay1 x1 x2 x0 (ix2 p q) = x0 (ix2 p q) * ∑ a : Fin 4, x1 (ix2 p a) * x2 (ix2 a q) := by
  unfold k2_pay1
  rw [mulf_apply, shapeCast_self, message_spread_apply]
  refine congrArg _ (Finset.sum_congr rfl fun a _ => ?_)
  rw [truncf_apply, truncf_apply, shapeCast_self, shapeCast_self]

/-! ## From the blocks to the array -/

/-- The whole-block offsets are zero on both axes. -/
theorem message_zero_offsets : (![0, 0] : Fin 2 → Nat) = fun _ => 0 := funext fun a => by fin_cases a <;> rfl

/-- The blocks' index maps over the grid: block `t` of the edge arrays is row block `t`, the table is whole. -/
theorem message_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block `t` of the source rows, at row `p` and column `q`: edge `8000 t + p` of the array. -/
theorem message_rows_block_at (c : Dev nD) (t : Fin cfg2.N) (p : Fin 8000) (q : Fin 128) (r : Fin 800000)
    (hr : r.val = 8000 * t.val + p.val) :
    (iblk2 V c 0 t : Vec Ideal S8000x128 .f32) (ix2 p q) = V c main_v7 (ix2 r q) := by
  obtain ⟨e00, e01, -⟩ := message_block_index t
  show V c main_v7 (((cfg2.win 0).blk t).view.emb (ix2 p q)) = V c main_v7 (ix2 r q)
  refine congrArg _ ?_
  funext a; apply Fin.ext
  match a with
  | ⟨0, _⟩ => show win2_0.index t (0 : Fin 2) * 8000 + 1 * p.val = r.val; omega
  | ⟨1, _⟩ => show win2_0.index t (1 : Fin 2) * 128 + 1 * q.val = q.val; omega

/-- Block `t` of the weights, at row `p` and head `a`: edge `8000 t + p` of the array. -/
theorem message_weights_block_at (c : Dev nD) (t : Fin cfg2.N) (p : Fin 8000) (a : Fin 4) (r : Fin 800000)
    (hr : r.val = 8000 * t.val + p.val) :
    (iblk2 V c 1 t : Vec Ideal S8000x4 .f32) (ix2 p a) = V c main_v37 (ix2 r a) := by
  obtain ⟨-, -, e10, e11, -⟩ := message_block_index t
  show V c main_v37 (((cfg2.win 1).blk t).view.emb (ix2 p a)) = V c main_v37 (ix2 r a)
  refine congrArg _ ?_
  funext b; apply Fin.ext
  match b with
  | ⟨0, _⟩ => show win2_1.index t (0 : Fin 2) * 8000 + 1 * p.val = r.val; omega
  | ⟨1, _⟩ => show win2_1.index t (1 : Fin 2) * 4 + 1 * a.val = a.val; omega

/-- The table's block at every point is the table. -/
theorem message_table_block_at (c : Dev nD) (t : Fin cfg2.N) (a : Fin 4) (q : Fin 128) :
    (iblk2 V c 2 t : Vec Ideal S4x128 .f32) (ix2 a q) = V c main_v42 (ix2 a q) := by
  obtain ⟨-, -, -, -, e20, e21, -⟩ := message_block_index t
  show V c main_v42 (((cfg2.win 2).blk t).view.emb (ix2 a q)) = V c main_v42 (ix2 a q)
  refine congrArg _ ?_
  funext b; apply Fin.ext
  match b with
  | ⟨0, _⟩ => show win2_2.index t (0 : Fin 2) * 4 + 1 * a.val = a.val; omega
  | ⟨1, _⟩ => show win2_2.index t (1 : Fin 2) * 128 + 1 * q.val = q.val; omega

/-- The output block's entry `(p, q)` sits at edge `8000 t + p`, column `q` of the array. -/
theorem message_out_block_emb (t : Fin cfg2.N) (p : Fin 8000) (q : Fin 128) (r : Fin 800000)
    (hr : r.val = 8000 * t.val + p.val) :
    ((cfg2.win 3).blk t).view.emb (ix2 p q) = ix2 r q := by
  obtain ⟨-, -, -, -, -, -, e30, e31⟩ := message_block_index t
  funext b; apply Fin.ext
  match b with
  | ⟨0, _⟩ => show win2_3.index t (0 : Fin 2) * 8000 + 1 * p.val = r.val; omega
  | ⟨1, _⟩ => show win2_3.index t (1 : Fin 2) * 128 + 1 * q.val = q.val; omega

/-- The target array at edge `r`, column `q`. -/
theorem kMsgA_at (hs : sExD.Idx → EReal) (w : sExH.Idx → EReal) (em : sHxD.Idx → EReal) (r : Fin 800000) (q : Fin 128) :
    kMsgA hs w em (ix2 r q) = hs (ix2 r q) * ∑ a : Fin 4, w (ix2 r a) * em (ix2 a q) := rfl

/-- What point `t` writes back is block `t` of the target array. -/
theorem message_flushed_eq (c : Dev nD) (t : Fin cfg2.N) :
    (dat2 (F := Ideal) V c).flushed 3 t
      = ((cfg2.win 3).blk t).view.read (Elt Ideal) (kMsgA (V c main_v7) (V c main_v37) (V c main_v42)) := by
  show (cfg2.win 3).cut (grid2.coords t) ((dat2 V c).after 3 t) = _
  rw [after2_3]
  unfold out2_3
  rw [View.canon_unit_zero message_zero_offsets]
  simp only [View.ld_unit_zero (S := S8000x4) message_zero_offsets, View.ld_unit_zero (S := S4x128) message_zero_offsets,
    View.ld_unit_zero (S := S8000x128) message_zero_offsets]
  have key : ∀ (p : Fin 8000) (q : Fin 128),
      k2_pay1 (iblk2 V c 1 t) (iblk2 V c 2 t) (iblk2 V c 0 t) (ix2 p q)
        = kMsgA (V c main_v7) (V c main_v37) (V c main_v42) (((cfg2.win 3).blk t).view.emb (ix2 p q)) := by
    intro p q
    have ht : t.val < 100 := t.isLt
    have hr : (⟨8000 * t.val + p.val, by omega⟩ : Fin 800000).val = 8000 * t.val + p.val := rfl
    refine (message_pay_apply _ _ _ p q).trans ?_
    rw [message_out_block_emb t p q _ hr, message_rows_block_at V c t p q _ hr]
    rw [kMsgA_at]
    refine congrArg _ (Finset.sum_congr rfl fun a _ => ?_)
    rw [message_weights_block_at V c t p a _ hr, message_table_block_at V c t a q]
  funext j
  rw [eq_ix2 j]
  exact key _ _

/-- An index of the array is in point `t`'s block iff each coordinate is in the block's range on its axis. -/
theorem message_mem_out_block (t : Fin cfg2.N) (i : S800000x128.Idx) :
    i ∈ ((cfg2.win 3).blk t).view.set ↔ ∀ a : Fin 2, win2_3.index t a * S8000x128.size a ≤ (i a).val
      ∧ (i a).val < win2_3.index t a * S8000x128.size a + S8000x128.size a := by
  show i ∈ ((View.whole main_v43).slice (win2_3.rect t)).set ↔ _
  rw [View.set_slice_whole, Rect.mem_set_unit]
  exact Iff.rfl

/-- Every entry of the array is in the block of the point its edge's row block names. -/
theorem message_out_cover (i : S800000x128.Idx) :
    ∃ t : Fin cfg2.N, (cfg2.win 3).flush t = true ∧ i ∈ ((cfg2.win 3).blk t).view.set := by
  have hi0 : (i 0).val < 800000 := (i 0).isLt
  have hi1 : (i 1).val < 128 := (i 1).isLt
  have hN : cfg2.N = 100 := N_2
  obtain ⟨t, ht⟩ : ∃ t : Fin cfg2.N, t.val = (i 0).val / 8000 := ⟨⟨(i 0).val / 8000, by rw [hN]; omega⟩, rfl⟩
  obtain ⟨-, -, -, -, -, -, e30, e31⟩ := message_block_index t
  refine ⟨t, flush2_3 t, ?_⟩
  rw [message_mem_out_block]
  intro a
  match a with
  | ⟨0, _⟩ => show win2_3.index t (0 : Fin 2) * 8000 ≤ (i 0).val ∧ (i 0).val < win2_3.index t (0 : Fin 2) * 8000 + 8000; omega
  | ⟨1, _⟩ => show win2_3.index t (1 : Fin 2) * 128 ≤ (i 1).val ∧ (i 1).val < win2_3.index t (1 : Fin 2) * 128 + 128; omega

/-- The weighting launch leaves its output array at `kMsgA` of its three input arrays as the region finds them. -/
theorem message_value (c : Dev nD) :
    (dat2 (F := Ideal) V c).arrAt 3 cfg2.N = kMsgA (V c main_v7) (V c main_v37) (V c main_v42) := by
  exact (dat2 (F := Ideal) V c).arrAt_eq_of_cover 3 (kMsgA (V c main_v7) (V c main_v37) (V c main_v42))
    (fun t _ => message_flushed_eq V c t) message_out_cover

end Cert.KernelIdeal.RegionValue

end
-- ==== Proof.RegionClosing.lean ====
/-
  The closing kernel's launch as a whole-array function: over its ten blocks of 5000 rows, the output array ends at the
  exponential linear unit of the layer-normalised residual, row by row.
-/
import proofs.«411918_j61280593379541_2_alg».proof.Proof.Gen.KernelIdeal.Frame
import proofs.«411918_j61280593379541_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen Cert.GAT

variable (V : (c : Dev nD) → (b : Ref sig .tc) → Buf (Elt Ideal) ((c : Thread nD τ).loc b))

/-! ## The literals and the layout operations of the body, read at an index -/

/-- The word of 1.0 is the number one. -/
theorem closing_one_word : Ideal.ofBits .f32 0x3F800000#32 = 1 := by
  simp [Ideal.ofBits, Ideal.ieee, -EReal.coe_mul]; norm_num

/-- A vector of a entries cast to the column [a, 1] reads, at (i, u), the operand at i. -/
theorem closing_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem closing_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a block, at row p: the sum of the row's 128 entries. -/
theorem closing_laneSum_apply (v : FVec Ideal S5000x128 .f32) (hφ : FTy.f32 = FTy.f32 ∨ FTy.f32 = FTy.bf16)
    (hacc : (0x00000000#32 : BitVec 32) = 0x00000000#32) (p : Fin 5000) :
    multiReduction (F := Ideal) .add [1] S5000 v 0x00000000#32 reduces_S5000x128_S5000 hφ hacc (ix1 p)
      = ∑ k : Fin 128, v (ix2 p k) := by
  refine (Ideal.multiReduction_add_single v 0x00000000#32 reduces_S5000x128_S5000 hφ hacc (ix1 p)).trans ?_
  refine Finset.sum_congr rfl fun k _ => congrArg v ?_
  funext a
  apply Fin.ext
  match a with
  | ⟨0, _⟩ => rfl
  | ⟨1, _⟩ => rfl

/-! ## The body's stored value at an index -/

/-- The rsqrt and exp of a vector read at an index are those of the element. -/
theorem closing_rsqrt_apply {s : Shape} {φ : FTy} (a : FVec Ideal s φ) (i : s.Idx) : rsqrt a i = Ideal.rsqrt (a i) := rfl
theorem closing_exp_apply {s : Shape} {φ : FTy} (a : FVec Ideal s φ) (i : s.Idx) : exp a i = Ideal.exp (a i) := rfl

/-- What the body stores at row p, column q of its block: the exponential linear unit of the layer-normalised
    sum of the two loaded rows, scaled and shifted by the two tables' one row. -/
theorem closing_payload_apply (x0 x1 : Vec Ideal S5000x128 .f32) (g b : Vec Ideal S1x128 .f32) (p : Fin 5000) (q : Fin 128) :
    k3_pay1 (F := Ideal) x0 x1 g b (ix2 p q)
      = elu (normed (fun q' => x0 (ix2 p q') + x1 (ix2 p q')) (fun q' => g (ix2 (0 : Fin 1) q'))
          (fun q' => b (ix2 (0 : Fin 1) q')) q) := by
  have lane : ∀ (v : FVec Ideal S5000x128 .f32) (r : Fin 5000),
      multiReduction (F := Ideal) .add [1] S5000 v 0x00000000#32 reduces_S5000x128_S5000 (.inl rfl) rfl (ix1 r)
        = ∑ k : Fin 128, v (ix2 r k) := fun v r => closing_laneSum_apply v (.inl rfl) rfl r
  unfold k3_pay1
  simp only [shapeCast_self]
  simp only [select_apply, cmpf_apply, addf_apply, mulf_apply, subf_apply, divf_apply, closing_exp_apply, closing_rsqrt_apply,
    broadcast_apply, broadcastTo_1b_ab_apply, closing_broadcastTo_a1_ab_apply, closing_shapeCast_a_a1_apply, lane,
    Ideal.ofBits_def]
  unfold elu normed variance mean
  rw [closing_one_word]
  rfl

/-! ## From the blocks to the array -/

theorem closing_zero_offsets : (![0, 0] : Fin 2 → Nat) = fun _ => 0 := funext fun a => by fin_cases a <;> rfl

/-- One entry of a block against the array's: when row p of the two loaded blocks is row n of the two arrays and the
    tables' blocks are the tables, the body's stored value at (p, q) is the closing function at (n, q). -/
theorem closing_block_apply (x0 x1 : Vec Ideal S5000x128 .f32) (g b : Vec Ideal S1x128 .f32)
    (agg zz : sNxD.Idx → EReal) (grow brow : s1xD.Idx → EReal) (n : Fin 50000) (p : Fin 5000) (q : Fin 128)
    (h0 : ∀ q' : Fin 128, x0 (ix2 p q') = agg (ix2 n q')) (h1 : ∀ q' : Fin 128, x1 (ix2 p q') = zz (ix2 n q'))
    (hg : ∀ q' : Fin 128, g (ix2 (0 : Fin 1) q') = grow (ix2 (0 : Fin 1) q'))
    (hb : ∀ q' : Fin 128, b (ix2 (0 : Fin 1) q') = brow (ix2 (0 : Fin 1) q')) :
    k3_pay1 (F := Ideal) x0 x1 g b (ix2 p q) = kOut agg zz grow brow n q := by
  rw [closing_payload_apply]
  unfold kOut
  simp only [h0, h1, hg, hb]

/-- The launch's index maps, decided over its ten points: the two big inputs and the output move together down the
    rows, one block per point; the two tables stay. -/
theorem closing_block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the closing function of the four arrays as the region finds them. -/
theorem closing_flushed (c : Dev nD) (t : Fin cfg3.N) :
    (dat3 (F := Ideal) V c).flushed 4 t
      = ((cfg3.win 4).blk t).view.read (Elt Ideal) (kOutA (V c main_v46) (V c main_v2) (V c main_v47) (V c main_v48)) := by
  show (cfg3.win 4).cut (grid3.coords t) ((dat3 (F := Ideal) V c).after 4 t) = _
  rw [after3_4]
  unfold out3_4
  rw [View.canon_unit_zero closing_zero_offsets]
  simp only [View.ld_unit_zero (S := S5000x128) closing_zero_offsets, View.ld_unit_zero (S := S1x128) closing_zero_offsets]
  obtain ⟨e00, e01, e10, e11, e20, e21, e30, e31, e40, e41⟩ := closing_block_indices t
  have ht : t.val < 10 := lt_of_lt_of_eq t.isLt N_3
  funext j
  have hj0 : (j 0).val < 5000 := (j 0).isLt
  have hj1 : (j 1).val < 128 := (j 1).isLt
  have hx : (cfg3.win 4).xinj (grid3.coords t) j
      = (ix2 (⟨(j 0).val, hj0⟩ : Fin 5000) (⟨(j 1).val, hj1⟩ : Fin 128) : S5000x128.Idx) := by
    funext a
    apply Fin.ext
    match a with
    | ⟨0, _⟩ => rfl
    | ⟨1, _⟩ => rfl
  refine (congrArg (k3_pay1 (F := Ideal) (iblk3 V c 0 t) (iblk3 V c 1 t) (iblk3 V c 2 t) (iblk3 V c 3 t)) hx).trans ?_
  refine (closing_block_apply (iblk3 V c 0 t) (iblk3 V c 1 t) (iblk3 V c 2 t) (iblk3 V c 3 t)
    (V c main_v46) (V c main_v2) (V c main_v47) (V c main_v48)
    (⟨5000 * t.val + (j 0).val, by omega⟩ : Fin 50000) ⟨(j 0).val, hj0⟩ ⟨(j 1).val, hj1⟩ ?_ ?_ ?_ ?_).trans ?_
  · intro q'
    show V c main_v46 (((cfg3.win 0).blk t).view.emb (ix2 (⟨(j 0).val, hj0⟩ : Fin 5000) q')) = V c main_v46 _
    refine congrArg (V c main_v46) (funext fun a => Fin.ext ?_)
    match a with
    | ⟨0, _⟩ => show win3_0.index t (0 : Fin 2) * 5000 + 1 * (j 0).val = 5000 * t.val + (j 0).val; omega
    | ⟨1, _⟩ => show win3_0.index t (1 : Fin 2) * 128 + 1 * q'.val = q'.val; omega
  · intro q'
    show V c main_v2 (((cfg3.win 1).blk t).view.emb (ix2 (⟨(j 0).val, hj0⟩ : Fin 5000) q')) = V c main_v2 _
    refine congrArg (V c main_v2) (funext fun a => Fin.ext ?_)
    match a with
    | ⟨0, _⟩ => show win3_1.index t (0 : Fin 2) * 5000 + 1 * (j 0).val = 5000 * t.val + (j 0).val; omega
    | ⟨1, _⟩ => show win3_1.index t (1 : Fin 2) * 128 + 1 * q'.val = q'.val; omega
  · intro q'
    show V c main_v47 (((cfg3.win 2).blk t).view.emb (ix2 (0 : Fin 1) q')) = V c main_v47 _
    refine congrArg (V c main_v47) (funext fun a => Fin.ext ?_)
    match a with
    | ⟨0, _⟩ => show win3_2.index t (0 : Fin 2) * 1 + 1 * 0 = 0; omega
    | ⟨1, _⟩ => show win3_2.index t (1 : Fin 2) * 128 + 1 * q'.val = q'.val; omega
  · intro q'
    show V c main_v48 (((cfg3.win 3).blk t).view.emb (ix2 (0 : Fin 1) q')) = V c main_v48 _
    refine congrArg (V c main_v48) (funext fun a => Fin.ext ?_)
    match a with
    | ⟨0, _⟩ => show win3_3.index t (0 : Fin 2) * 1 + 1 * 0 = 0; omega
    | ⟨1, _⟩ => show win3_3.index t (1 : Fin 2) * 128 + 1 * q'.val = q'.val; omega
  · show kOut _ _ _ _ _ _ = kOut (V c main_v46) (V c main_v2) (V c main_v47) (V c main_v48)
        ((((cfg3.win 4).blk t).view.emb j) 0) ((((cfg3.win 4).blk t).view.emb j) 1)
    refine congrArg₂ (kOut (V c main_v46) (V c main_v2) (V c main_v47) (V c main_v48)) (Fin.ext ?_) (Fin.ext ?_)
    · show 5000 * t.val + (j 0).val = win3_4.index t (0 : Fin 2) * 5000 + 1 * (j 0).val; omega
    · show (j 1).val = win3_4.index t (1 : Fin 2) * 128 + 1 * (j 1).val; omega

/-- An index of the array is in point t's block iff each coordinate is in the block's range on its axis. -/
theorem closing_mem_block (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v49).slice (win3_4.rect t)).set ↔ _
  rw [View.set_slice_whole, Rect.mem_set_unit]
  exact Iff.rfl

/-- The ten blocks tile the array: row r is in the block of point r / 5000. -/
theorem closing_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, e40, e41⟩ := closing_block_indices t
  refine ⟨t, flush3_4 t, ?_⟩
  rw [closing_mem_block]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- The closing launch leaves its output array at `kOutA` of its four input arrays as the region finds them. -/
theorem closing_value (c : Dev nD) :
    (dat3 (F := Ideal) V c).arrAt 4 cfg3.N = kOutA (V c main_v46) (V c main_v2) (V c main_v47) (V c main_v48) := by
  exact (dat3 (F := Ideal) V c).arrAt_eq_of_cover 4 _ (fun t _ => closing_flushed V c t) closing_cover

end Cert.KernelIdeal.RegionValue

end
-- ==== Proof.IndexOps.lean ====
/-
  Reading a row gather at an index.

  A gather of rows through a one-column array of start indices reads, at `(e, q)`, the operand's row `node (idx e)`
  (the start read signed and clamped so the one-row slice fits), whatever the rows' layout. The dimension records of the
  row gathers and row scatters this proof meets are stated here once.
-/
import proofs.«411918_j61280593379541_2_alg».proof.Proof.Spec

noncomputable section

open scoped BigOperators

namespace Cert.GAT

open Idealize.ShloMosaic Idealize.ShloMosaic.ValueIdx

abbrev sNxHxK : Shape := ⟨3, ![50000, 4, 32]⟩
abbrev sExHxK : Shape := ⟨3, ![800000, 4, 32]⟩

/-- Dimension numbers of a row gather `[N, 128]` by `[E, 1]` starts into `[E, 128]`. -/
def gathD : GatherDims sNxD sEx1 sExD where
  offsetDims := [1]
  collapsedSliceDims := [0]
  operandBatchingDims := []
  startIndicesBatchingDims := []
  startIndexMap := [0]
  indexVectorDim := 1
  sliceSizes := ![1, 128]
/-- Dimension numbers of a row gather `[N, 4]` by `[E, 1]` starts into `[E, 4]`. -/
def gathH : GatherDims sNxH sEx1 sExH where
  offsetDims := [1]
  collapsedSliceDims := [0]
  operandBatchingDims := []
  startIndicesBatchingDims := []
  startIndexMap := [0]
  indexVectorDim := 1
  sliceSizes := ![1, 4]
/-- Dimension numbers of a row gather `[N, 4, 32]` by `[E, 1]` starts into `[E, 4, 32]`. -/
def gathHK : GatherDims sNxHxK sEx1 sExHxK where
  offsetDims := [1, 2]
  collapsedSliceDims := [0]
  operandBatchingDims := []
  startIndicesBatchingDims := []
  startIndexMap := [0]
  indexVectorDim := 1
  sliceSizes := ![1, 4, 32]
/-- Dimension numbers of a row scatter of `[E, 4, 32]` updates into `[N, 4, 32]`. -/
def scatHK : ScatterDims sNxHxK sEx1 sExHxK where
  updateWindowDims := [1, 2]
  insertedWindowDims := [0]
  scatterDimsToOperandDims := [0]
  indexVectorDim := 1

variable {α : Type}

/-- A row gather of `[N, 128]` at `(e, q)`: row `node (idx e)`, column `q`. -/
theorem gathD_apply (x : sNxD.Idx → α) (idx : IVec sEx1 32) (e : Fin 800000) (q : Fin 128) :
    Host.gather gathD x idx (ix2 e q) = x (ix2 (node (idx (ix2 e (0 : Fin 1)))) q) := by
  unfold Host.gather
  congr 1
  funext a
  refine Fin.ext ?_
  match a with
  | ⟨0, _⟩ =>
    show gathD.start (ix2 e q) idx 0 + gathD.batchCoord (ix2 e q) 0 + gathD.offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gathD.startIndexMap from List.mem_singleton.mpr rfl)]
    have hsi : gathD.siIdx (ix2 e q) ⟨List.idxOf (0 : Fin 2) gathD.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gathD.start (ix2 e q) idx 1 + gathD.batchCoord (ix2 e q) 1 + gathD.offCoord (ix2 e q) 1 = _
    rw [GatherDims.batchCoord_eq_zero _ _ _ List.not_mem_nil]
    have hs : gathD.start (ix2 e q) idx 1 = 0 := by
      unfold GatherDims.start
      rw [dif_neg (show (1 : Fin 2) ∉ gathD.startIndexMap by decide)]
    rw [hs]
    have hk : (1 : Fin 2) ∈ gathD.sKept :=
      (GatherDims.mem_sKept _ _).2 ⟨by decide, List.not_mem_nil⟩
    unfold GatherDims.offCoord
    rw [dif_pos hk]
    simp only [Nat.add_zero, Nat.zero_add]
    rfl

/-- A row gather of `[N, 4]` at `(e, a)`. -/
theorem gathH_apply (x : sNxH.Idx → α) (idx : IVec sEx1 32) (e : Fin 800000) (a : Fin 4) :
    Host.gather gathH x idx (ix2 e a) = x (ix2 (node (idx (ix2 e (0 : Fin 1)))) a) := by
  unfold Host.gather
  congr 1
  funext ax
  refine Fin.ext ?_
  match ax with
  | ⟨0, _⟩ =>
    show gathH.start (ix2 e a) idx 0 + gathH.batchCoord (ix2 e a) 0 + gathH.offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gathH.startIndexMap from List.mem_singleton.mpr rfl)]
    have hsi : gathH.siIdx (ix2 e a) ⟨List.idxOf (0 : Fin 2) gathH.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gathH.start (ix2 e a) idx 1 + gathH.batchCoord (ix2 e a) 1 + gathH.offCoord (ix2 e a) 1 = _
    rw [GatherDims.batchCoord_eq_zero _ _ _ List.not_mem_nil]
    have hs : gathH.start (ix2 e a) idx 1 = 0 := by
      unfold GatherDims.start
      rw [dif_neg (show (1 : Fin 2) ∉ gathH.startIndexMap by decide)]
    rw [hs]
    have hk : (1 : Fin 2) ∈ gathH.sKept :=
      (GatherDims.mem_sKept _ _).2 ⟨by decide, List.not_mem_nil⟩
    unfold GatherDims.offCoord
    rw [dif_pos hk]
    simp only [Nat.add_zero, Nat.zero_add]
    rfl

/-- A row gather of `[N, 4, 32]` at `(e, a, d)`. -/
theorem gathHK_apply (x : sNxHxK.Idx → α) (idx : IVec sEx1 32) (e : Fin 800000) (a : Fin 4) (d : Fin 32) :
    Host.gather gathHK x idx (ix3 e a d) = x (ix3 (node (idx (ix2 e (0 : Fin 1)))) a d) := by
  unfold Host.gather
  congr 1
  funext ax
  refine Fin.ext ?_
  match ax with
  | ⟨0, _⟩ =>
    show gathHK.start (ix3 e a d) idx 0 + gathHK.batchCoord (ix3 e a d) 0 + gathHK.offCoord (ix3 e a d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gathHK.startIndexMap from List.mem_singleton.mpr rfl)]
    have hsi : gathHK.siIdx (ix3 e a d) ⟨List.idxOf (0 : Fin 3) gathHK.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gathHK.start (ix3 e a d) idx 1 + gathHK.batchCoord (ix3 e a d) 1 + gathHK.offCoord (ix3 e a d) 1 = _
    rw [GatherDims.batchCoord_eq_zero _ _ _ List.not_mem_nil]
    have hs : gathHK.start (ix3 e a d) idx 1 = 0 := by
      unfold GatherDims.start
      rw [dif_neg (show (1 : Fin 3) ∉ gathHK.startIndexMap by decide)]
    rw [hs]
    have hk : (1 : Fin 3) ∈ gathHK.sKept :=
      (GatherDims.mem_sKept _ _).2 ⟨by decide, List.not_mem_nil⟩
    unfold GatherDims.offCoord
    rw [dif_pos hk]
    simp only [Nat.add_zero, Nat.zero_add]
    rfl
  | ⟨2, _⟩ =>
    show gathHK.start (ix3 e a d) idx 2 + gathHK.batchCoord (ix3 e a d) 2 + gathHK.offCoord (ix3 e a d) 2 = _
    rw [GatherDims.batchCoord_eq_zero _ _ _ List.not_mem_nil]
    have hs : gathHK.start (ix3 e a d) idx 2 = 0 := by
      unfold GatherDims.start
      rw [dif_neg (show (2 : Fin 3) ∉ gathHK.startIndexMap by decide)]
    rw [hs]
    have hk : (2 : Fin 3) ∈ gathHK.sKept :=
      (GatherDims.mem_sKept _ _).2 ⟨by decide, List.not_mem_nil⟩
    unfold GatherDims.offCoord
    rw [dif_pos hk]
    simp only [Nat.add_zero, Nat.zero_add]
    rfl

end Cert.GAT

end
-- ==== Proof.KernelHostA.lean ====
/-
  What the first two launches are handed, read through the host operations before them: the transposed weight table and
  the bias as a row; then the two gathered feature arrays (a row gather whose out-of-range rows would be filled with the
  not-a-number word: inside the stated index range no row is), the edge features, the two 128 × 4 projection tables
  (a head's 32 attention coefficients down the head's own rows, zeros elsewhere) and the edge-feature coefficients as a row.
-/
import proofs.«411918_j61280593379541_2_alg».proof.Proof.Gen.KernelIdeal.Frame
import proofs.«411918_j61280593379541_2_alg».proof.Proof.Spec
import proofs.«411918_j61280593379541_2_alg».proof.Proof.IndexOps
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.ReduceAll

set_option maxRecDepth 16384

noncomputable section

open scoped BigOperators

namespace Cert.KernelIdeal.HostValue

open Idealize.ShloMosaic Idealize.ShloMosaic.TcCoe Idealize.ShloMosaic.ValueIdx Idealize.SL.Sem
open Cert.KernelIdeal Cert.KernelIdeal.Gen Cert.GAT

variable (m : (ℓ : Loc nD τ sig) → Buf (Elt Ideal) ℓ) (ρ : Dev nD → PrngReg) (c : Dev nD)

/-- A buffer the stretch does not write keeps its contents: the side condition, operation by operation. -/
macro "hostA_not_written" : tactic =>
  `(tactic| (simp only [List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- One stretch of host operations crossed at a buffer it does not write. -/
macro "hostA_hop" : tactic =>
  `(tactic| (refine Eq.trans (StableHlo.after_of_forall_not_mem _ _ (List.forall_iff_forall_mem.mp ?_)) ?_
             · hostA_not_written))

/-- The same, read at an index. -/
macro "hostA_hop_at" : tactic =>
  `(tactic| (refine Eq.trans (congrFun (StableHlo.after_of_forall_not_mem _ _ (List.forall_iff_forall_mem.mp ?_)) _) ?_
             · hostA_not_written))

/-! ## The argument arrays the linear launch does not write, at its exit: as launched -/

theorem hostA_arg1_W2 : W2 m ρ c (Proc.devRef .tc main_arg1) = m ((c : Thread nD τ).loc main_arg1) := by
  refine (W2_of_ne m ρ c main_arg1 (by decide)).trans ?_
  hostA_hop; rfl
theorem hostA_arg2_W2 : W2 m ρ c (Proc.devRef .tc main_arg2) = m ((c : Thread nD τ).loc main_arg2) := by
  refine (W2_of_ne m ρ c main_arg2 (by decide)).trans ?_
  hostA_hop; rfl
theorem hostA_arg5_W2 : W2 m ρ c (Proc.devRef .tc main_arg5) = m ((c : Thread nD τ).loc main_arg5) := by
  refine (W2_of_ne m ρ c main_arg5 (by decide)).trans ?_
  hostA_hop; rfl

/-! ## The pure terms of the projection tables, read at an index -/

/-- The head-index vector: `iota 4` laid along the rows of a 4 × 32 rectangle, flattened: entry `r` is `r / 32`. -/
theorem hostA_headvec_apply (r : Fin 128) :
    shapeCast S128 (broadcastInDim S4x32 ![0] bcast_S4_S4x32_0 (iotaInDim S4 32 0)) shapeCasts_S4x32_S128 (ix1 r)
      = BitVec.ofNat 32 (r.val / 32) := by
  refine (shapeCast_apply _ _ (ix1 r) (ix2 (⟨r.val / 32, by omega⟩ : Fin 4) (⟨r.val % 32, by omega⟩ : Fin 32)) ?_).trans ?_
  · rw [Shape.rowMajor_val_two, Shape.rowMajor_val_one]
    show r.val / 32 * 32 + r.val % 32 = r.val
    omega
  · refine (broadcastInDim_apply (s := S4) (t := S4x32) ![0] _ _ _ (ix1 (⟨r.val / 32, by omega⟩ : Fin 4)) ?_).trans rfl
    intro a
    match a with
    | ⟨0, _⟩ => rfl

/-- A 4 × 32 table flattened, stood up as a column and repeated across four columns: at `(r, a)` the table's
    entry `(r / 32, r % 32)`. -/
theorem hostA_spread_apply {α : Type} (w : S4x32.Idx → α) (r : Fin 128) (a : Fin 4) :
    broadcastInDim S128x4 ![0, 1] bcast_S128x1_S128x4_0_1
        (broadcastInDim S128x1 ![0] bcast_S128_S128x1_0 (shapeCast S128 w shapeCasts_S4x32_S128)) (ix2 r a)
      = w (ix2 (headOf r) (within r)) := by
  refine (broadcastInDim_apply (s := S128x1) (t := S128x4) ![0, 1] _ _ _ (ix2 r (0 : Fin 1)) ?_).trans ?_
  · intro a
    match a with
    | ⟨0, _⟩ => rfl
    | ⟨1, _⟩ => rfl
  refine (broadcastInDim_apply (s := S128) (t := S128x1) ![0] _ _ _ (ix1 r) ?_).trans ?_
  · intro a
    match a with
    | ⟨0, _⟩ => rfl
  refine shapeCast_apply _ _ (ix1 r) (ix2 (headOf r) (within r)) ?_
  rw [Shape.rowMajor_val_two, Shape.rowMajor_val_one]
  show r.val / 32 * 32 + r.val % 32 = r.val
  omega

/-- The one-hot table of an index vector: at `(r, a)` the number 1 when entry `r` is `a`, else 0. -/
theorem hostA_onehot_apply (v : IVec S128 32) (r : Fin 128) (a : Fin 4) :
    (uitofp .f32 (cmpi .eq
        (broadcastInDim S128x4 ![0, 1] bcast_S128x1_S128x4_0_1 (broadcastInDim S128x1 ![0] bcast_S128_S128x1_0 v))
        (broadcastInDim S128x4 ![0, 1] bcast_S1x4_S128x4_0_1 (iotaInDim S1x4 32 1))) : FVec Ideal S128x4 .f32) (ix2 r a)
      = if v (ix1 r) = BitVec.ofNat 32 a.val then (1 : EReal) else 0 := by
  have h1 : broadcastInDim S128x4 ![0, 1] bcast_S128x1_S128x4_0_1 (broadcastInDim S128x1 ![0] bcast_S128_S128x1_0 v) (ix2 r a)
      = v (ix1 r) := by
    refine (broadcastInDim_apply (s := S128x1) (t := S128x4) ![0, 1] _ _ _ (ix2 r (0 : Fin 1)) ?_).trans ?_
    · intro a
      match a with
      | ⟨0, _⟩ => rfl
      | ⟨1, _⟩ => rfl
    refine broadcastInDim_apply (s := S128) (t := S128x1) ![0] _ _ _ (ix1 r) ?_
    intro a
    match a with
    | ⟨0, _⟩ => rfl
  have h2 : broadcastInDim S128x4 ![0, 1] bcast_S1x4_S128x4_0_1 (iotaInDim S1x4 32 1 : IVec S1x4 32) (ix2 r a)
      = BitVec.ofNat 32 a.val := by
    refine (broadcastInDim_apply (s := S1x4) (t := S128x4) ![0, 1] _ _ _ (ix2 (0 : Fin 1) a) ?_).trans rfl
    intro a
    match a with
    | ⟨0, _⟩ => rfl
    | ⟨1, _⟩ => rfl
  show FloatOps.uitofp .f32 (IntOp.cmpi .eq _ _) = _
  rw [h1, h2]
  by_cases h : v (ix1 r) = BitVec.ofNat 32 a.val
  · rw [if_pos h, (StableHlo.Predicate.cmpi_eq_iff).mpr h]
    show (((1#1 : BitVec 1).toNat : ℝ) : EReal) = 1
    simp
  · rw [if_neg h]
    have h0 : IntOp.cmpi .eq (v (ix1 r)) (BitVec.ofNat 32 a.val) = 0#1 :=
      eq_zero_of_ne_one (fun e => h ((StableHlo.Predicate.cmpi_eq_iff).mp e))
    rw [h0]
    show (((0#1 : BitVec 1).toNat : ℝ) : EReal) = 0
    simp

/-! ## The stretches that build the projection tables, each from any contents `V` before it -/

section
variable (V : Valuation τ sig (Elt Ideal))

theorem hostA_s3_v9 (a : Fin 4) (d : Fin 32) :
    StableHlo.after hostOps1_3 V (Proc.devRef .tc main_v9) (ix2 a d)
      = V (Proc.devRef .tc main_arg5) (ix2 a (⟨d.val, by omega⟩ : Fin 65)) := by
  after_results
  exact slice2_axis1_apply 0 _ _ a d _ (by simp)

theorem hostA_s3_v10 (a : Fin 4) (d : Fin 32) :
    StableHlo.after hostOps1_3 V (Proc.devRef .tc main_v10) (ix2 a d)
      = V (Proc.devRef .tc main_arg5) (ix2 a (⟨32 + d.val, by omega⟩ : Fin 65)) := by
  after_results
  exact slice2_axis1_apply 32 _ _ a d _ rfl

theorem hostA_s3_v15 (r : Fin 128) :
    StableHlo.after hostOps1_3 V (Proc.devRef .tc main_v15) (ix1 r) = BitVec.ofNat 32 (r.val / 32) := by
  after_results
  exact hostA_headvec_apply r

theorem hostA_s5_v23 (r : Fin 128) :
    StableHlo.after hostOps1_5 V (Proc.devRef .tc main_v23) (ix1 r) = BitVec.ofNat 32 (r.val / 32) := by
  after_results
  exact hostA_headvec_apply r

theorem hostA_s4_v16 (r : Fin 128) (a : Fin 4) :
    StableHlo.after hostOps1_4 V (Proc.devRef .tc main_v16) (ix2 r a)
      = if V (Proc.devRef .tc main_v15) (ix1 r) = BitVec.ofNat 32 a.val then (1 : EReal) else 0 := by
  after_results
  exact hostA_onehot_apply _ r a

theorem hostA_s6_v24 (r : Fin 128) (a : Fin 4) :
    StableHlo.after hostOps1_6 V (Proc.devRef .tc main_v24) (ix2 r a)
      = if V (Proc.devRef .tc main_v23) (ix1 r) = BitVec.ofNat 32 a.val then (1 : EReal) else 0 := by
  after_results
  exact hostA_onehot_apply _ r a

theorem hostA_s5_v20 (r : Fin 128) (a : Fin 4) (A : S128x4.Idx → EReal) (B : S4x32.Idx → EReal)
    (hA : V (Proc.devRef .tc main_v16) = A) (hB : V (Proc.devRef .tc main_v9) = B) :
    StableHlo.after hostOps1_5 V (Proc.devRef .tc main_v20) (ix2 r a) = A (ix2 r a) * B (ix2 (headOf r) (within r)) := by
  after_results
  rw [hA, hB]
  exact congrArg (fun x : EReal => A (ix2 r a) * x) (hostA_spread_apply B r a)

theorem hostA_s7_v28 (r : Fin 128) (a : Fin 4) (A : S128x4.Idx → EReal) (B : S4x32.Idx → EReal)
    (hA : V (Proc.devRef .tc main_v24) = A) (hB : V (Proc.devRef .tc main_v10) = B) :
    StableHlo.after hostOps1_7 V (Proc.devRef .tc main_v28) (ix2 r a) = A (ix2 r a) * B (ix2 (headOf r) (within r)) := by
  after_results
  rw [hA, hB]
  exact congrArg (fun x : EReal => A (ix2 r a) * x) (hostA_spread_apply B r a)

end

/-- The head-index word of row `r` is the word of `a` exactly when `r` lies in head `a`. -/
theorem hostA_head_eq (r : Fin 128) (a : Fin 4) : BitVec.ofNat 32 (r.val / 32) = BitVec.ofNat 32 a.val ↔ headOf r = a := by
  constructor
  · intro h
    have h' := congrArg BitVec.toNat h
    rw [BitVec.toNat_ofNat, BitVec.toNat_ofNat, Nat.mod_eq_of_lt (by have := r.isLt; omega),
      Nat.mod_eq_of_lt (by have := a.isLt; omega)] at h'
    exact Fin.ext h'
  · intro h
    have h' : r.val / 32 = a.val := congrArg Fin.val h
    rw [h']

/-! ## The row take: normalise a negative index, gather, blank the rows whose index is out of range -/

/-- A negative index counted from the end. -/
def hostA_norm (I : IVec S800000 32) : IVec S800000 32 :=
  select (cmpi .slt I (broadcastInDim S800000 ![] bcast_S_S800000 (constantI S_ 32 0#32)))
    (addi I (broadcastInDim S800000 ![] bcast_S_S800000 (constantI S_ 32 50000#32))) I

/-- The normalised indices as a one-column array of starts. -/
def hostA_col (I : IVec S800000 32) : IVec S800000x1 32 :=
  broadcastInDim S800000x1 ![0] bcast_S800000_S800000x1_0 (hostA_norm I)

/-- Row by row: is the start in `[0, 49999]`? -/
def hostA_maskOf (C : IVec S800000x1 32) : IVec S800000 1 :=
  Host.reduce IntOp.andi
    (andi (cmpi .sge C (broadcastInDim S800000x1 ![] bcast_S_S800000x1 (constantI S_ 32 0#32)))
      (cmpi .sle C (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The gathered rows, a row whose mask bit is not set replaced by the not-a-number word. -/
def hostA_pick (T : FVec Ideal S50000x128 .f32) (C : IVec S800000x1 32) (M : IVec S800000 1) : FVec Ideal S800000x128 .f32 :=
  select (broadcastInDim S800000x128 ![0] bcast_S800000_S800000x128_0 M)
    (Host.gather gather_S50000x128_S800000x1_S800000x128_1_0_n_n_0_1_1128 T C)
    (broadcastInDim S800000x128 ![] bcast_S_S800000x128 (constant S_ .f32 0x7FC00000#32))

/-- The take of the rows `I` names from the table `T`. -/
def hostA_take (T : FVec Ideal S50000x128 .f32) (I : IVec S800000 32) : FVec Ideal S800000x128 .f32 :=
  hostA_pick T (hostA_col I) (hostA_maskOf (hostA_col I))

section
variable (V : Valuation τ sig (Elt Ideal))

/-- A line of operations run in two parts. -/
theorem hostA_after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

theorem hostA_after_split (n : Nat) (l : List (HloOp τ sig (Elt Ideal))) (V : Valuation τ sig (Elt Ideal)) :
    StableHlo.after l V = StableHlo.after (l.drop n) (StableHlo.after (l.take n) V) := by
  conv_lhs => rw [← List.take_append_drop n l]
  exact hostA_after_append _ _ _

/-- The first take (of the source rows), part by part: the starts, the mask, the masked gather. -/
theorem hostA_t1a :
    StableHlo.after (List.take 8 hostOps1_1) V (Proc.devRef .tc main_call0_v5) = hostA_col (V (Proc.devRef .tc main_v4)) := by
  simp only [List.take_succ_cons, List.take_zero]
  after_results
  simp only [cast_cast, cast_eq]
  rfl

theorem hostA_t1b :
    StableHlo.after (List.take 10 (List.drop 8 hostOps1_1)) V (Proc.devRef .tc main_call0_v12)
      = hostA_maskOf (V (Proc.devRef .tc main_call0_v5)) := by
  simp only [List.take_succ_cons, List.take_zero, List.drop_succ_cons, List.drop_zero]
  after_results
  simp only [cast_cast, cast_eq]
  rfl

theorem hostA_t1c :
    StableHlo.after (List.drop 10 (List.drop 8 hostOps1_1)) V (Proc.devRef .tc main_v7)
      = hostA_pick (V (Proc.devRef .tc main_v2)) (V (Proc.devRef .tc main_call0_v5)) (V (Proc.devRef .tc main_call0_v12)) := by
  simp only [List.drop_succ_cons, List.drop_zero]
  after_results
  simp only [cast_cast, cast_eq]
  rfl

theorem hostA_s1_v7 :
    StableHlo.after hostOps1_1 V (Proc.devRef .tc main_v7)
      = hostA_take (V (Proc.devRef .tc main_v2)) (V (Proc.devRef .tc main_v4)) := by
  rw [hostA_after_split 8 hostOps1_1 V, hostA_after_split 10 (List.drop 8 hostOps1_1), hostA_t1c, hostA_t1b]
  have h5 : StableHlo.after (List.take 10 (List.drop 8 hostOps1_1)) (StableHlo.after (List.take 8 hostOps1_1) V) (Proc.devRef .tc main_call0_v5)
      = hostA_col (V (Proc.devRef .tc main_v4)) := by
    refine Eq.trans (StableHlo.after_of_forall_not_mem _ _ (List.forall_iff_forall_mem.mp ?_)) (hostA_t1a V)
    simp only [List.take_succ_cons, List.take_zero, List.drop_succ_cons, List.drop_zero]
    hostA_not_written
  have h2 : StableHlo.after (List.take 10 (List.drop 8 hostOps1_1)) (StableHlo.after (List.take 8 hostOps1_1) V) (Proc.devRef .tc main_v2)
      = V (Proc.devRef .tc main_v2) := by
    refine Eq.trans (StableHlo.after_of_forall_not_mem _ _ (List.forall_iff_forall_mem.mp ?_))
      (StableHlo.after_of_forall_not_mem _ _ (List.forall_iff_forall_mem.mp ?_))
    · simp only [List.take_succ_cons, List.take_zero, List.drop_succ_cons, List.drop_zero]
      hostA_not_written
    · simp only [List.take_succ_cons, List.take_zero]
      hostA_not_written
  rw [h5, h2, hostA_t1a]
  rfl
/-- The second take (of the destination rows), part by part. -/
theorem hostA_t2a :
    StableHlo.after (List.take 8 hostOps1_2) V (Proc.devRef .tc main_call1_v5) = hostA_col (V (Proc.devRef .tc main_v6)) := by
  simp only [List.take_succ_cons, List.take_zero]
  after_results
  simp only [cast_cast, cast_eq]
  rfl

theorem hostA_t2b :
    StableHlo.after (List.take 10 (List.drop 8 hostOps1_2)) V (Proc.devRef .tc main_call1_v12)
      = hostA_maskOf (V (Proc.devRef .tc main_call1_v5)) := by
  simp only [List.take_succ_cons, List.take_zero, List.drop_succ_cons, List.drop_zero]
  after_results
  simp only [cast_cast, cast_eq]
  rfl

theorem hostA_t2c :
    StableHlo.after (List.drop 10 (List.drop 8 hostOps1_2)) V (Proc.devRef .tc main_v8)
      = hostA_pick (V (Proc.devRef .tc main_v2)) (V (Proc.devRef .tc main_call1_v5)) (V (Proc.devRef .tc main_call1_v12)) := by
  simp only [List.drop_succ_cons, List.drop_zero]
  after_results
  simp only [cast_cast, cast_eq]
  rfl

theorem hostA_s2_v8 :
    StableHlo.after hostOps1_2 V (Proc.devRef .tc main_v8)
      = hostA_take (V (Proc.devRef .tc main_v2)) (V (Proc.devRef .tc main_v6)) := by
  rw [hostA_after_split 8 hostOps1_2 V, hostA_after_split 10 (List.drop 8 hostOps1_2), hostA_t2c, hostA_t2b]
  have h5 : StableHlo.after (List.take 10 (List.drop 8 hostOps1_2)) (StableHlo.after (List.take 8 hostOps1_2) V) (Proc.devRef .tc main_call1_v5)
      = hostA_col (V (Proc.devRef .tc main_v6)) := by
    refine Eq.trans (StableHlo.after_of_forall_not_mem _ _ (List.forall_iff_forall_mem.mp ?_)) (hostA_t2a V)
    simp only [List.take_succ_cons, List.take_zero, List.drop_succ_cons, List.drop_zero]
    hostA_not_written
  have h2 : StableHlo.after (List.take 10 (List.drop 8 hostOps1_2)) (StableHlo.after (List.take 8 hostOps1_2) V) (Proc.devRef .tc main_v2)
      = V (Proc.devRef .tc main_v2) := by
    refine Eq.trans (StableHlo.after_of_forall_not_mem _ _ (List.forall_iff_forall_mem.mp ?_))
      (StableHlo.after_of_forall_not_mem _ _ (List.forall_iff_forall_mem.mp ?_))
    · simp only [List.take_succ_cons, List.take_zero, List.drop_succ_cons, List.drop_zero]
      hostA_not_written
    · simp only [List.take_succ_cons, List.take_zero]
      hostA_not_written
  rw [h5, h2, hostA_t2a]
  rfl
end

/-- A left fold by `and` from 1 over words that are all 1 is 1. -/
theorem hostA_foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact hostA_foldl_andi_one f hf l

/-- A reduction by `and` from 1 of an array of ones is 1 at every result index. -/
theorem hostA_reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact hostA_foldl_andi_one x hx _

/-- Inside the index range the take is the plain row gather: at `(e, q)` the table's row `node (I e)`. -/
theorem hostA_take_apply (T : FVec Ideal S50000x128 .f32) (I : IVec S800000 32)
    (hI : ∀ e : Fin 800000, 0 ≤ (I (ix1 e)).toInt ∧ (I (ix1 e)).toInt < 50000) (e : Fin 800000) (q : Fin 128) :
    hostA_take T I (ix2 e q) = T (ix2 (node (I (ix1 e))) q) := by
  have z0 : (0#32 : BitVec 32).toInt = 0 := by decide
  have z1 : (49999#32 : BitVec 32).toInt = 49999 := by decide
  have hnorm : ∀ e' : Fin 800000, hostA_norm I (ix1 e') = I (ix1 e') := by
    intro e'
    show Scalar.select (IntOp.cmpi .slt (I (ix1 e')) 0#32) (IntOp.addi (I (ix1 e')) 50000#32) (I (ix1 e')) = I (ix1 e')
    have h0 : IntOp.cmpi .slt (I (ix1 e')) 0#32 = 0#1 := eq_zero_of_ne_one (fun h => by
      have h1 := IntOp.cmpi_slt.mp h
      have h2 := (hI e').1
      omega)
    rw [h0]
    exact select_zero _ _
  have hcol : ∀ e' : Fin 800000, hostA_col I (ix2 e' (0 : Fin 1)) = I (ix1 e') := by
    intro e'
    refine Eq.trans (broadcastInDim_apply (s := S800000) (t := S800000x1) ![0] _ _ _ (ix1 e') ?_) (hnorm e')
    intro a
    match a with
    | ⟨0, _⟩ => rfl
  have hmask : ∀ j : S800000.Idx, hostA_maskOf (hostA_col I) j = 1#1 := by
    intro j
    refine hostA_reduce_andi_one _ _ _ _ j rfl ?_
    intro i
    obtain ⟨e', rfl⟩ : ∃ e' : Fin 800000, i = ix2 e' (0 : Fin 1) := ⟨i 0, by
      funext a
      match a with
      | ⟨0, _⟩ => rfl
      | ⟨1, _⟩ => exact Fin.ext (by have := idx2_lt1 i; show (i 1).val = 0; omega)⟩
    show IntOp.andi (IntOp.cmpi .sge (hostA_col I (ix2 e' (0 : Fin 1))) 0#32) (IntOp.cmpi .sle (hostA_col I (ix2 e' (0 : Fin 1))) 49999#32) = 1#1
    rw [hcol e']
    have h2 := hI e'
    exact IntOp.andi_eq_one.mpr ⟨IntOp.cmpi_sge.mpr (by omega), IntOp.cmpi_sle.mpr (by omega)⟩
  have hb : broadcastInDim S800000x128 ![0] bcast_S800000_S800000x128_0 (hostA_maskOf (hostA_col I)) (ix2 e q) = hostA_maskOf (hostA_col I) (ix1 e) := by
    refine broadcastInDim_apply (s := S800000) (t := S800000x128) ![0] _ _ _ (ix1 e) ?_
    intro a
    match a with
    | ⟨0, _⟩ => rfl
  unfold hostA_take hostA_pick
  rw [select_apply, hb, hmask, select_one]
  refine (gathD_apply T (hostA_col I) e q).trans ?_
  rw [hcol e]

section
variable (V : Valuation τ sig (Elt Ideal))

/-- The two rows of the edge list as vectors. -/
theorem hostA_s0_v4 (e : Fin 800000) :
    StableHlo.after hostOps1 V (Proc.devRef .tc main_v4) (ix1 e) = V (Proc.devRef .tc main_arg1) (ix2 (0 : Fin 2) e) := by
  after_results
  refine (shapeCast_1a_a_apply _ _ e).trans ?_
  exact slice2_axis0_apply 0 _ _ (0 : Fin 1) e (0 : Fin 2) rfl

theorem hostA_s0_v6 (e : Fin 800000) :
    StableHlo.after hostOps1 V (Proc.devRef .tc main_v6) (ix1 e) = V (Proc.devRef .tc main_arg1) (ix2 (1 : Fin 2) e) := by
  after_results
  refine (shapeCast_1a_a_apply _ _ e).trans ?_
  exact slice2_axis0_apply 1 _ _ (0 : Fin 1) e (1 : Fin 2) rfl
end

/-! ## The linear launch's operands -/

theorem entry0_x : V1 m ρ c main_arg0 = m ((c : Thread nD τ).loc main_arg0) := by
  show W1 m ρ c (Proc.devRef .tc main_arg0) = _
  hostA_hop; rfl

theorem entry0_wt (k q : Fin 128) : V1 m ρ c main_v0 (ix2 k q) = m ((c : Thread nD τ).loc main_arg3) (ix2 q k) := by
  show StableHlo.after hostOps0 (W0 m ρ c) (Proc.devRef .tc main_v0) (ix2 k q) = _
  after_results
  exact transpose_ix2_apply _ _ k q

theorem entry0_brow (q : Fin 128) : V1 m ρ c main_v1 (ix2 (0 : Fin 1) q) = m ((c : Thread nD τ).loc main_arg4) (ix1 q) := by
  show StableHlo.after hostOps0 (W0 m ρ c) (Proc.devRef .tc main_v1) (ix2 (0 : Fin 1) q) = _
  after_results
  exact shapeCast_a_1a_apply _ _ 0 q

/-! ## The score launch's operands (`Z`: what the linear launch left in its output array) -/

theorem entry1_hs (Z : sNxD.Idx → EReal) (hZ : V2 m ρ c main_v2 = Z) (hr : InRange (m ((c : Thread nD τ).loc main_arg1)))
    (e : Fin 800000) (q : Fin 128) :
    V10 m ρ c main_v7 (ix2 e q) = Z (ix2 (src (m ((c : Thread nD τ).loc main_arg1)) e) q) := by
  show W10 m ρ c (Proc.devRef .tc main_v7) (ix2 e q) = _
  hostA_hop_at; hostA_hop_at; hostA_hop_at; hostA_hop_at; hostA_hop_at; hostA_hop_at
  refine (congrFun (hostA_s1_v7 (W3 m ρ c)) _).trans ?_
  have hT : W3 m ρ c (Proc.devRef .tc main_v2) = Z := by
    hostA_hop
    exact hZ
  have hI : ∀ e' : Fin 800000, W3 m ρ c (Proc.devRef .tc main_v4) (ix1 e') = m ((c : Thread nD τ).loc main_arg1) (ix2 (0 : Fin 2) e') :=
    fun e' => (hostA_s0_v4 (W2 m ρ c) e').trans (congrFun (hostA_arg1_W2 m ρ c) _)
  rw [hostA_take_apply _ _ (fun e' => by rw [hI e']; exact hr 0 e') e q, hT, hI e]
  rfl

theorem entry1_hd (Z : sNxD.Idx → EReal) (hZ : V2 m ρ c main_v2 = Z) (hr : InRange (m ((c : Thread nD τ).loc main_arg1)))
    (e : Fin 800000) (q : Fin 128) :
    V10 m ρ c main_v8 (ix2 e q) = Z (ix2 (dst (m ((c : Thread nD τ).loc main_arg1)) e) q) := by
  show W10 m ρ c (Proc.devRef .tc main_v8) (ix2 e q) = _
  hostA_hop_at; hostA_hop_at; hostA_hop_at; hostA_hop_at; hostA_hop_at
  refine (congrFun (hostA_s2_v8 (W4 m ρ c)) _).trans ?_
  have hT : W4 m ρ c (Proc.devRef .tc main_v2) = Z := by
    hostA_hop; hostA_hop
    exact hZ
  have hI : ∀ e' : Fin 800000, W4 m ρ c (Proc.devRef .tc main_v6) (ix1 e') = m ((c : Thread nD τ).loc main_arg1) (ix2 (1 : Fin 2) e') := by
    intro e'
    hostA_hop_at
    exact (hostA_s0_v6 (W2 m ρ c) e').trans (congrFun (hostA_arg1_W2 m ρ c) _)
  rw [hostA_take_apply _ _ (fun e' => by rw [hI e']; exact hr 1 e') e q, hT, hI e]
  rfl

theorem entry1_feat : V10 m ρ c main_arg2 = m ((c : Thread nD τ).loc main_arg2) := by
  show W10 m ρ c (Proc.devRef .tc main_arg2) = _
  hostA_hop; hostA_hop; hostA_hop; hostA_hop; hostA_hop; hostA_hop; hostA_hop; hostA_hop
  exact hostA_arg2_W2 m ρ c

theorem entry1_ms (r : Fin 128) (a : Fin 4) :
    V10 m ρ c main_v20 (ix2 r a)
      = (if headOf r = a then (1 : EReal) else 0) * m ((c : Thread nD τ).loc main_arg5) (ix2 (headOf r) (⟨(within r).val, by omega⟩ : Fin 65)) := by
  show W10 m ρ c (Proc.devRef .tc main_v20) (ix2 r a) = _
  hostA_hop_at; hostA_hop_at
  refine (hostA_s5_v20 (W7 m ρ c) r a _ _ rfl rfl).trans ?_
  congr 1
  · refine (hostA_s4_v16 (W6 m ρ c) r a).trans ?_
    rw [show W6 m ρ c (Proc.devRef .tc main_v15) (ix1 r) = BitVec.ofNat 32 (r.val / 32) from hostA_s3_v15 (W5 m ρ c) r]
    by_cases h : headOf r = a
    · rw [if_pos h, if_pos ((hostA_head_eq r a).mpr h)]
    · rw [if_neg h, if_neg (fun h' => h ((hostA_head_eq r a).mp h'))]
  · hostA_hop_at
    refine (hostA_s3_v9 (W5 m ρ c) (headOf r) (within r)).trans ?_
    hostA_hop_at; hostA_hop_at; hostA_hop_at
    exact congrFun (hostA_arg5_W2 m ρ c) _

theorem entry1_md (r : Fin 128) (a : Fin 4) :
    V10 m ρ c main_v28 (ix2 r a)
      = (if headOf r = a then (1 : EReal) else 0) * m ((c : Thread nD τ).loc main_arg5) (ix2 (headOf r) (⟨32 + (within r).val, by omega⟩ : Fin 65)) := by
  show W10 m ρ c (Proc.devRef .tc main_v28) (ix2 r a) = _
  refine (hostA_s7_v28 (W9 m ρ c) r a _ _ rfl rfl).trans ?_
  congr 1
  · refine (hostA_s6_v24 (W8 m ρ c) r a).trans ?_
    rw [show W8 m ρ c (Proc.devRef .tc main_v23) (ix1 r) = BitVec.ofNat 32 (r.val / 32) from hostA_s5_v23 (W7 m ρ c) r]
    by_cases h : headOf r = a
    · rw [if_pos h, if_pos ((hostA_head_eq r a).mpr h)]
    · rw [if_neg h, if_neg (fun h' => h ((hostA_head_eq r a).mp h'))]
  · hostA_hop_at; hostA_hop_at; hostA_hop_at
    refine (hostA_s3_v10 (W5 m ρ c) (headOf r) (within r)).trans ?_
    hostA_hop_at; hostA_hop_at; hostA_hop_at
    exact congrFun (hostA_arg5_W2 m ρ c) _

theorem entry1_ae (a : Fin 4) :
    V10 m ρ c main_v29 (ix2 (0 : Fin 1) a) = m ((c : Thread nD τ).loc main_arg5) (ix2 a (⟨64, by omega⟩ : Fin 65)) := by
  show StableHlo.after hostOps1_7 (W9 m ρ c) (Proc.devRef .tc main_v29) (ix2 (0 : Fin 1) a) = _
  after_results
  rw [hostA_arg5_W2]
  refine (shapeCast_a_1a_apply _ _ 0 a).trans ?_
  refine (shapeCast_apply _ _ (ix1 a) (ix2 a (0 : Fin 1)) ?_).trans ?_
  · rw [Shape.rowMajor_val_two, Shape.rowMajor_val_one]
    show a.val * 1 + 0 = a.val
    omega
  · exact slice2_axis1_apply 64 _ _ a 0 _ rfl

end Cert.KernelIdeal.HostValue

end
-- ==== Proof.KernelHostB.lean ====
/-
  What the last two launches are handed, read through the host operations before them: the gathered source rows again, the
  normalised weights (each weight over its destination node's sum plus a small constant), the 4 × 128 table that spreads a
  head's weight over the head's 32 columns; then the messages summed at their destinations, the projected features, and the
  layer norm's scale and shift as rows.
-/
import proofs.«411918_j61280593379541_2_alg».proof.Proof.Gen.KernelIdeal.Frame
import proofs.«411918_j61280593379541_2_alg».proof.Proof.Spec
import proofs.«411918_j61280593379541_2_alg».proof.Proof.IndexOps
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import proofs.«411918_j61280593379541_2_alg».proof.Proof.KernelHostA
import Idealize.ShloMosaic.Lib.ReduceAll

set_option maxRecDepth 16384

noncomputable section

open scoped BigOperators

namespace Cert.KernelIdeal.HostValue

open Idealize.ShloMosaic Idealize.ShloMosaic.TcCoe Idealize.ShloMosaic.ValueIdx Idealize.SL.Sem
open Cert.KernelIdeal Cert.KernelIdeal.Gen Cert.GAT

variable (m : (ℓ : Loc nD τ sig) → Buf (Elt Ideal) ℓ) (ρ : Dev nD → PrngReg) (c : Dev nD)

/-- A buffer that no operation of a stretch writes holds after the stretch what it held before it. -/
local macro "keeps" ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments and the destination words at the boundaries -/

theorem hostB_W17_arg6 : W17 m ρ c (Proc.devRef .tc main_arg6) = m ((c : Thread nD τ).loc main_arg6) :=
  calc W17 m ρ c (Proc.devRef .tc main_arg6)
    _ = W18 m ρ c (Proc.devRef .tc main_arg6) := Eq.symm (by keeps hostOps3 main_arg6)
    _ = W19 m ρ c (Proc.devRef .tc main_arg6) := (W19_of_ne m ρ c main_arg6 (by decide)).symm
    _ = m ((c : Thread nD τ).loc main_arg6) := W19_main_arg6 m ρ c

theorem hostB_W17_arg7 : W17 m ρ c (Proc.devRef .tc main_arg7) = m ((c : Thread nD τ).loc main_arg7) :=
  calc W17 m ρ c (Proc.devRef .tc main_arg7)
    _ = W18 m ρ c (Proc.devRef .tc main_arg7) := Eq.symm (by keeps hostOps3 main_arg7)
    _ = W19 m ρ c (Proc.devRef .tc main_arg7) := (W19_of_ne m ρ c main_arg7 (by decide)).symm
    _ = m ((c : Thread nD τ).loc main_arg7) := W19_main_arg7 m ρ c

/-- A vector recast as a one-row array reads, at column `q`, the vector at `q`. -/
theorem hostB_row_of_vec {α : Type} (x : S128.Idx → α) (h : S128.ShapeCasts S1x128) (q : Fin 128) :
    shapeCast S1x128 x h (ix2 (0 : Fin 1) q) = x (ix1 q) := by
  refine shapeCast_apply x h _ _ ?_
  rw [Shape.rowMajor_val_one, Shape.rowMajor_val_two]
  show q.val = (0 : Nat) * 128 + q.val
  omega

/-- The projected features are written by the linear launch only. -/
theorem hostB_W18_v2 : W18 m ρ c (Proc.devRef .tc main_v2) = W2 m ρ c (Proc.devRef .tc main_v2) :=
  calc W18 m ρ c (Proc.devRef .tc main_v2)
    _ = W17 m ρ c (Proc.devRef .tc main_v2) := by keeps hostOps3 main_v2
    _ = W16 m ρ c (Proc.devRef .tc main_v2) := W17_of_ne m ρ c main_v2 (by decide)
    _ = W15 m ρ c (Proc.devRef .tc main_v2) := by keeps hostOps2_4 main_v2
    _ = W14 m ρ c (Proc.devRef .tc main_v2) := by keeps hostOps2_3 main_v2
    _ = W13 m ρ c (Proc.devRef .tc main_v2) := by keeps hostOps2_2 main_v2
    _ = W12 m ρ c (Proc.devRef .tc main_v2) := by keeps hostOps2_1 main_v2
    _ = W11 m ρ c (Proc.devRef .tc main_v2) := by keeps hostOps2 main_v2
    _ = W10 m ρ c (Proc.devRef .tc main_v2) := W11_of_ne m ρ c main_v2 (by decide)
    _ = W9 m ρ c (Proc.devRef .tc main_v2) := by keeps hostOps1_7 main_v2
    _ = W8 m ρ c (Proc.devRef .tc main_v2) := by keeps hostOps1_6 main_v2
    _ = W7 m ρ c (Proc.devRef .tc main_v2) := by keeps hostOps1_5 main_v2
    _ = W6 m ρ c (Proc.devRef .tc main_v2) := by keeps hostOps1_4 main_v2
    _ = W5 m ρ c (Proc.devRef .tc main_v2) := by keeps hostOps1_3 main_v2
    _ = W4 m ρ c (Proc.devRef .tc main_v2) := by keeps hostOps1_2 main_v2
    _ = W3 m ρ c (Proc.devRef .tc main_v2) := by keeps hostOps1_1 main_v2
    _ = W2 m ρ c (Proc.devRef .tc main_v2) := by keeps hostOps1 main_v2

theorem hostB_W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by keeps hostOps0 main_arg1
    _ = m ((c : Thread nD τ).loc main_arg1) := rfl

/-- The destination words as a vector: row 1 of the edge list. -/
theorem hostB_W3_v6 (p : Fin 800000) :
    W3 m ρ c (Proc.devRef .tc main_v6) (ix1 p) = m ((c : Thread nD τ).loc main_arg1) (ix2 (1 : Fin 2) p) := by
  show StableHlo.after hostOps1 (W2 m ρ c) (Proc.devRef .tc main_v6) (ix1 p) = _
  after_results
  rw [hostB_W2_arg1]
  show shapeCast S800000 _ shapeCasts_S1x800000_S800000 (ix1 p) = _
  refine (shapeCast_apply _ _ _ (ix2 (0 : Fin 1) p) ?_).trans ?_
  · rw [Shape.rowMajor_val_one, Shape.rowMajor_val_two]
    show (0 : Nat) * 800000 + p.val = p.val
    omega
  · refine extractStridedSlice_apply _ _ _ _ (ix2 (1 : Fin 2) p) fun a => ?_
    match a with
    | ⟨0, _⟩ => rfl
    | ⟨1, _⟩ => show p.val = 0 + p.val; omega

theorem hostB_W11_v6 : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by keeps hostOps1_7 main_v6
    _ = W8 m ρ c (Proc.devRef .tc main_v6) := by keeps hostOps1_6 main_v6
    _ = W7 m ρ c (Proc.devRef .tc main_v6) := by keeps hostOps1_5 main_v6
    _ = W6 m ρ c (Proc.devRef .tc main_v6) := by keeps hostOps1_4 main_v6
    _ = W5 m ρ c (Proc.devRef .tc main_v6) := by keeps hostOps1_3 main_v6
    _ = W4 m ρ c (Proc.devRef .tc main_v6) := by keeps hostOps1_2 main_v6
    _ = W3 m ρ c (Proc.devRef .tc main_v6) := by keeps hostOps1_1 main_v6

theorem hostB_W12_v6 : W12 m ρ c (Proc.devRef .tc main_v6) = W3 m ρ c (Proc.devRef .tc main_v6) :=
  calc W12 m ρ c (Proc.devRef .tc main_v6)
    _ = W11 m ρ c (Proc.devRef .tc main_v6) := by keeps hostOps2 main_v6
    _ = W3 m ρ c (Proc.devRef .tc main_v6) := hostB_W11_v6 m ρ c

theorem hostB_W17_v6 : W17 m ρ c (Proc.devRef .tc main_v6) = W3 m ρ c (Proc.devRef .tc main_v6) :=
  calc W17 m ρ c (Proc.devRef .tc main_v6)
    _ = W16 m ρ c (Proc.devRef .tc main_v6) := W17_of_ne m ρ c main_v6 (by decide)
    _ = W15 m ρ c (Proc.devRef .tc main_v6) := by keeps hostOps2_4 main_v6
    _ = W14 m ρ c (Proc.devRef .tc main_v6) := by keeps hostOps2_3 main_v6
    _ = W13 m ρ c (Proc.devRef .tc main_v6) := by keeps hostOps2_2 main_v6
    _ = W12 m ρ c (Proc.devRef .tc main_v6) := by keeps hostOps2_1 main_v6
    _ = W3 m ρ c (Proc.devRef .tc main_v6) := hostB_W12_v6 m ρ c

/-- A vector holding row 1 of the edge list, laid as a one-column array, is the destination column. -/
theorem hostB_col_of_vec (edge : s2xE.Idx → BitVec 32) (v : S800000.Idx → BitVec 32)
    (h : S800000.BroadcastsInDim S800000x1 (![0] : Fin 1 → Fin S800000x1.rank))
    (hv : ∀ p : Fin 800000, v (ix1 p) = edge (ix2 (1 : Fin 2) p)) :
    broadcastInDim S800000x1 ![0] h v = dstCol edge := by
  funext j
  rw [broadcastInDim_apply ![0] h v j (ix1 (j 0)) (fun a => match a with | ⟨0, _⟩ => rfl)]
  exact hv (j 0)

/-- The one-hot table's entry: a one-bit equality test of two words, read as a number. -/
theorem hostB_uitofp_cmpi_apply {s : Shape} (x y : IVec s 32) (i : s.Idx) :
    (uitofp .f32 (cmpi .eq x y) : FVec Ideal s .f32) i = (((IntOp.cmpi .eq (x i) (y i)).toNat : ℝ) : EReal) := rfl

/-- The head-index vector: position `q` holds `q / 32`. -/
theorem hostB_W14_v40 (q : Fin 128) : W14 m ρ c (Proc.devRef .tc main_v40) (ix1 q) = BitVec.ofNat 32 (q.val / 32) := by
  show StableHlo.after hostOps2_2 (W13 m ρ c) (Proc.devRef .tc main_v40) (ix1 q) = _
  after_results
  show shapeCast S128 _ shapeCasts_S4x32_S128 (ix1 q) = _
  refine (shapeCast_apply _ _ _ (ix2 (headOf q) (within q)) ?_).trans ?_
  · rw [Shape.rowMajor_val_one, Shape.rowMajor_val_two]
    show q.val / 32 * 32 + q.val % 32 = q.val
    omega
  · refine (broadcastInDim_apply _ _ _ _ (ix1 (headOf q)) fun b => ?_).trans rfl
    match b with
    | ⟨0, _⟩ => rfl

theorem hostB_W15_v41 (q : Fin 128) (a : Fin 4) :
    W15 m ρ c (Proc.devRef .tc main_v41) (ix2 q a) = if headOf q = a then (1 : EReal) else 0 := by
  have h40 := hostB_W14_v40 m ρ c q
  show StableHlo.after hostOps2_3 (W14 m ρ c) (Proc.devRef .tc main_v41) (ix2 q a) = _
  generalize W14 m ρ c = V at h40 ⊢
  after_results
  simp only [StableHlo.TRef.ofBuf, StableHlo.TRef.toBuf, cast_eq]
  rw [hostB_uitofp_cmpi_apply]
  have hq : q.val / 32 < 4 := by omega
  have key : ∀ x y : BitVec 32, x = BitVec.ofNat 32 (q.val / 32) → y = BitVec.ofNat 32 a.val →
      (((IntOp.cmpi .eq x y).toNat : ℝ) : EReal) = if headOf q = a then (1 : EReal) else 0 := by
    intro x y hx hy
    subst hx hy
    by_cases h : headOf q = a
    · have h1 : IntOp.cmpi .eq (BitVec.ofNat 32 (q.val / 32)) (BitVec.ofNat 32 a.val) = 1#1 :=
        StableHlo.Predicate.cmpi_eq_iff.mpr (by rw [← h]; rfl)
      rw [h1, if_pos h]
      simp
    · have h0 : IntOp.cmpi .eq (BitVec.ofNat 32 (q.val / 32)) (BitVec.ofNat 32 a.val) = 0#1 := by
        refine eq_zero_of_ne_one fun h1 => h (Fin.ext ?_)
        have h2 := congrArg BitVec.toNat (StableHlo.Predicate.cmpi_eq_iff.mp h1)
        rw [BitVec.toNat_ofNat, BitVec.toNat_ofNat, Nat.mod_eq_of_lt (by omega), Nat.mod_eq_of_lt (by omega)] at h2
        exact h2
      rw [h0, if_neg h]
      simp
  refine key _ _ ?_ ?_
  · refine (broadcastInDim_apply _ _ _ _ (ix2 q (0 : Fin 1)) fun b => ?_).trans
      ((broadcastInDim_apply _ _ _ _ (ix1 q) fun b => ?_).trans h40)
    · match b with
      | ⟨0, _⟩ => rfl
      | ⟨1, _⟩ => rfl
    · match b with
      | ⟨0, _⟩ => rfl
  · refine (broadcastInDim_apply _ _ _ _ (ix2 (0 : Fin 1) a) fun b => ?_).trans rfl
    match b with
    | ⟨0, _⟩ => rfl
    | ⟨1, _⟩ => rfl

/-- The gathered source rows are written once, before the score launch, which only reads them. -/
theorem hostB_W16_v7 : W16 m ρ c (Proc.devRef .tc main_v7) = W10 m ρ c (Proc.devRef .tc main_v7) :=
  calc W16 m ρ c (Proc.devRef .tc main_v7)
    _ = W15 m ρ c (Proc.devRef .tc main_v7) := by keeps hostOps2_4 main_v7
    _ = W14 m ρ c (Proc.devRef .tc main_v7) := by keeps hostOps2_3 main_v7
    _ = W13 m ρ c (Proc.devRef .tc main_v7) := by keeps hostOps2_2 main_v7
    _ = W12 m ρ c (Proc.devRef .tc main_v7) := by keeps hostOps2_1 main_v7
    _ = W11 m ρ c (Proc.devRef .tc main_v7) := by keeps hostOps2 main_v7
    _ = W10 m ρ c (Proc.devRef .tc main_v7) :=
        (W11_arr m ρ c 0).trans (((dat1 (V10 m ρ) c).arrAt_in 0 rfl _).trans (A_eq1 (V10 m ρ) c 0))

/-- A reduction by "and" from 1 over words that are all 1 is 1. -/
theorem hostB_reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  suffices H : ∀ l : List s.Idx, l.foldl (fun r i => IntOp.andi r (x i)) 1#1 = 1#1 from H _
  intro l
  induction l with
  | nil => rfl
  | cons b l ih =>
    rw [List.foldl_cons, hx b, show IntOp.andi 1#1 1#1 = 1#1 from by decide]
    exact ih

/-- The per-node sums of the weights, as the scatter of the score launch's output into zeros. -/
theorem hostB_W12_v33 (AL : sExH.Idx → EReal) (hAL : V11 m ρ c main_v30 = AL) :
    W12 m ρ c (Proc.devRef .tc main_v33)
      = Ideal.hostScatterAdd scatH (fun _ => c0) (dstCol (m ((c : Thread nD τ).loc main_arg1))) AL := by
  show StableHlo.after hostOps2 (W11 m ρ c) (Proc.devRef .tc main_v33) = _
  after_results
  rw [show W11 m ρ c (Proc.devRef .tc main_v30) = AL from hAL,
    hostB_col_of_vec (m ((c : Thread nD τ).loc main_arg1)) _ _ (fun p => by rw [hostB_W11_v6]; exact hostB_W3_v6 m ρ c p)]
  have h0 : broadcastInDim S50000x4 ![] bcast_S_S50000x4 (constant (F := Ideal) S_ FTy.f32 0#32) = fun _ => c0 := by
    funext j; rfl
  rw [h0]
  rfl

/-- The same for a part of the row take's stretch cut out by position. -/
local macro "keepsPart" r:ident : tactic =>
  `(tactic| exact StableHlo.after_of_forall_not_mem (b := Proc.devRef .tc $r) _ _ (List.forall_iff_forall_mem.mp (by
      simp only [hostOps2_1, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The index normalisation, the range test and the quotient, read at an index. -/
theorem hostB_norm_apply {s : Shape} (v z k : IVec s 32) (i : s.Idx) :
    select (cmpi .slt v z) (addi v k) v i = Scalar.select (IntOp.cmpi .slt (v i) (z i)) (IntOp.addi (v i) (k i)) (v i) := rfl
theorem hostB_inb_apply {s : Shape} (x z k : IVec s 32) (i : s.Idx) :
    andi (cmpi .sge x z) (cmpi .sle x k) i = IntOp.andi (IntOp.cmpi .sge (x i) (z i)) (IntOp.cmpi .sle (x i) (k i)) := rfl
theorem hostB_div_add_apply {s : Shape} (x y z : FVec Ideal s .f32) (i : s.Idx) :
    Host.divf x (addf y z) i = Ideal.div (x i) (y i + z i) := rfl

/-- The index column of the row take: under the range hypothesis the normalised index is the destination word itself. -/
theorem hostB_take_a (V : Valuation τ sig (Elt Ideal)) (edge : s2xE.Idx → BitVec 32) (hr : InRange edge)
    (h6 : ∀ p : Fin 800000, V (Proc.devRef .tc main_v6) (ix1 p) = edge (ix2 (1 : Fin 2) p)) (e : Fin 800000) :
    StableHlo.after (hostOps2_1.take 8) V (Proc.devRef .tc main_call4_v5) (ix2 e (0 : Fin 1)) = edge (ix2 (1 : Fin 2) e) := by
  simp only [hostOps2_1, List.take_succ_cons, List.take_zero, List.drop_succ_cons, List.drop_zero]
  after_results
  simp only [StableHlo.TRef.ofBuf, StableHlo.TRef.toBuf, cast_eq]
  refine (broadcastInDim_apply _ _ _ _ (ix1 e) fun b => ?_).trans ?_
  · match b with
    | ⟨0, _⟩ => rfl
  · rw [hostB_norm_apply]
    have key : ∀ w z k : BitVec 32, w = edge (ix2 (1 : Fin 2) e) → z = 0#32 → k = 50000#32 →
        Scalar.select (IntOp.cmpi .slt w z) (IntOp.addi w k) w = edge (ix2 (1 : Fin 2) e) := by
      intro w z k hw hz hk
      subst hw hz hk
      have h0 : IntOp.cmpi .slt (edge (ix2 (1 : Fin 2) e)) 0#32 = 0#1 := eq_zero_of_ne_one fun h1 => by
        have h2 := IntOp.cmpi_slt.mp h1
        have h3 := (hr 1 e).1
        rw [show (0#32 : BitVec 32).toInt = 0 from by decide] at h2
        omega
      rw [h0]
      exact select_zero _ _
    exact key _ _ _ (h6 e) rfl rfl

/-- The row take's mask over an index column holding node numbers is one everywhere. -/
theorem hostB_mask_one (X : IVec S800000x1 32) (edge : s2xE.Idx → BitVec 32) (hr : InRange edge)
    (hX : ∀ p : Fin 800000, X (ix2 p (0 : Fin 1)) = edge (ix2 (1 : Fin 2) p)) (e : Fin 800000) :
    Host.reduce IntOp.andi
        (andi (cmpi .sge X (broadcastInDim S800000x1 ![] bcast_S_S800000x1 (constantI S_ 32 0#32)))
          (cmpi .sle X (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_ (ix1 e) = 1#1 := by
  refine hostB_reduce_andi_one _ _ _ _ _ (fun i => ?_) rfl
  have hi : ∃ p : Fin 800000, i = ix2 p (0 : Fin 1) := by
    refine ⟨i 0, ?_⟩
    funext b
    match b with
    | ⟨0, _⟩ => rfl
    | ⟨1, _⟩ =>
      have h1 := idx2_lt1 i
      exact Fin.ext (by show (i 1).val = 0; omega)
  obtain ⟨p, rfl⟩ := hi
  rw [hostB_inb_apply]
  have key : ∀ w z k : BitVec 32, w = edge (ix2 (1 : Fin 2) p) → z = 0#32 → k = 49999#32 →
      IntOp.andi (IntOp.cmpi .sge w z) (IntOp.cmpi .sle w k) = 1#1 := by
    intro w z k hw hz hk
    subst hw hz hk
    obtain ⟨h3, h4⟩ := hr 1 p
    refine IntOp.andi_eq_one.mpr ⟨IntOp.cmpi_sge.mpr ?_, IntOp.cmpi_sle.mpr ?_⟩
    · rw [show (0#32 : BitVec 32).toInt = 0 from by decide]; exact h3
    · rw [show (49999#32 : BitVec 32).toInt = 49999 from by decide]; omega
  exact key _ _ _ (hX p) rfl rfl

/-- The first half of the mask's stretch: the lower test and the table's last row number. -/
theorem hostB_take_b1_v7 (V : Valuation τ sig (Elt Ideal)) :
    StableHlo.after (((hostOps2_1.drop 8).take 10).take 5) V (Proc.devRef .tc main_call4_v7)
      = cmpi .sge (V (Proc.devRef .tc main_call4_v5)) (broadcastInDim S800000x1 ![] bcast_S_S800000x1 (constantI S_ 32 0#32)) := by
  simp only [hostOps2_1, List.take_succ_cons, List.take_zero, List.drop_succ_cons, List.drop_zero]
  after_results
  try simp only [StableHlo.TRef.ofBuf, StableHlo.TRef.toBuf, cast_eq]
  try rfl
theorem hostB_take_b1_v8 (V : Valuation τ sig (Elt Ideal)) :
    StableHlo.after (((hostOps2_1.drop 8).take 10).take 5) V (Proc.devRef .tc main_call4_v8)
      = broadcastInDim S1x1 ![1] bcast_S1_S1x1_1 (constantI S1 32 49999#32) := by
  simp only [hostOps2_1, List.take_succ_cons, List.take_zero, List.drop_succ_cons, List.drop_zero]
  after_results
  try simp only [StableHlo.TRef.ofBuf, StableHlo.TRef.toBuf, cast_eq]
  try rfl
/-- The second half: the upper test, the conjunction and its reduction along the one-column axis. -/
theorem hostB_take_b2 (V : Valuation τ sig (Elt Ideal)) :
    StableHlo.after (((hostOps2_1.drop 8).take 10).drop 5) V (Proc.devRef .tc main_call4_v12)
      = Host.reduce IntOp.andi
          (andi (V (Proc.devRef .tc main_call4_v7))
            (cmpi .sle (V (Proc.devRef .tc main_call4_v5))
              (broadcastInDim S800000x1 ![0, 1] bcast_S1x1_S800000x1_0_1 (V (Proc.devRef .tc main_call4_v8)))))
          (constantI S_ 1 1#1) reducesTo_S800000x1_S800000_d1 h_S_ := by
  simp only [hostOps2_1, List.take_succ_cons, List.take_zero, List.drop_succ_cons, List.drop_zero]
  after_results
  try simp only [StableHlo.TRef.ofBuf, StableHlo.TRef.toBuf, cast_eq]
  try rfl

/-- The row take's mask: every index is inside the table, so the mask is one everywhere. -/
theorem hostB_take_b (V : Valuation τ sig (Elt Ideal)) (edge : s2xE.Idx → BitVec 32) (hr : InRange edge)
    (h5 : ∀ p : Fin 800000, V (Proc.devRef .tc main_call4_v5) (ix2 p (0 : Fin 1)) = edge (ix2 (1 : Fin 2) p)) (e : Fin 800000) :
    StableHlo.after ((hostOps2_1.drop 8).take 10) V (Proc.devRef .tc main_call4_v12) (ix1 e) = 1#1 := by
  rw [← List.take_append_drop 5 (List.take 10 (List.drop 8 hostOps2_1)), StableHlo.after_append]
  have e7 := hostB_take_b1_v7 V
  have e8 := hostB_take_b1_v8 V
  have e5 : StableHlo.after (List.take 5 (List.take 10 (List.drop 8 hostOps2_1))) V (Proc.devRef .tc main_call4_v5)
      = V (Proc.devRef .tc main_call4_v5) := by
    keepsPart main_call4_v5
  generalize StableHlo.after (List.take 5 (List.take 10 (List.drop 8 hostOps2_1))) V = V' at e7 e8 e5 ⊢
  rw [hostB_take_b2 V', e7, e8, e5]
  exact hostB_mask_one _ _ hr h5 e

/-- The row take's gather and select: where the mask is one the result is the gathered row. -/
theorem hostB_take_c (V : Valuation τ sig (Elt Ideal)) (edge : s2xE.Idx → BitVec 32) (e : Fin 800000) (a : Fin 4)
    (h12 : V (Proc.devRef .tc main_call4_v12) (ix1 e) = 1#1)
    (h5 : V (Proc.devRef .tc main_call4_v5) (ix2 e (0 : Fin 1)) = edge (ix2 (1 : Fin 2) e)) :
    StableHlo.after ((hostOps2_1.drop 8).drop 10) V (Proc.devRef .tc main_v34) (ix2 e a)
      = V (Proc.devRef .tc main_v33) (ix2 (dst edge e) a) := by
  simp only [hostOps2_1, List.take_succ_cons, List.take_zero, List.drop_succ_cons, List.drop_zero]
  after_results
  simp only [StableHlo.TRef.ofBuf, StableHlo.TRef.toBuf, cast_eq]
  rw [select_apply]
  have key : ∀ (mk : BitVec 1) (g x r : EReal), mk = 1#1 → g = r → Scalar.select mk g x = r := by
    intro mk g x r hmk hg
    subst hmk hg
    exact select_one _ _
  refine key _ _ _ _ ?_ ?_
  · refine (broadcastInDim_apply _ _ _ _ (ix1 e) fun b => ?_).trans h12
    match b with
    | ⟨0, _⟩ => rfl
  · refine (gathH_apply (V (Proc.devRef .tc main_v33)) (V (Proc.devRef .tc main_call4_v5)) e a).trans ?_
    rw [h5]
    rfl

theorem hostB_W13_v34 (hr : InRange (m ((c : Thread nD τ).loc main_arg1))) (e : Fin 800000) (a : Fin 4) :
    W13 m ρ c (Proc.devRef .tc main_v34) (ix2 e a)
      = W12 m ρ c (Proc.devRef .tc main_v33) (ix2 (dst (m ((c : Thread nD τ).loc main_arg1)) e) a) := by
  have h6 : ∀ p : Fin 800000, W12 m ρ c (Proc.devRef .tc main_v6) (ix1 p) = m ((c : Thread nD τ).loc main_arg1) (ix2 (1 : Fin 2) p) :=
    fun p => by rw [hostB_W12_v6]; exact hostB_W3_v6 m ρ c p
  show StableHlo.after hostOps2_1 (W12 m ρ c) (Proc.devRef .tc main_v34) (ix2 e a) = _
  generalize W12 m ρ c = V0 at h6 ⊢
  rw [← List.take_append_drop 8 hostOps2_1, StableHlo.after_append,
    ← List.take_append_drop 10 (List.drop 8 hostOps2_1), StableHlo.after_append]
  have h5 := hostB_take_a V0 _ hr h6
  have h33 : StableHlo.after (List.take 8 hostOps2_1) V0 (Proc.devRef .tc main_v33) = V0 (Proc.devRef .tc main_v33) := by
    keepsPart main_v33
  generalize StableHlo.after (List.take 8 hostOps2_1) V0 = V1 at h5 h33 ⊢
  have h12 := hostB_take_b V1 _ hr h5 e
  have h5' : StableHlo.after (List.take 10 (List.drop 8 hostOps2_1)) V1 (Proc.devRef .tc main_call4_v5)
      = V1 (Proc.devRef .tc main_call4_v5) := by
    keepsPart main_call4_v5
  have h33' : StableHlo.after (List.take 10 (List.drop 8 hostOps2_1)) V1 (Proc.devRef .tc main_v33)
      = V1 (Proc.devRef .tc main_v33) := by
    keepsPart main_v33
  generalize StableHlo.after (List.take 10 (List.drop 8 hostOps2_1)) V1 = V2 at h12 h5' h33' ⊢
  rw [hostB_take_c V2 _ e a h12 (by rw [h5']; exact h5 e), h33', h33]

/-- The score launch's output is not written by the two stretches after it. -/
theorem hostB_W13_v30 : W13 m ρ c (Proc.devRef .tc main_v30) = W11 m ρ c (Proc.devRef .tc main_v30) :=
  calc W13 m ρ c (Proc.devRef .tc main_v30)
    _ = W12 m ρ c (Proc.devRef .tc main_v30) := by keeps hostOps2_1 main_v30
    _ = W11 m ρ c (Proc.devRef .tc main_v30) := by keeps hostOps2 main_v30

theorem hostB_W16_v37 : W16 m ρ c (Proc.devRef .tc main_v37) = W14 m ρ c (Proc.devRef .tc main_v37) :=
  calc W16 m ρ c (Proc.devRef .tc main_v37)
    _ = W15 m ρ c (Proc.devRef .tc main_v37) := by keeps hostOps2_4 main_v37
    _ = W14 m ρ c (Proc.devRef .tc main_v37) := by keeps hostOps2_3 main_v37

/-! ## The weighting launch's operands (`Z`: the linear launch's output; `AL`: the score launch's output) -/

theorem entry2_hs (Z : sNxD.Idx → EReal) (hZ : V2 m ρ c main_v2 = Z) (hr : InRange (m ((c : Thread nD τ).loc main_arg1)))
    (e : Fin 800000) (q : Fin 128) :
    V16 m ρ c main_v7 (ix2 e q) = Z (ix2 (src (m ((c : Thread nD τ).loc main_arg1)) e) q) := by
  rw [← entry1_hs m ρ c Z hZ hr e q]
  exact congrFun (hostB_W16_v7 m ρ c) (ix2 e q)

theorem entry2_w (AL : sExH.Idx → EReal) (hAL : V11 m ρ c main_v30 = AL) (hr : InRange (m ((c : Thread nD τ).loc main_arg1)))
    (e : Fin 800000) (a : Fin 4) :
    V16 m ρ c main_v37 (ix2 e a)
      = Ideal.div (AL (ix2 e a))
          (Ideal.hostScatterAdd scatH (fun _ => c0) (dstCol (m ((c : Thread nD τ).loc main_arg1))) AL
            (ix2 (dst (m ((c : Thread nD τ).loc main_arg1)) e) a) + cTiny) := by
  have h30 : W13 m ρ c (Proc.devRef .tc main_v30) (ix2 e a) = AL (ix2 e a) := by
    rw [hostB_W13_v30]; exact congrFun hAL (ix2 e a)
  have h34 : W13 m ρ c (Proc.devRef .tc main_v34) (ix2 e a)
      = Ideal.hostScatterAdd scatH (fun _ => c0) (dstCol (m ((c : Thread nD τ).loc main_arg1))) AL
          (ix2 (dst (m ((c : Thread nD τ).loc main_arg1)) e) a) := by
    rw [hostB_W13_v34 m ρ c hr e a, hostB_W12_v33 m ρ c AL hAL]
  show W16 m ρ c (Proc.devRef .tc main_v37) (ix2 e a) = _
  rw [hostB_W16_v37]
  show StableHlo.after hostOps2_2 (W13 m ρ c) (Proc.devRef .tc main_v37) (ix2 e a) = _
  generalize W13 m ρ c = V at h30 h34 ⊢
  after_results
  rw [hostB_div_add_apply, h30, h34]
  rfl

theorem entry2_em (a : Fin 4) (q : Fin 128) :
    V16 m ρ c main_v42 (ix2 a q) = if headOf q = a then (1 : EReal) else 0 := by
  have h41 := hostB_W15_v41 m ρ c q a
  show StableHlo.after hostOps2_4 (W15 m ρ c) (Proc.devRef .tc main_v42) (ix2 a q) = _
  generalize W15 m ρ c = V at h41 ⊢
  after_results
  rw [transpose_apply _ _ _ _ (ix2 q a) (fun b => match b with | ⟨0, _⟩ => rfl | ⟨1, _⟩ => rfl)]
  exact h41

/-! ## The closing launch's operands (`MS`: the weighting launch's output) -/

theorem entry3_agg (MS : sExD.Idx → EReal) (hMS : V17 m ρ c main_v43 = MS) :
    V18 m ρ c main_v46 = Ideal.hostScatterAdd scatD (fun _ => c0) (dstCol (m ((c : Thread nD τ).loc main_arg1))) MS := by
  show StableHlo.after hostOps3 (W17 m ρ c) (Proc.devRef .tc main_v46) = _
  after_results
  rw [show W17 m ρ c (Proc.devRef .tc main_v43) = MS from hMS,
    hostB_col_of_vec (m ((c : Thread nD τ).loc main_arg1)) _ _ (fun p => by rw [hostB_W17_v6]; exact hostB_W3_v6 m ρ c p)]
  have h0 : broadcastInDim S50000x128 ![] bcast_S_S50000x128 (constant (F := Ideal) S_ FTy.f32 0#32) = fun _ => c0 := by
    funext j; rfl
  rw [h0]
  rfl

theorem entry3_z (Z : sNxD.Idx → EReal) (hZ : V2 m ρ c main_v2 = Z) : V18 m ρ c main_v2 = Z := by
  rw [← hZ]; exact hostB_W18_v2 m ρ c

theorem entry3_grow (q : Fin 128) : V18 m ρ c main_v47 (ix2 (0 : Fin 1) q) = m ((c : Thread nD τ).loc main_arg6) (ix1 q) := by
  show StableHlo.after hostOps3 (W17 m ρ c) (Proc.devRef .tc main_v47) (ix2 (0 : Fin 1) q) = _
  after_results
  rw [hostB_W17_arg6]
  exact hostB_row_of_vec _ _ q

theorem entry3_brow (q : Fin 128) : V18 m ρ c main_v48 (ix2 (0 : Fin 1) q) = m ((c : Thread nD τ).loc main_arg7) (ix1 q) := by
  show StableHlo.after hostOps3 (W17 m ρ c) (Proc.devRef .tc main_v48) (ix2 (0 : Fin 1) q) = _
  after_results
  rw [hostB_W17_arg7]
  exact hostB_row_of_vec _ _ q

end Cert.KernelIdeal.HostValue

end
-- ==== Proof.KernelValue.lean ====
/-
  The kernel program's result as the layer's definition.

  The four launches in turn, each from the contents the host operations before it leave: the linear launch writes the
  projection `z`; the score launch, handed the rows of `z` at the edges' endpoints and the projection tables, writes the
  attention weights; the weighting launch, handed the source rows, the normalised weights and the spreading table, writes
  the messages; the closing launch, handed the summed messages and `z`, writes the output. The endpoints being node
  numbers is what makes the gathered rows the rows of `z`.
-/
import proofs.«411918_j61280593379541_2_alg».proof.Proof.Gen.KernelIdeal.Frame
import proofs.«411918_j61280593379541_2_alg».proof.Proof.Spec
import proofs.«411918_j61280593379541_2_alg».proof.Proof.KernelMath
import proofs.«411918_j61280593379541_2_alg».proof.Proof.RegionLinear
import proofs.«411918_j61280593379541_2_alg».proof.Proof.RegionScore
import proofs.«411918_j61280593379541_2_alg».proof.Proof.RegionMessage
import proofs.«411918_j61280593379541_2_alg».proof.Proof.RegionClosing
import proofs.«411918_j61280593379541_2_alg».proof.Proof.KernelHostA
import proofs.«411918_j61280593379541_2_alg».proof.Proof.KernelHostB

set_option maxRecDepth 16384

noncomputable section

open scoped BigOperators

namespace Cert.KernelIdeal.Value

open Idealize.ShloMosaic Idealize.ShloMosaic.TcCoe Idealize.ShloMosaic.ValueIdx Idealize.SL.Sem
open Cert.KernelIdeal Cert.KernelIdeal.Gen Cert.GAT Cert.KernelIdeal.RegionValue Cert.KernelIdeal.HostValue

variable (m : (ℓ : Loc nD τ sig) → Buf (Elt Ideal) ℓ) (ρ : Dev nD → PrngReg) (c : Dev nD)

set_option quotPrecheck false

local notation "aH" => m ((c : Thread nD τ).loc main_arg0)
local notation "aEdge" => m ((c : Thread nD τ).loc main_arg1)
local notation "aFeat" => m ((c : Thread nD τ).loc main_arg2)
local notation "aW" => m ((c : Thread nD τ).loc main_arg3)
local notation "aBias" => m ((c : Thread nD τ).loc main_arg4)
local notation "aAtt" => m ((c : Thread nD τ).loc main_arg5)
local notation "aG" => m ((c : Thread nD τ).loc main_arg6)
local notation "aB" => m ((c : Thread nD τ).loc main_arg7)

/-- The linear launch leaves the projection. -/
theorem z_value : V2 m ρ c main_v2 = zA aH aW aBias := by
  have h1 : V2 m ρ c main_v2 = (dat0 (F := Ideal) (V1 m ρ) c).arrAt 3 cfg0.N := W2_arr m ρ c 3
  rw [h1, linear_value (V1 m ρ) c]
  refine ext2 fun n q => ?_
  exact kLin_eq aH aW aBias _ _ _ (entry0_x m ρ c) (entry0_wt m ρ c) (entry0_brow m ρ c) n q

/-- The score launch leaves the attention weights. -/
theorem alpha_value (hr : InRange aEdge) : V11 m ρ c main_v30 = alphaA aH aEdge aFeat aW aBias aAtt := by
  have h1 : V11 m ρ c main_v30 = (dat1 (F := Ideal) (V10 m ρ) c).arrAt 6 cfg1.N := W11_arr m ρ c 6
  rw [h1, score_value (V10 m ρ) c, entry1_feat m ρ c]
  refine ext2 fun e a => ?_
  exact kAlpha_eq aH aEdge aFeat aW aBias aAtt _ _ _ _ _
    (fun e q => entry1_hs m ρ c _ (z_value m ρ c) hr e q) (fun e q => entry1_hd m ρ c _ (z_value m ρ c) hr e q)
    (entry1_ms m ρ c) (entry1_md m ρ c) (entry1_ae m ρ c) e a

/-- The weighting launch leaves the messages. -/
theorem msg_value (hr : InRange aEdge) : V17 m ρ c main_v43 = msgA aH aEdge aFeat aW aBias aAtt := by
  have h1 : V17 m ρ c main_v43 = (dat2 (F := Ideal) (V16 m ρ) c).arrAt 3 cfg2.N := W17_arr m ρ c 3
  rw [h1, message_value (V16 m ρ) c]
  refine ext2 fun e q => ?_
  exact kMsg_eq aH aEdge aFeat aW aBias aAtt _ _ _
    (fun e q => entry2_hs m ρ c _ (z_value m ρ c) hr e q)
    (fun e a => entry2_w m ρ c _ (alpha_value m ρ c hr) hr e a)
    (entry2_em m ρ c) e q

/-- The closing launch leaves the layer's output: the program's result. -/
theorem out_value (hr : InRange aEdge) :
    W19 m ρ c (Proc.devRef .tc main_v49) = outA aH aEdge aFeat aW aBias aAtt aG aB := by
  have h1 : W19 m ρ c (Proc.devRef .tc main_v49) = (dat3 (F := Ideal) (V18 m ρ) c).arrAt 4 cfg3.N := W19_arr m ρ c 4
  rw [h1, closing_value (V18 m ρ) c, entry3_agg m ρ c _ (msg_value m ρ c hr), entry3_z m ρ c _ (z_value m ρ c)]
  refine ext2 fun n q => ?_
  show kOut _ _ _ _ n q = out aH aEdge aFeat aW aBias aAtt aG aB n q
  unfold kOut out
  simp only [entry3_grow m ρ c, entry3_brow m ρ c]
  rfl

end Cert.KernelIdeal.Value

end
-- ==== Proof.RStages.lean ====
/-
  The reference's @main as pure functions of its argument arrays, stage by stage, each the printed operations'
  own terms composed (so that the run's result term is `outR` of the launch contents by unfolding):
  the projection, the two endpoint rows of the edge list, the row gather through numpy's index normalisation,
  the attention weights, the denominators, the normalised weights, the messages, their sum per node, and the
  residual, layer normalisation and exponential linear unit.
-/
import proofs.«411918_j61280593379541_2_alg».proof.ReferenceIdeal
import Idealize.ShloMosaic.PureOps.Ideal

noncomputable section

namespace Cert.ReferenceIdeal.Stages

open Idealize.ShloMosaic Cert.ReferenceIdeal

variable [Facts]
open Facts₀ Facts

/-- `z = h · Wᵀ + bias` (operations %0 – %4). -/
def zR (h : FVec Ideal S50000x128 .f32) (W : FVec Ideal S128x128 .f32) (bias : FVec Ideal S128 .f32) : FVec Ideal S50000x128 .f32 :=
  addf (Host.dotGeneral dot_S50000x128_S128x128_S50000x128_1_0_0_1_n_n none h (transpose S128x128 [1, 0] W transposes_S128x128_S128x128_1_0))
    (broadcastInDim S50000x128 ![0, 1] bcast_S1x128_S50000x128_0_1 (broadcastInDim S1x128 ![1] bcast_S128_S1x128_1 bias))

/-- Row 0 (sources) and row 1 (destinations) of the edge list (%6 – %9). -/
def srcR (edge : IVec S2x800000 32) : IVec S800000 32 :=
  shapeCast S800000 (extractStridedSlice S1x800000 ![0, 0] edge slices_S2x800000_S1x800000_0_0) shapeCasts_S1x800000_S800000
def dstR (edge : IVec S2x800000 32) : IVec S800000 32 :=
  shapeCast S800000 (extractStridedSlice S1x800000 ![1, 0] edge slices_S2x800000_S1x800000_1_0) shapeCasts_S1x800000_S800000

/-- numpy's index normalisation (a negative index counts from the end) and the one-column start-index array (%c – %15). -/
def wrapR (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The rows of `z`, seen as `[N, 4, 32]`, that an endpoint vector names (%5, %16 / %23). -/
def rowsR (z : FVec Ideal S50000x128 .f32) (x : IVec S800000 32) : FVec Ideal S800000x4x32 .f32 :=
  Host.gather gather_S50000x4x32_S800000x1_S800000x4x32_12_0_n_n_0_1_1432
    (shapeCast S50000x4x32 z shapeCasts_S50000x128_S50000x4x32) (wrapR x)

/-- The attention weights (%24 – %37): concatenate, multiply by `att`, sum over the 65 entries, leaky rectifier, clip, exponential. -/
def alphaR (hs hd : FVec Ideal S800000x4x32 .f32) (feat : FVec Ideal S800000x1 .f32) (att : FVec Ideal S4x65 .f32) : FVec Ideal S800000x4 .f32 :=
  let cat : FVec Ideal S800000x4x65 .f32 := concatenate S800000x4x65 2
    [⟨S800000x4x32, hs⟩, ⟨S800000x4x32, hd⟩,
     ⟨S800000x4x1, broadcastInDim S800000x4x1 ![0, 1, 2] bcast_S800000x1x1_S800000x4x1_0_1_2 (broadcastInDim S800000x1x1 ![0, 2] bcast_S800000x1_S800000x1x1_0_2 feat)⟩]
    concatenates_S800000x4x32_S800000x4x32_S800000x4x1_S800000x4x65_d2
  let s : FVec Ideal S800000x4 .f32 := Host.reduceAdd
    (mulf cat (broadcastInDim S800000x4x65 ![0, 1, 2] bcast_S1x4x65_S800000x4x65_0_1_2 (broadcastInDim S1x4x65 ![1, 2] bcast_S4x65_S1x4x65_1_2 att)))
    (constant S_ .f32 0x00000000#32) reducesTo_S800000x4x65_S800000x4_d2 h_S_
  let lk : FVec Ideal S800000x4 .f32 := select (cmpf .oge s (broadcastInDim S800000x4 ![] bcast_S_S800000x4 (constant S_ .f32 0x00000000#32))) s
    (mulf (broadcastInDim S800000x4 ![] bcast_S_S800000x4 (constant S_ .f32 0x3E4CCCCD#32)) s)
  let cl : FVec Ideal S800000x4 .f32 := minimumf (broadcastInDim S800000x4 ![] bcast_S_S800000x4 (id (constant S_ .f32 0x41A00000#32)))
    (maximumf (broadcastInDim S800000x4 ![] bcast_S_S800000x4 (id (constant S_ .f32 0xC1A00000#32))) lk)
  Host.exp cl

/-- The denominators: the weights summed at the raw destination words (%cst_7 – %40). -/
def denomR (alpha : FVec Ideal S800000x4 .f32) (d : IVec S800000 32) : FVec Ideal S50000x4 .f32 :=
  Host.scatterAdd scatter_S50000x4_S800000x1_S800000x4_1_0_0_1
    (broadcastInDim S50000x4 ![] bcast_S_S50000x4 (constant S_ .f32 0x00000000#32))
    (broadcastInDim S800000x1 ![0] bcast_S800000_S800000x1_0 d) alpha

/-- The normalised weights (%c_8 – %50). -/
def naR (alpha : FVec Ideal S800000x4 .f32) (denom : FVec Ideal S50000x4 .f32) (d : IVec S800000 32) : FVec Ideal S800000x4 .f32 :=
  Host.divf alpha
    (addf (Host.gather gather_S50000x4_S800000x1_S800000x4_1_0_n_n_0_1_14 denom (wrapR d))
      (broadcastInDim S800000x4 ![] bcast_S_S800000x4 (constant S_ .f32 0x358637BD#32)))

/-- The messages (%51 – %53). -/
def msgR (hs : FVec Ideal S800000x4x32 .f32) (w : FVec Ideal S800000x4 .f32) : FVec Ideal S800000x4x32 .f32 :=
  mulf hs (broadcastInDim S800000x4x32 ![0, 1, 2] bcast_S800000x4x1_S800000x4x32_0_1_2 (broadcastInDim S800000x4x1 ![0, 1] bcast_S800000x4_S800000x4x1_0_1 w))

/-- The messages summed at the raw destination words, back as `[N, 128]` (%cst_11 – %57). -/
def aggR (msg : FVec Ideal S800000x4x32 .f32) (d : IVec S800000 32) : FVec Ideal S50000x128 .f32 :=
  shapeCast S50000x128
    (Host.scatterAdd scatter_S50000x4x32_S800000x1_S800000x4x32_12_0_0_1
      (broadcastInDim S50000x4x32 ![] bcast_S_S50000x4x32 (constant S_ .f32 0x00000000#32))
      (broadcastInDim S800000x1 ![0] bcast_S800000_S800000x1_0 d) msg)
    shapeCasts_S50000x4x32_S50000x128

/-- Residual and layer normalisation (%58 – %82). -/
def normR (agg z : FVec Ideal S50000x128 .f32) (g b : FVec Ideal S128 .f32) : FVec Ideal S50000x128 .f32 :=
  let x : FVec Ideal S50000x128 .f32 := addf agg z
  let mu : FVec Ideal S50000x1 .f32 := Host.divf
    (broadcastInDim S50000x1 ![0] bcast_S50000_S50000x1_0 (Host.reduceAdd x (constant S_ .f32 0x00000000#32) reducesTo_S50000x128_S50000_d1 h_S_))
    (broadcastInDim S50000x1 ![] bcast_S_S50000x1 (constant S_ .f32 0x43000000#32))
  let dv : FVec Ideal S50000x128 .f32 := subf x (broadcastInDim S50000x128 ![0, 1] bcast_S50000x1_S50000x128_0_1 mu)
  let var : FVec Ideal S50000x1 .f32 := Host.divf
    (broadcastInDim S50000x1 ![0] bcast_S50000_S50000x1_0 (Host.reduceAdd (mulf dv dv) (constant S_ .f32 0x00000000#32) reducesTo_S50000x128_S50000_d1 h_S_))
    (broadcastInDim S50000x1 ![] bcast_S_S50000x1 (constant S_ .f32 0x43000000#32))
  let dv' : FVec Ideal S50000x128 .f32 := subf x (broadcastInDim S50000x128 ![0, 1] bcast_S50000x1_S50000x128_0_1 mu)
  let rs : FVec Ideal S50000x1 .f32 := Host.rsqrt (addf var (broadcastInDim S50000x1 ![] bcast_S_S50000x1 (constant S_ .f32 0x3727C5AC#32)))
  addf
    (mulf (mulf dv' (broadcastInDim S50000x128 ![0, 1] bcast_S50000x1_S50000x128_0_1 rs))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- The exponential linear unit as jax spells it (@elu). -/
def eluR (y : FVec Ideal S50000x128 .f32) : FVec Ideal S50000x128 .f32 :=
  let pos : IVec S50000x128 1 := cmpf .ogt y (broadcastInDim S50000x128 ![] bcast_S_S50000x128 (constant S_ .f32 0x00000000#32))
  let pos' : IVec S50000x128 1 := cmpf .ogt y (broadcastInDim S50000x128 ![] bcast_S_S50000x128 (constant S_ .f32 0x00000000#32))
  let safe : FVec Ideal S50000x128 .f32 := select pos' (broadcastInDim S50000x128 ![] bcast_S_S50000x128 (id (constant S_ .f32 0x00000000#32))) y
  select pos y (mulf (broadcastInDim S50000x128 ![] bcast_S_S50000x128 (constant S_ .f32 0x3F800000#32)) (Host.expm1 safe))

/-- The whole reference. -/
def outR (h : FVec Ideal S50000x128 .f32) (edge : IVec S2x800000 32) (feat : FVec Ideal S800000x1 .f32) (W : FVec Ideal S128x128 .f32)
    (bias : FVec Ideal S128 .f32) (att : FVec Ideal S4x65 .f32) (g b : FVec Ideal S128 .f32) : FVec Ideal S50000x128 .f32 :=
  let z := zR h W bias
  let hs := rowsR z (srcR edge)
  let hd := rowsR z (dstR edge)
  let al := alphaR hs hd feat att
  let w := naR al (denomR al (dstR edge)) (dstR edge)
  eluR (normR (aggR (msgR hs w) (dstR edge)) z g b)

end Cert.ReferenceIdeal.Stages

end
-- ==== Proof.RefRun.lean ====
/-
  The reference's run: @main is a straight line of host operations (the functions jax outlined listed at their call
  sites), so every weakly fair execution terminates with each buffer at the operations' composed term of the launch
  contents; the result buffer's term is `Stages.outR` of the argument arrays, and no operation writes an argument.
-/
import proofs.«411918_j61280593379541_2_alg».proof.Proof.RStages
import proofs.«411918_j61280593379541_2_alg».proof.Proof.Gen.ReferenceIdeal
import Idealize.ShloMosaic.Lib.StableHlo.Run

noncomputable section

namespace Cert.ReferenceIdeal.Value

open Idealize.ShloMosaic Idealize.ShloMosaic.TcCoe Idealize.SL.Sem Cert.ReferenceIdeal

variable [Facts]
open Facts₀ Facts

section Aux
open Idealize.ShloMosaic.StableHlo
variable {Val : EltTy → Type}

/-- The contents after two lines in a row: the second line's after the first's. -/
theorem after_app (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation that writes one buffer writes inside any list of references holding it. -/
theorem wr_sub {op : HloOp τ sig Val} {Wl : List (Ref sig .tc)} (y : Ref sig .tc)
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

end Aux

section Ops
variable {F : FTy → Type} [FloatOps F]
open Idealize.ShloMosaic.StableHlo

/-! ## The operations, stage by stage (the outlined functions' operations at their call sites) -/

/-- The projection `h · Wᵀ + bias` and its view as `[N, 4, 32]` (%0 – %5). -/
def opsA : List (HloOp τ sig (Elt F)) :=
  [ StableHlo.unary main_arg3 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S50000x128 ![0, 1] bcast_S1x128_S50000x128_0_1 : (⟨S1x128, .f32⟩ : BufTy).Contents (Elt F) → (⟨S50000x128, .f32⟩ : BufTy).Contents (Elt F)),
    StableHlo.binary main_v1 main_v3 main_v4 (addf : (⟨S50000x128, .f32⟩ : BufTy).Contents (Elt F) → (⟨S50000x128, .f32⟩ : BufTy).Contents (Elt F) → (⟨S50000x128, .f32⟩ : BufTy).Contents (Elt F)),
    StableHlo.reshape main_v4 main_v5 rfl shapeCasts_S50000x128_S50000x4x32 ]

/-- The two endpoint rows of the edge list (%6 – %9). -/
def opsB : List (HloOp τ sig (Elt F)) :=
  [ StableHlo.unary main_arg1 main_v6 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v6 main_v7 rfl shapeCasts_S1x800000_S800000,
    StableHlo.unary main_arg1 main_v8 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v8 main_v9 rfl shapeCasts_S1x800000_S800000 ]

/-- The source endpoints normalised, and the rows of the projection they name (%c – %16). -/
def opsC : List (HloOp τ sig (Elt F)) :=
  [ StableHlo.nullary main_c (constantI S_ 32 0#32),
    StableHlo.unary main_c main_v10 (broadcastInDim S800000 ![] bcast_S_S800000 : (⟨S_, .i32⟩ : BufTy).Contents (Elt F) → (⟨S800000, .i32⟩ : BufTy).Contents (Elt F)),
    StableHlo.binary main_v7 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v12 (broadcastInDim S800000 ![] bcast_S_S800000 : (⟨S_, .i32⟩ : BufTy).Contents (Elt F) → (⟨S800000, .i32⟩ : BufTy).Contents (Elt F)),
    StableHlo.binary main_v7 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_v7 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_v5 main_v15 main_v16 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)) ]

/-- The destination endpoints normalised, and the rows of the projection they name (%c_1 – %23). -/
def opsD : List (HloOp τ sig (Elt F)) :=
  [ StableHlo.nullary main_c_1 (constantI S_ 32 0#32),
    StableHlo.unary main_c_1 main_v17 (broadcastInDim S800000 ![] bcast_S_S800000 : (⟨S_, .i32⟩ : BufTy).Contents (Elt F) → (⟨S800000, .i32⟩ : BufTy).Contents (Elt F)),
    StableHlo.binary main_v9 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v19 (broadcastInDim S800000 ![] bcast_S_S800000 : (⟨S_, .i32⟩ : BufTy).Contents (Elt F) → (⟨S800000, .i32⟩ : BufTy).Contents (Elt F)),
    StableHlo.binary main_v9 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_v9 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v5 main_v22 main_v23 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)) ]

/-- The attention weights: concatenate, multiply by `att`, sum, leaky rectifier (@_where), clip (@clip), exponential (%24 – %37). -/
def opsE : List (HloOp τ sig (Elt F)) :=
  [ StableHlo.unary main_arg2 main_v24 (broadcastInDim S800000x1x1 ![0, 2] bcast_S800000x1_S800000x1x1_0_2 : (⟨S800000x1, .f32⟩ : BufTy).Contents (Elt F) → (⟨S800000x1x1, .f32⟩ : BufTy).Contents (Elt F)),
    StableHlo.unary main_v24 main_v25 (broadcastInDim S800000x4x1 ![0, 1, 2] bcast_S800000x1x1_S800000x4x1_0_1_2 : (⟨S800000x1x1, .f32⟩ : BufTy).Contents (Elt F) → (⟨S800000x4x1, .f32⟩ : BufTy).Contents (Elt F)),
    StableHlo.nary ![main_v16, main_v23, main_v25] main_v26 (fun u => concatenate S800000x4x65 2 [⟨S800000x4x32, u 0⟩, ⟨S800000x4x32, u 1⟩, ⟨S800000x4x1, u 2⟩] concatenates_S800000x4x32_S800000x4x32_S800000x4x1_S800000x4x65_d2),
    StableHlo.unary main_arg5 main_v27 (broadcastInDim S1x4x65 ![1, 2] bcast_S4x65_S1x4x65_1_2 : (⟨S4x65, .f32⟩ : BufTy).Contents (Elt F) → (⟨S1x4x65, .f32⟩ : BufTy).Contents (Elt F)),
    StableHlo.unary main_v27 main_v28 (broadcastInDim S800000x4x65 ![0, 1, 2] bcast_S1x4x65_S800000x4x65_0_1_2 : (⟨S1x4x65, .f32⟩ : BufTy).Contents (Elt F) → (⟨S800000x4x65, .f32⟩ : BufTy).Contents (Elt F)),
    StableHlo.binary main_v26 main_v28 main_v29 (mulf : (⟨S800000x4x65, .f32⟩ : BufTy).Contents (Elt F) → (⟨S800000x4x65, .f32⟩ : BufTy).Contents (Elt F) → (⟨S800000x4x65, .f32⟩ : BufTy).Contents (Elt F)),
    StableHlo.nullary main_cst (constant S_ .f32 0x00000000#32),
    StableHlo.binary main_v29 main_cst main_v30 ((fun x v => Host.reduceAdd x v reducesTo_S800000x4x65_S800000x4_d2 h_S_) : (⟨S800000x4x65, .f32⟩ : BufTy).Contents (Elt F) → (⟨S_, .f32⟩ : BufTy).Contents (Elt F) → (⟨S800000x4, .f32⟩ : BufTy).Contents (Elt F)),
    StableHlo.nullary main_cst_3 (constant S_ .f32 0x00000000#32),
    StableHlo.unary main_cst_3 main_v31 (broadcastInDim S800000x4 ![] bcast_S_S800000x4 : (⟨S_, .f32⟩ : BufTy).Contents (Elt F) → (⟨S800000x4, .f32⟩ : BufTy).Contents (Elt F)),
    StableHlo.binary main_v30 main_v31 main_v32 (cmpf .oge : (⟨S800000x4, .f32⟩ : BufTy).Contents (Elt F) → (⟨S800000x4, .f32⟩ : BufTy).Contents (Elt F) → (⟨S800000x4, .i1⟩ : BufTy).Contents (Elt F)),
    StableHlo.nullary main_cst_4 (constant S_ .f32 0x3E4CCCCD#32),
    StableHlo.unary main_cst_4 main_v33 (broadcastInDim S800000x4 ![] bcast_S_S800000x4 : (⟨S_, .f32⟩ : BufTy).Contents (Elt F) → (⟨S800000x4, .f32⟩ : BufTy).Contents (Elt F)),
    StableHlo.binary main_v33 main_v30 main_v34 (mulf : (⟨S800000x4, .f32⟩ : BufTy).Contents (Elt F) → (⟨S800000x4, .f32⟩ : BufTy).Contents (Elt F) → (⟨S800000x4, .f32⟩ : BufTy).Contents (Elt F)),
    StableHlo.TRef.ternary (.of main_v32 : StableHlo.TRef sig ⟨S800000x4, .i1⟩) (.of main_v30 : StableHlo.TRef sig ⟨S800000x4, .f32⟩) (.of main_v34 : StableHlo.TRef sig ⟨S800000x4, .f32⟩) main_call0.v0 select,
    StableHlo.nullary main_cst_5 (constant S_ .f32 0xC1A00000#32),
    StableHlo.nullary main_cst_6 (constant S_ .f32 0x41A00000#32),
    StableHlo.TRef.unary (.of main_cst_5 : StableHlo.TRef sig ⟨S_, .f32⟩) main_call1.v0 id,
    StableHlo.TRef.unary main_call1.v0 main_call1.v1 (broadcastInDim S800000x4 ![] bcast_S_S800000x4),
    StableHlo.TRef.binary main_call1.v1 (.of main_v35 : StableHlo.TRef sig ⟨S800000x4, .f32⟩) main_call1.v2 maximumf,
    StableHlo.TRef.unary (.of main_cst_6 : StableHlo.TRef sig ⟨S_, .f32⟩) main_call1.v3 id,
    StableHlo.TRef.unary main_call1.v3 main_call1.v4 (broadcastInDim S800000x4 ![] bcast_S_S800000x4),
    StableHlo.TRef.binary main_call1.v4 main_call1.v2 main_call1.v5 minimumf,
    StableHlo.unary main_v36 main_v37 (Host.exp : (⟨S800000x4, .f32⟩ : BufTy).Contents (Elt F) → (⟨S800000x4, .f32⟩ : BufTy).Contents (Elt F)) ]

/-- The denominators: the weights summed at the destination words (%cst_7 – %40). -/
def opsF : List (HloOp τ sig (Elt F)) :=
  [ StableHlo.nullary main_cst_7 (constant S_ .f32 0x00000000#32),
    StableHlo.unary main_cst_7 main_v38 (broadcastInDim S50000x4 ![] bcast_S_S50000x4 : (⟨S_, .f32⟩ : BufTy).Contents (Elt F) → (⟨S50000x4, .f32⟩ : BufTy).Contents (Elt F)),
    StableHlo.unary main_v9 main_v39 (broadcastInDim S800000x1 ![0] bcast_S800000_S800000x1_0 : (⟨S800000, .i32⟩ : BufTy).Contents (Elt F) → (⟨S800000x1, .i32⟩ : BufTy).Contents (Elt F)),
    StableHlo.ternary main_v38 main_v39 main_v37 main_v40 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)) ]

/-- The destination endpoints normalised again, and the denominators gathered through them (%c_8 – %47). -/
def opsG1 : List (HloOp τ sig (Elt F)) :=
  [ StableHlo.nullary main_c_8 (constantI S_ 32 0#32),
    StableHlo.unary main_c_8 main_v41 (broadcastInDim S800000 ![] bcast_S_S800000 : (⟨S_, .i32⟩ : BufTy).Contents (Elt F) → (⟨S800000, .i32⟩ : BufTy).Contents (Elt F)),
    StableHlo.binary main_v9 main_v41 main_v42 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v43 (broadcastInDim S800000 ![] bcast_S_S800000 : (⟨S_, .i32⟩ : BufTy).Contents (Elt F) → (⟨S800000, .i32⟩ : BufTy).Contents (Elt F)),
    StableHlo.binary main_v9 main_v43 main_v44 (addi : (⟨S800000, .i32⟩ : BufTy).Contents (Elt F) → (⟨S800000, .i32⟩ : BufTy).Contents (Elt F) → (⟨S800000, .i32⟩ : BufTy).Contents (Elt F)),
    StableHlo.ternary main_v42 main_v44 main_v9 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v45 main_v46 (broadcastInDim S800000x1 ![0] bcast_S800000_S800000x1_0 : (⟨S800000, .i32⟩ : BufTy).Contents (Elt F) → (⟨S800000x1, .i32⟩ : BufTy).Contents (Elt F)),
    StableHlo.binary main_v40 main_v46 main_v47 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)) ]

/-- The normalised weights (%cst_10 – %50). -/
def opsG2 : List (HloOp τ sig (Elt F)) :=
  [ StableHlo.nullary main_cst_10 (constant S_ .f32 0x358637BD#32),
    StableHlo.unary main_cst_10 main_v48 (broadcastInDim S800000x4 ![] bcast_S_S800000x4 : (⟨S_, .f32⟩ : BufTy).Contents (Elt F) → (⟨S800000x4, .f32⟩ : BufTy).Contents (Elt F)),
    StableHlo.binary main_v47 main_v48 main_v49 (addf : (⟨S800000x4, .f32⟩ : BufTy).Contents (Elt F) → (⟨S800000x4, .f32⟩ : BufTy).Contents (Elt F) → (⟨S800000x4, .f32⟩ : BufTy).Contents (Elt F)),
    StableHlo.binary main_v37 main_v49 main_v50 (Host.divf : (⟨S800000x4, .f32⟩ : BufTy).Contents (Elt F) → (⟨S800000x4, .f32⟩ : BufTy).Contents (Elt F) → (⟨S800000x4, .f32⟩ : BufTy).Contents (Elt F)) ]

/-- The messages (%51 – %53). -/
def opsH : List (HloOp τ sig (Elt F)) :=
  [ StableHlo.unary main_v50 main_v51 (broadcastInDim S800000x4x1 ![0, 1] bcast_S800000x4_S800000x4x1_0_1 : (⟨S800000x4, .f32⟩ : BufTy).Contents (Elt F) → (⟨S800000x4x1, .f32⟩ : BufTy).Contents (Elt F)),
    StableHlo.unary main_v51 main_v52 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    StableHlo.binary main_v16 main_v52 main_v53 (mulf : (⟨S800000x4x32, .f32⟩ : BufTy).Contents (Elt F) → (⟨S800000x4x32, .f32⟩ : BufTy).Contents (Elt F) → (⟨S800000x4x32, .f32⟩ : BufTy).Contents (Elt F)) ]

/-- The messages summed at the destination words, back as `[N, 128]` (%cst_11 – %57). -/
def opsI : List (HloOp τ sig (Elt F)) :=
  [ StableHlo.nullary main_cst_11 (constant S_ .f32 0x00000000#32),
    StableHlo.unary main_cst_11 main_v54 (broadcastInDim S50000x4x32 ![] bcast_S_S50000x4x32 : (⟨S_, .f32⟩ : BufTy).Contents (Elt F) → (⟨S50000x4x32, .f32⟩ : BufTy).Contents (Elt F)),
    StableHlo.unary main_v9 main_v55 (broadcastInDim S800000x1 ![0] bcast_S800000_S800000x1_0 : (⟨S800000, .i32⟩ : BufTy).Contents (Elt F) → (⟨S800000x1, .i32⟩ : BufTy).Contents (Elt F)),
    StableHlo.ternary main_v54 main_v55 main_v53 main_v56 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    StableHlo.reshape main_v56 main_v57 rfl shapeCasts_S50000x4x32_S50000x128 ]

/-- Residual and layer normalisation (%58 – %82). -/
def opsJ : List (HloOp τ sig (Elt F)) :=
  [ StableHlo.binary main_v57 main_v4 main_v58 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v58 main_cst_12 main_v59 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v59 main_v60 (broadcastInDim S50000x1 ![0] bcast_S50000_S50000x1_0 : (⟨S50000, .f32⟩ : BufTy).Contents (Elt F) → (⟨S50000x1, .f32⟩ : BufTy).Contents (Elt F)),
    StableHlo.nullary main_cst_13 (constant S_ .f32 0x43000000#32),
    StableHlo.unary main_cst_13 main_v61 (broadcastInDim S50000x1 ![] bcast_S_S50000x1 : (⟨S_, .f32⟩ : BufTy).Contents (Elt F) → (⟨S50000x1, .f32⟩ : BufTy).Contents (Elt F)),
    StableHlo.binary main_v60 main_v61 main_v62 (Host.divf : (⟨S50000x1, .f32⟩ : BufTy).Contents (Elt F) → (⟨S50000x1, .f32⟩ : BufTy).Contents (Elt F) → (⟨S50000x1, .f32⟩ : BufTy).Contents (Elt F)),
    StableHlo.unary main_v62 main_v63 (broadcastInDim S50000x128 ![0, 1] bcast_S50000x1_S50000x128_0_1 : (⟨S50000x1, .f32⟩ : BufTy).Contents (Elt F) → (⟨S50000x128, .f32⟩ : BufTy).Contents (Elt F)),
    StableHlo.binary main_v58 main_v63 main_v64 (subf : (⟨S50000x128, .f32⟩ : BufTy).Contents (Elt F) → (⟨S50000x128, .f32⟩ : BufTy).Contents (Elt F) → (⟨S50000x128, .f32⟩ : BufTy).Contents (Elt F)),
    StableHlo.binary main_v64 main_v64 main_v65 (mulf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v65 main_cst_14 main_v66 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v66 main_v67 (broadcastInDim S50000x1 ![0] bcast_S50000_S50000x1_0 : (⟨S50000, .f32⟩ : BufTy).Contents (Elt F) → (⟨S50000x1, .f32⟩ : BufTy).Contents (Elt F)),
    StableHlo.nullary main_cst_15 (constant S_ .f32 0x43000000#32),
    StableHlo.unary main_cst_15 main_v68 (broadcastInDim S50000x1 ![] bcast_S_S50000x1 : (⟨S_, .f32⟩ : BufTy).Contents (Elt F) → (⟨S50000x1, .f32⟩ : BufTy).Contents (Elt F)),
    StableHlo.binary main_v67 main_v68 main_v69 (Host.divf : (⟨S50000x1, .f32⟩ : BufTy).Contents (Elt F) → (⟨S50000x1, .f32⟩ : BufTy).Contents (Elt F) → (⟨S50000x1, .f32⟩ : BufTy).Contents (Elt F)),
    StableHlo.unary main_v62 main_v70 (broadcastInDim S50000x128 ![0, 1] bcast_S50000x1_S50000x128_0_1 : (⟨S50000x1, .f32⟩ : BufTy).Contents (Elt F) → (⟨S50000x128, .f32⟩ : BufTy).Contents (Elt F)),
    StableHlo.binary main_v58 main_v70 main_v71 (subf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3727C5AC#32),
    StableHlo.unary main_cst_16 main_v72 (broadcastInDim S50000x1 ![] bcast_S_S50000x1 : (⟨S_, .f32⟩ : BufTy).Contents (Elt F) → (⟨S50000x1, .f32⟩ : BufTy).Contents (Elt F)),
    StableHlo.binary main_v69 main_v72 main_v73 (addf : (⟨S50000x1, .f32⟩ : BufTy).Contents (Elt F) → (⟨S50000x1, .f32⟩ : BufTy).Contents (Elt F) → (⟨S50000x1, .f32⟩ : BufTy).Contents (Elt F)),
    StableHlo.unary main_v73 main_v74 (Host.rsqrt : (⟨S50000x1, .f32⟩ : BufTy).Contents (Elt F) → (⟨S50000x1, .f32⟩ : BufTy).Contents (Elt F)),
    StableHlo.unary main_v74 main_v75 (broadcastInDim S50000x128 ![0, 1] bcast_S50000x1_S50000x128_0_1 : (⟨S50000x1, .f32⟩ : BufTy).Contents (Elt F) → (⟨S50000x128, .f32⟩ : BufTy).Contents (Elt F)),
    StableHlo.binary main_v71 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_arg6 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (mulf : (⟨S50000x128, .f32⟩ : BufTy).Contents (Elt F) → (⟨S50000x128, .f32⟩ : BufTy).Contents (Elt F) → (⟨S50000x128, .f32⟩ : BufTy).Contents (Elt F)),
    StableHlo.unary main_arg7 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)) ]

/-- The exponential linear unit (@elu, with @_where_0 and @_where_1 at their call sites). -/
def opsK : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v82 : StableHlo.TRef sig ⟨S50000x128, .f32⟩) main_call2.v0 main_call2.v1 (cmpf (F := F) .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v82 : StableHlo.TRef sig ⟨S50000x128, .f32⟩) main_call2.v2 main_call2.v3 (cmpf (F := F) .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v82 : StableHlo.TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v82 : StableHlo.TRef sig ⟨S50000x128, .f32⟩) main_call2.v7 main_call2.call1.v0 select ]

/-- @main's operations in order: the first window's, then the second's. -/
def ops : List (HloOp τ sig (Elt F)) :=
  (opsA ++ opsB ++ opsC ++ opsD ++ opsE ++ opsF ++ opsG1) ++ (opsG2 ++ opsH ++ opsI ++ opsJ ++ opsK)

set_option maxRecDepth 8192 in
set_option maxHeartbeats 4000000 in
/-- The first window is its stages' line: the two calls unfolded, sequencing reassociated. -/
theorem part0_eq (c : Dev nD) : main_part0 (F := F) c = seq (opsA ++ opsB ++ opsC ++ opsD ++ opsE ++ opsF ++ opsG1) := by
  simp only [main_part0, fn_where.body, fn_clip.body, seq_append, opsA, opsB, opsC, opsD, opsE, opsF, opsG1, seq, bind_assoc, pure_bind] <;> rfl

set_option maxRecDepth 8192 in
set_option maxHeartbeats 4000000 in
/-- The second window is its stages' line: the call and the two calls inside it unfolded, sequencing reassociated. -/
theorem part1_eq (c : Dev nD) : main_part1 (F := F) c = seq (opsG2 ++ opsH ++ opsI ++ opsJ ++ opsK) := by
  simp only [main_part1, fn_elu.body, fn_where_0.body, fn_where_1.body, seq_append, opsG2, opsH, opsI, opsJ, opsK, seq, bind_assoc, pure_bind] <;> rfl

/-- @main is the straight line of its operations. -/
theorem main_eq (c : Dev nD) : main (F := F) c = seq ops := by
  unfold ops
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Per stage: the buffers touched are the TensorCore's, every operation determines its result, and a buffer the
    stage does not write keeps its contents -/

theorem subA : (opsA : List (HloOp τ sig (Elt F))).Forall fun op => op.bufs ⊆ tcRefs τ sig :=
  ⟨unary_bufs_sub .., binary_bufs_sub .., unary_bufs_sub .., unary_bufs_sub .., binary_bufs_sub .., reshape_bufs_sub ..⟩
theorem freshA : (opsA : List (HloOp τ sig (Elt F))).Forall fun op => op.fresh = ∅ :=
  ⟨rfl, rfl, rfl, rfl, rfl, rfl⟩
theorem frameA (W : Valuation τ sig (Elt F)) {r : Ref sig .tc} (hr : r ∉ [main_v0, main_v1, main_v2, main_v3, main_v4, main_v5]) :
    after opsA W (no_index (Proc.devRef .tc r)) = W (Proc.devRef .tc r) :=
  after_of_writes_sub opsA W ⟨wr_sub main_v0 rfl (by decide), wr_sub main_v1 rfl (by decide), wr_sub main_v2 rfl (by decide), wr_sub main_v3 rfl (by decide), wr_sub main_v4 rfl (by decide), wr_sub main_v5 rfl (by decide)⟩ hr

theorem subB : (opsB : List (HloOp τ sig (Elt F))).Forall fun op => op.bufs ⊆ tcRefs τ sig :=
  ⟨unary_bufs_sub .., reshape_bufs_sub .., unary_bufs_sub .., reshape_bufs_sub ..⟩
theorem freshB : (opsB : List (HloOp τ sig (Elt F))).Forall fun op => op.fresh = ∅ :=
  ⟨rfl, rfl, rfl, rfl⟩
theorem frameB (W : Valuation τ sig (Elt F)) {r : Ref sig .tc} (hr : r ∉ [main_v6, main_v7, main_v8, main_v9]) :
    after opsB W (no_index (Proc.devRef .tc r)) = W (Proc.devRef .tc r) :=
  after_of_writes_sub opsB W ⟨wr_sub main_v6 rfl (by decide), wr_sub main_v7 rfl (by decide), wr_sub main_v8 rfl (by decide), wr_sub main_v9 rfl (by decide)⟩ hr

theorem subC : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem freshC : (opsC : List (HloOp τ sig (Elt F))).Forall fun op => op.fresh = ∅ :=
  ⟨rfl, rfl, rfl, rfl, rfl, rfl, rfl, rfl, rfl⟩
theorem frameC (W : Valuation τ sig (Elt F)) {r : Ref sig .tc} (hr : r ∉ [main_c, main_v10, main_v11, main_c_0, main_v12, main_v13, main_v14, main_v15, main_v16]) :
    after opsC W (no_index (Proc.devRef .tc r)) = W (Proc.devRef .tc r) :=
  after_of_writes_sub opsC W ⟨wr_sub main_c rfl (by decide), wr_sub main_v10 rfl (by decide), wr_sub main_v11 rfl (by decide), wr_sub main_c_0 rfl (by decide), wr_sub main_v12 rfl (by decide), wr_sub main_v13 rfl (by decide), wr_sub main_v14 rfl (by decide), wr_sub main_v15 rfl (by decide), wr_sub main_v16 rfl (by decide)⟩ hr

theorem subD : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem freshD : (opsD : List (HloOp τ sig (Elt F))).Forall fun op => op.fresh = ∅ :=
  ⟨rfl, rfl, rfl, rfl, rfl, rfl, rfl, rfl, rfl⟩
theorem frameD (W : Valuation τ sig (Elt F)) {r : Ref sig .tc} (hr : r ∉ [main_c_1, main_v17, main_v18, main_c_2, main_v19, main_v20, main_v21, main_v22, main_v23]) :
    after opsD W (no_index (Proc.devRef .tc r)) = W (Proc.devRef .tc r) :=
  after_of_writes_sub opsD W ⟨wr_sub main_c_1 rfl (by decide), wr_sub main_v17 rfl (by decide), wr_sub main_v18 rfl (by decide), wr_sub main_c_2 rfl (by decide), wr_sub main_v19 rfl (by decide), wr_sub main_v20 rfl (by decide), wr_sub main_v21 rfl (by decide), wr_sub main_v22 rfl (by decide), wr_sub main_v23 rfl (by decide)⟩ hr

theorem subE : (opsE : List (HloOp τ sig (Elt F))).Forall fun op => op.bufs ⊆ tcRefs τ sig :=
  ⟨unary_bufs_sub .., unary_bufs_sub .., nary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub ..⟩
theorem freshE : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem frameE (W : Valuation τ sig (Elt F)) {r : Ref sig .tc} (hr : r ∉ [main_v24, main_v25, main_v26, main_v27, main_v28, main_v29, main_cst, main_v30, main_cst_3, main_v31, main_v32, main_cst_4, main_v33, main_v34, main_v35, main_cst_5, main_cst_6, main_call1_v0, main_call1_v1, main_call1_v2, main_call1_v3, main_call1_v4, main_v36, main_v37]) :
    after opsE W (no_index (Proc.devRef .tc r)) = W (Proc.devRef .tc r) :=
  after_of_writes_sub opsE W ⟨wr_sub main_v24 rfl (by decide), wr_sub main_v25 rfl (by decide), wr_sub main_v26 rfl (by decide), wr_sub main_v27 rfl (by decide), wr_sub main_v28 rfl (by decide), wr_sub main_v29 rfl (by decide), wr_sub main_cst rfl (by decide), wr_sub main_v30 rfl (by decide), wr_sub main_cst_3 rfl (by decide), wr_sub main_v31 rfl (by decide), wr_sub main_v32 rfl (by decide), wr_sub main_cst_4 rfl (by decide), wr_sub main_v33 rfl (by decide), wr_sub main_v34 rfl (by decide), wr_sub main_v35 rfl (by decide), wr_sub main_cst_5 rfl (by decide), wr_sub main_cst_6 rfl (by decide), wr_sub main_call1_v0 rfl (by decide), wr_sub main_call1_v1 rfl (by decide), wr_sub main_call1_v2 rfl (by decide), wr_sub main_call1_v3 rfl (by decide), wr_sub main_call1_v4 rfl (by decide), wr_sub main_v36 rfl (by decide), wr_sub main_v37 rfl (by decide)⟩ hr

theorem subF : (opsF : List (HloOp τ sig (Elt F))).Forall fun op => op.bufs ⊆ tcRefs τ sig :=
  ⟨nullary_bufs_sub .., unary_bufs_sub .., unary_bufs_sub .., ternary_bufs_sub ..⟩
theorem freshF : (opsF : List (HloOp τ sig (Elt F))).Forall fun op => op.fresh = ∅ :=
  ⟨rfl, rfl, rfl, rfl⟩
theorem frameF (W : Valuation τ sig (Elt F)) {r : Ref sig .tc} (hr : r ∉ [main_cst_7, main_v38, main_v39, main_v40]) :
    after opsF W (no_index (Proc.devRef .tc r)) = W (Proc.devRef .tc r) :=
  after_of_writes_sub opsF W ⟨wr_sub main_cst_7 rfl (by decide), wr_sub main_v38 rfl (by decide), wr_sub main_v39 rfl (by decide), wr_sub main_v40 rfl (by decide)⟩ hr

theorem subG1 : (opsG1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem freshG1 : (opsG1 : List (HloOp τ sig (Elt F))).Forall fun op => op.fresh = ∅ :=
  ⟨rfl, rfl, rfl, rfl, rfl, rfl, rfl, rfl, rfl⟩
theorem frameG1 (W : Valuation τ sig (Elt F)) {r : Ref sig .tc} (hr : r ∉ [main_c_8, main_v41, main_v42, main_c_9, main_v43, main_v44, main_v45, main_v46, main_v47]) :
    after opsG1 W (no_index (Proc.devRef .tc r)) = W (Proc.devRef .tc r) :=
  after_of_writes_sub opsG1 W ⟨wr_sub main_c_8 rfl (by decide), wr_sub main_v41 rfl (by decide), wr_sub main_v42 rfl (by decide), wr_sub main_c_9 rfl (by decide), wr_sub main_v43 rfl (by decide), wr_sub main_v44 rfl (by decide), wr_sub main_v45 rfl (by decide), wr_sub main_v46 rfl (by decide), wr_sub main_v47 rfl (by decide)⟩ hr

theorem subG2 : (opsG2 : List (HloOp τ sig (Elt F))).Forall fun op => op.bufs ⊆ tcRefs τ sig :=
  ⟨nullary_bufs_sub .., unary_bufs_sub .., binary_bufs_sub .., binary_bufs_sub ..⟩
theorem freshG2 : (opsG2 : List (HloOp τ sig (Elt F))).Forall fun op => op.fresh = ∅ :=
  ⟨rfl, rfl, rfl, rfl⟩
theorem frameG2 (W : Valuation τ sig (Elt F)) {r : Ref sig .tc} (hr : r ∉ [main_cst_10, main_v48, main_v49, main_v50]) :
    after opsG2 W (no_index (Proc.devRef .tc r)) = W (Proc.devRef .tc r) :=
  after_of_writes_sub opsG2 W ⟨wr_sub main_cst_10 rfl (by decide), wr_sub main_v48 rfl (by decide), wr_sub main_v49 rfl (by decide), wr_sub main_v50 rfl (by decide)⟩ hr

theorem subH : (opsH : List (HloOp τ sig (Elt F))).Forall fun op => op.bufs ⊆ tcRefs τ sig :=
  ⟨unary_bufs_sub .., unary_bufs_sub .., binary_bufs_sub ..⟩
theorem freshH : (opsH : List (HloOp τ sig (Elt F))).Forall fun op => op.fresh = ∅ :=
  ⟨rfl, rfl, rfl⟩
theorem frameH (W : Valuation τ sig (Elt F)) {r : Ref sig .tc} (hr : r ∉ [main_v51, main_v52, main_v53]) :
    after opsH W (no_index (Proc.devRef .tc r)) = W (Proc.devRef .tc r) :=
  after_of_writes_sub opsH W ⟨wr_sub main_v51 rfl (by decide), wr_sub main_v52 rfl (by decide), wr_sub main_v53 rfl (by decide)⟩ hr

theorem subI : (opsI : List (HloOp τ sig (Elt F))).Forall fun op => op.bufs ⊆ tcRefs τ sig :=
  ⟨nullary_bufs_sub .., unary_bufs_sub .., unary_bufs_sub .., ternary_bufs_sub .., reshape_bufs_sub ..⟩
theorem freshI : (opsI : List (HloOp τ sig (Elt F))).Forall fun op => op.fresh = ∅ :=
  ⟨rfl, rfl, rfl, rfl, rfl⟩
theorem frameI (W : Valuation τ sig (Elt F)) {r : Ref sig .tc} (hr : r ∉ [main_cst_11, main_v54, main_v55, main_v56, main_v57]) :
    after opsI W (no_index (Proc.devRef .tc r)) = W (Proc.devRef .tc r) :=
  after_of_writes_sub opsI W ⟨wr_sub main_cst_11 rfl (by decide), wr_sub main_v54 rfl (by decide), wr_sub main_v55 rfl (by decide), wr_sub main_v56 rfl (by decide), wr_sub main_v57 rfl (by decide)⟩ hr

theorem subJ : (opsJ : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem freshJ : (opsJ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem frameJ (W : Valuation τ sig (Elt F)) {r : Ref sig .tc} (hr : r ∉ [main_v58, main_cst_12, main_v59, main_v60, main_cst_13, main_v61, main_v62, main_v63, main_v64, main_v65, main_cst_14, main_v66, main_v67, main_cst_15, main_v68, main_v69, main_v70, main_v71, main_cst_16, main_v72, main_v73, main_v74, main_v75, main_v76, main_v77, main_v78, main_v79, main_v80, main_v81, main_v82]) :
    after opsJ W (no_index (Proc.devRef .tc r)) = W (Proc.devRef .tc r) :=
  after_of_writes_sub opsJ W ⟨wr_sub main_v58 rfl (by decide), wr_sub main_cst_12 rfl (by decide), wr_sub main_v59 rfl (by decide), wr_sub main_v60 rfl (by decide), wr_sub main_cst_13 rfl (by decide), wr_sub main_v61 rfl (by decide), wr_sub main_v62 rfl (by decide), wr_sub main_v63 rfl (by decide), wr_sub main_v64 rfl (by decide), wr_sub main_v65 rfl (by decide), wr_sub main_cst_14 rfl (by decide), wr_sub main_v66 rfl (by decide), wr_sub main_v67 rfl (by decide), wr_sub main_cst_15 rfl (by decide), wr_sub main_v68 rfl (by decide), wr_sub main_v69 rfl (by decide), wr_sub main_v70 rfl (by decide), wr_sub main_v71 rfl (by decide), wr_sub main_cst_16 rfl (by decide), wr_sub main_v72 rfl (by decide), wr_sub main_v73 rfl (by decide), wr_sub main_v74 rfl (by decide), wr_sub main_v75 rfl (by decide), wr_sub main_v76 rfl (by decide), wr_sub main_v77 rfl (by decide), wr_sub main_v78 rfl (by decide), wr_sub main_v79 rfl (by decide), wr_sub main_v80 rfl (by decide), wr_sub main_v81 rfl (by decide), wr_sub main_v82 rfl (by decide)⟩ hr

theorem subK : (opsK : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem freshK : (opsK : List (HloOp τ sig (Elt F))).Forall fun op => op.fresh = ∅ :=
  ⟨rfl, rfl, rfl, rfl, rfl, rfl, rfl, rfl, rfl, rfl, rfl, rfl, rfl, rfl, rfl⟩
theorem frameK (W : Valuation τ sig (Elt F)) {r : Ref sig .tc} (hr : r ∉ [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v83]) :
    after opsK W (no_index (Proc.devRef .tc r)) = W (Proc.devRef .tc r) :=
  after_of_writes_sub opsK W ⟨wr_sub main_call2_cst rfl (by decide), wr_sub main_call2_v0 rfl (by decide), wr_sub main_call2_v1 rfl (by decide), wr_sub main_call2_cst_0 rfl (by decide), wr_sub main_call2_v2 rfl (by decide), wr_sub main_call2_v3 rfl (by decide), wr_sub main_call2_cst_1 rfl (by decide), wr_sub main_call2_call0_v0 rfl (by decide), wr_sub main_call2_call0_v1 rfl (by decide), wr_sub main_call2_v4 rfl (by decide), wr_sub main_call2_v5 rfl (by decide), wr_sub main_call2_cst_2 rfl (by decide), wr_sub main_call2_v6 rfl (by decide), wr_sub main_call2_v7 rfl (by decide), wr_sub main_v83 rfl (by decide)⟩ hr

theorem ops_sub : (ops : List (HloOp τ sig (Elt F))).Forall fun op => op.bufs ⊆ tcRefs τ sig := by
  simp only [ops, List.forall_append]
  exact ⟨⟨⟨⟨⟨⟨⟨subA, subB⟩, subC⟩, subD⟩, subE⟩, subF⟩, subG1⟩, ⟨⟨⟨⟨subG2, subH⟩, subI⟩, subJ⟩, subK⟩⟩

theorem ops_fresh : ∀ op ∈ (ops : List (HloOp τ sig (Elt F))), op.fresh = ∅ :=
  List.forall_iff_forall_mem.mp (by
    simp only [ops, List.forall_append]
    exact ⟨⟨⟨⟨⟨⟨⟨freshA, freshB⟩, freshC⟩, freshD⟩, freshE⟩, freshF⟩, freshG1⟩, ⟨⟨⟨⟨freshG2, freshH⟩, freshI⟩, freshJ⟩, freshK⟩⟩)

/-- The concatenation's result with each operand's contents at its own reference. -/
theorem cat_result (Fv : Valuation τ sig (Elt F)) :
    (nary ![main_v16, main_v23, main_v25] main_v26 (fun u => concatenate S800000x4x65 2 [⟨S800000x4x32, u 0⟩, ⟨S800000x4x32, u 1⟩, ⟨S800000x4x1, u 2⟩] concatenates_S800000x4x32_S800000x4x32_S800000x4x1_S800000x4x65_d2) : HloOp τ sig (Elt F)).result Fv (no_index (Proc.devRef .tc main_v26))
      = concatenate S800000x4x65 2 [⟨S800000x4x32, Fv (Proc.devRef .tc main_v16)⟩, ⟨S800000x4x32, Fv (Proc.devRef .tc main_v23)⟩, ⟨S800000x4x1, Fv (Proc.devRef .tc main_v25)⟩] concatenates_S800000x4x32_S800000x4x32_S800000x4x1_S800000x4x65_d2 :=
  (nary_result _ _ _ _ _ Fv).trans rfl

/-! ## No operation writes an argument -/

theorem arg0_eq (V : Valuation τ sig (Elt F)) :
    after ops V (Proc.devRef .tc main_arg0) = V (Proc.devRef .tc main_arg0) := by
  simp (disch := decide) only [ops, after_app, frameA, frameB, frameC, frameD, frameE, frameF, frameG1, frameG2, frameH, frameI, frameJ, frameK]

theorem arg1_eq (V : Valuation τ sig (Elt F)) :
    after ops V (Proc.devRef .tc main_arg1) = V (Proc.devRef .tc main_arg1) := by
  simp (disch := decide) only [ops, after_app, frameA, frameB, frameC, frameD, frameE, frameF, frameG1, frameG2, frameH, frameI, frameJ, frameK]

theorem arg2_eq (V : Valuation τ sig (Elt F)) :
    after ops V (Proc.devRef .tc main_arg2) = V (Proc.devRef .tc main_arg2) := by
  simp (disch := decide) only [ops, after_app, frameA, frameB, frameC, frameD, frameE, frameF, frameG1, frameG2, frameH, frameI, frameJ, frameK]

theorem arg3_eq (V : Valuation τ sig (Elt F)) :
    after ops V (Proc.devRef .tc main_arg3) = V (Proc.devRef .tc main_arg3) := by
  simp (disch := decide) only [ops, after_app, frameA, frameB, frameC, frameD, frameE, frameF, frameG1, frameG2, frameH, frameI, frameJ, frameK]

theorem arg4_eq (V : Valuation τ sig (Elt F)) :
    after ops V (Proc.devRef .tc main_arg4) = V (Proc.devRef .tc main_arg4) := by
  simp (disch := decide) only [ops, after_app, frameA, frameB, frameC, frameD, frameE, frameF, frameG1, frameG2, frameH, frameI, frameJ, frameK]

theorem arg5_eq (V : Valuation τ sig (Elt F)) :
    after ops V (Proc.devRef .tc main_arg5) = V (Proc.devRef .tc main_arg5) := by
  simp (disch := decide) only [ops, after_app, frameA, frameB, frameC, frameD, frameE, frameF, frameG1, frameG2, frameH, frameI, frameJ, frameK]

theorem arg6_eq (V : Valuation τ sig (Elt F)) :
    after ops V (Proc.devRef .tc main_arg6) = V (Proc.devRef .tc main_arg6) := by
  simp (disch := decide) only [ops, after_app, frameA, frameB, frameC, frameD, frameE, frameF, frameG1, frameG2, frameH, frameI, frameJ, frameK]

theorem arg7_eq (V : Valuation τ sig (Elt F)) :
    after ops V (Proc.devRef .tc main_arg7) = V (Proc.devRef .tc main_arg7) := by
  simp (disch := decide) only [ops, after_app, frameA, frameB, frameC, frameD, frameE, frameF, frameG1, frameG2, frameH, frameI, frameJ, frameK]

end Ops

section Vals
open Idealize.ShloMosaic.StableHlo

/-! ## Per stage: the stage's result as the stage function of the contents it reads -/

set_option maxRecDepth 8192 in
set_option maxHeartbeats 1000000 in
theorem valA4 (W : Valuation τ sig (Elt Ideal)) :
    after (opsA (F := Ideal)) W (Proc.devRef .tc main_v4) = Stages.zR (W (Proc.devRef .tc main_arg0)) (W (Proc.devRef .tc main_arg3)) (W (Proc.devRef .tc main_arg4)) := by
  simp only [opsA]
  simp (disch := decide) only [after_cons, after_nil,
      nullary_result', unary_result', binary_result', ternary_result', reshape_result', cat_result,
      nullary_result_ne', unary_result_ne', binary_result_ne', ternary_result_ne', reshape_result_ne', nary_result_ne'] <;> rfl
theorem valA4' (W : Valuation τ sig (Elt Ideal)) :
    after (opsA (F := Ideal)) W (no_index (Proc.devRef .tc main_v4)) = Stages.zR (W (Proc.devRef .tc main_arg0)) (W (Proc.devRef .tc main_arg3)) (W (Proc.devRef .tc main_arg4)) := valA4 W

set_option maxRecDepth 8192 in
set_option maxHeartbeats 1000000 in
theorem valA5 (W : Valuation τ sig (Elt Ideal)) :
    after (opsA (F := Ideal)) W (Proc.devRef .tc main_v5) = shapeCast S50000x4x32 (Stages.zR (W (Proc.devRef .tc main_arg0)) (W (Proc.devRef .tc main_arg3)) (W (Proc.devRef .tc main_arg4))) shapeCasts_S50000x128_S50000x4x32 := by
  simp only [opsA]
  simp (disch := decide) only [after_cons, after_nil,
      nullary_result', unary_result', binary_result', ternary_result', reshape_result', cat_result,
      nullary_result_ne', unary_result_ne', binary_result_ne', ternary_result_ne', reshape_result_ne', nary_result_ne'] <;> rfl
theorem valA5' (W : Valuation τ sig (Elt Ideal)) :
    after (opsA (F := Ideal)) W (no_index (Proc.devRef .tc main_v5)) = shapeCast S50000x4x32 (Stages.zR (W (Proc.devRef .tc main_arg0)) (W (Proc.devRef .tc main_arg3)) (W (Proc.devRef .tc main_arg4))) shapeCasts_S50000x128_S50000x4x32 := valA5 W

set_option maxRecDepth 8192 in
set_option maxHeartbeats 1000000 in
theorem valB7 (W : Valuation τ sig (Elt Ideal)) :
    after (opsB (F := Ideal)) W (Proc.devRef .tc main_v7) = Stages.srcR (W (Proc.devRef .tc main_arg1)) := by
  simp only [opsB]
  simp (disch := decide) only [after_cons, after_nil,
      nullary_result', unary_result', binary_result', ternary_result', reshape_result', cat_result,
      nullary_result_ne', unary_result_ne', binary_result_ne', ternary_result_ne', reshape_result_ne', nary_result_ne'] <;> rfl
theorem valB7' (W : Valuation τ sig (Elt Ideal)) :
    after (opsB (F := Ideal)) W (no_index (Proc.devRef .tc main_v7)) = Stages.srcR (W (Proc.devRef .tc main_arg1)) := valB7 W

set_option maxRecDepth 8192 in
set_option maxHeartbeats 1000000 in
theorem valB9 (W : Valuation τ sig (Elt Ideal)) :
    after (opsB (F := Ideal)) W (Proc.devRef .tc main_v9) = Stages.dstR (W (Proc.devRef .tc main_arg1)) := by
  simp only [opsB]
  simp (disch := decide) only [after_cons, after_nil,
      nullary_result', unary_result', binary_result', ternary_result', reshape_result', cat_result,
      nullary_result_ne', unary_result_ne', binary_result_ne', ternary_result_ne', reshape_result_ne', nary_result_ne'] <;> rfl
theorem valB9' (W : Valuation τ sig (Elt Ideal)) :
    after (opsB (F := Ideal)) W (no_index (Proc.devRef .tc main_v9)) = Stages.dstR (W (Proc.devRef .tc main_arg1)) := valB9 W

set_option maxRecDepth 8192 in
set_option maxHeartbeats 1000000 in
theorem valC16 (W : Valuation τ sig (Elt Ideal)) :
    after (opsC (F := Ideal)) W (Proc.devRef .tc main_v16) = Host.gather gather_S50000x4x32_S800000x1_S800000x4x32_12_0_n_n_0_1_1432 (W (Proc.devRef .tc main_v5)) (Stages.wrapR (W (Proc.devRef .tc main_v7))) := by
  simp only [opsC]
  simp (disch := decide) only [after_cons, after_nil,
      nullary_result', unary_result', binary_result', ternary_result', reshape_result', cat_result,
      nullary_result_ne', unary_result_ne', binary_result_ne', ternary_result_ne', reshape_result_ne', nary_result_ne'] <;> rfl
theorem valC16' (W : Valuation τ sig (Elt Ideal)) :
    after (opsC (F := Ideal)) W (no_index (Proc.devRef .tc main_v16)) = Host.gather gather_S50000x4x32_S800000x1_S800000x4x32_12_0_n_n_0_1_1432 (W (Proc.devRef .tc main_v5)) (Stages.wrapR (W (Proc.devRef .tc main_v7))) := valC16 W

set_option maxRecDepth 8192 in
set_option maxHeartbeats 1000000 in
theorem valD23 (W : Valuation τ sig (Elt Ideal)) :
    after (opsD (F := Ideal)) W (Proc.devRef .tc main_v23) = Host.gather gather_S50000x4x32_S800000x1_S800000x4x32_12_0_n_n_0_1_1432 (W (Proc.devRef .tc main_v5)) (Stages.wrapR (W (Proc.devRef .tc main_v9))) := by
  simp only [opsD]
  simp (disch := decide) only [after_cons, after_nil,
      nullary_result', unary_result', binary_result', ternary_result', reshape_result', cat_result,
      nullary_result_ne', unary_result_ne', binary_result_ne', ternary_result_ne', reshape_result_ne', nary_result_ne'] <;> rfl
theorem valD23' (W : Valuation τ sig (Elt Ideal)) :
    after (opsD (F := Ideal)) W (no_index (Proc.devRef .tc main_v23)) = Host.gather gather_S50000x4x32_S800000x1_S800000x4x32_12_0_n_n_0_1_1432 (W (Proc.devRef .tc main_v5)) (Stages.wrapR (W (Proc.devRef .tc main_v9))) := valD23 W

set_option maxRecDepth 8192 in
set_option maxHeartbeats 1000000 in
theorem valE37 (W : Valuation τ sig (Elt Ideal)) :
    after (opsE (F := Ideal)) W (Proc.devRef .tc main_v37) = Stages.alphaR (W (Proc.devRef .tc main_v16)) (W (Proc.devRef .tc main_v23)) (W (Proc.devRef .tc main_arg2)) (W (Proc.devRef .tc main_arg5)) := by
  simp only [opsE]
  simp (disch := decide) only [after_cons, after_nil,
      nullary_result', unary_result', binary_result', ternary_result', reshape_result', cat_result,
      nullary_result_ne', unary_result_ne', binary_result_ne', ternary_result_ne', reshape_result_ne', nary_result_ne']
  repeat (first
    | rw [unary_result]
    | (rw [unary_result_ne]; rotate_left; decide))
  simp only [TRef.ofBuf, TRef.toBuf, cast_eq]
  rfl
theorem valE37' (W : Valuation τ sig (Elt Ideal)) :
    after (opsE (F := Ideal)) W (no_index (Proc.devRef .tc main_v37)) = Stages.alphaR (W (Proc.devRef .tc main_v16)) (W (Proc.devRef .tc main_v23)) (W (Proc.devRef .tc main_arg2)) (W (Proc.devRef .tc main_arg5)) := valE37 W

set_option maxRecDepth 8192 in
set_option maxHeartbeats 1000000 in
theorem valF40 (W : Valuation τ sig (Elt Ideal)) :
    after (opsF (F := Ideal)) W (Proc.devRef .tc main_v40) = Stages.denomR (W (Proc.devRef .tc main_v37)) (W (Proc.devRef .tc main_v9)) := by
  simp only [opsF]
  simp (disch := decide) only [after_cons, after_nil,
      nullary_result', unary_result', binary_result', ternary_result', reshape_result', cat_result,
      nullary_result_ne', unary_result_ne', binary_result_ne', ternary_result_ne', reshape_result_ne', nary_result_ne'] <;> rfl
theorem valF40' (W : Valuation τ sig (Elt Ideal)) :
    after (opsF (F := Ideal)) W (no_index (Proc.devRef .tc main_v40)) = Stages.denomR (W (Proc.devRef .tc main_v37)) (W (Proc.devRef .tc main_v9)) := valF40 W

set_option maxRecDepth 8192 in
set_option maxHeartbeats 1000000 in
theorem valG47 (W : Valuation τ sig (Elt Ideal)) :
    after (opsG1 (F := Ideal)) W (Proc.devRef .tc main_v47) = Host.gather gather_S50000x4_S800000x1_S800000x4_1_0_n_n_0_1_14 (W (Proc.devRef .tc main_v40)) (Stages.wrapR (W (Proc.devRef .tc main_v9))) := by
  simp only [opsG1]
  simp (disch := decide) only [after_cons, after_nil,
      nullary_result', unary_result', binary_result', ternary_result', reshape_result', cat_result,
      nullary_result_ne', unary_result_ne', binary_result_ne', ternary_result_ne', reshape_result_ne', nary_result_ne'] <;> rfl
theorem valG47' (W : Valuation τ sig (Elt Ideal)) :
    after (opsG1 (F := Ideal)) W (no_index (Proc.devRef .tc main_v47)) = Host.gather gather_S50000x4_S800000x1_S800000x4_1_0_n_n_0_1_14 (W (Proc.devRef .tc main_v40)) (Stages.wrapR (W (Proc.devRef .tc main_v9))) := valG47 W

set_option maxRecDepth 8192 in
set_option maxHeartbeats 1000000 in
theorem valG50 (W : Valuation τ sig (Elt Ideal)) :
    after (opsG2 (F := Ideal)) W (Proc.devRef .tc main_v50) = (Host.divf (W (Proc.devRef .tc main_v37)) (addf (W (Proc.devRef .tc main_v47)) (broadcastInDim S800000x4 ![] bcast_S_S800000x4 (constant S_ .f32 0x358637BD#32))) : FVec Ideal S800000x4 .f32) := by
  simp only [opsG2]
  simp (disch := decide) only [after_cons, after_nil,
      nullary_result', unary_result', binary_result', ternary_result', reshape_result', cat_result,
      nullary_result_ne', unary_result_ne', binary_result_ne', ternary_result_ne', reshape_result_ne', nary_result_ne'] <;> rfl
theorem valG50' (W : Valuation τ sig (Elt Ideal)) :
    after (opsG2 (F := Ideal)) W (no_index (Proc.devRef .tc main_v50)) = (Host.divf (W (Proc.devRef .tc main_v37)) (addf (W (Proc.devRef .tc main_v47)) (broadcastInDim S800000x4 ![] bcast_S_S800000x4 (constant S_ .f32 0x358637BD#32))) : FVec Ideal S800000x4 .f32) := valG50 W

set_option maxRecDepth 8192 in
set_option maxHeartbeats 1000000 in
theorem valH53 (W : Valuation τ sig (Elt Ideal)) :
    after (opsH (F := Ideal)) W (Proc.devRef .tc main_v53) = Stages.msgR (W (Proc.devRef .tc main_v16)) (W (Proc.devRef .tc main_v50)) := by
  simp only [opsH]
  simp (disch := decide) only [after_cons, after_nil,
      nullary_result', unary_result', binary_result', ternary_result', reshape_result', cat_result,
      nullary_result_ne', unary_result_ne', binary_result_ne', ternary_result_ne', reshape_result_ne', nary_result_ne'] <;> rfl
theorem valH53' (W : Valuation τ sig (Elt Ideal)) :
    after (opsH (F := Ideal)) W (no_index (Proc.devRef .tc main_v53)) = Stages.msgR (W (Proc.devRef .tc main_v16)) (W (Proc.devRef .tc main_v50)) := valH53 W

set_option maxRecDepth 8192 in
set_option maxHeartbeats 1000000 in
theorem valI57 (W : Valuation τ sig (Elt Ideal)) :
    after (opsI (F := Ideal)) W (Proc.devRef .tc main_v57) = Stages.aggR (W (Proc.devRef .tc main_v53)) (W (Proc.devRef .tc main_v9)) := by
  simp only [opsI]
  simp (disch := decide) only [after_cons, after_nil,
      nullary_result', unary_result', binary_result', ternary_result', reshape_result', cat_result,
      nullary_result_ne', unary_result_ne', binary_result_ne', ternary_result_ne', reshape_result_ne', nary_result_ne'] <;> rfl
theorem valI57' (W : Valuation τ sig (Elt Ideal)) :
    after (opsI (F := Ideal)) W (no_index (Proc.devRef .tc main_v57)) = Stages.aggR (W (Proc.devRef .tc main_v53)) (W (Proc.devRef .tc main_v9)) := valI57 W

set_option maxRecDepth 8192 in
set_option maxHeartbeats 1000000 in
theorem valJ82 (W : Valuation τ sig (Elt Ideal)) :
    after (opsJ (F := Ideal)) W (Proc.devRef .tc main_v82) = Stages.normR (W (Proc.devRef .tc main_v57)) (W (Proc.devRef .tc main_v4)) (W (Proc.devRef .tc main_arg6)) (W (Proc.devRef .tc main_arg7)) := by
  simp only [opsJ]
  simp (disch := decide) only [after_cons, after_nil,
      nullary_result', unary_result', binary_result', ternary_result', reshape_result', cat_result,
      nullary_result_ne', unary_result_ne', binary_result_ne', ternary_result_ne', reshape_result_ne', nary_result_ne'] <;> rfl
theorem valJ82' (W : Valuation τ sig (Elt Ideal)) :
    after (opsJ (F := Ideal)) W (no_index (Proc.devRef .tc main_v82)) = Stages.normR (W (Proc.devRef .tc main_v57)) (W (Proc.devRef .tc main_v4)) (W (Proc.devRef .tc main_arg6)) (W (Proc.devRef .tc main_arg7)) := valJ82 W

set_option maxRecDepth 8192 in
set_option maxHeartbeats 1000000 in
theorem valK83 (W : Valuation τ sig (Elt Ideal)) :
    after (opsK (F := Ideal)) W (Proc.devRef .tc main_v83) = Stages.eluR (W (Proc.devRef .tc main_v82)) := by
  simp only [opsK]
  simp (disch := decide) only [after_cons, after_nil,
      nullary_result', unary_result', binary_result', ternary_result', reshape_result', cat_result,
      nullary_result_ne', unary_result_ne', binary_result_ne', ternary_result_ne', reshape_result_ne', nary_result_ne'] <;> rfl
theorem valK83' (W : Valuation τ sig (Elt Ideal)) :
    after (opsK (F := Ideal)) W (no_index (Proc.devRef .tc main_v83)) = Stages.eluR (W (Proc.devRef .tc main_v82)) := valK83 W

set_option maxRecDepth 8192 in
set_option maxHeartbeats 1000000 in
/-- The result buffer after the whole line: the stage functions composed, which is `Stages.outR` of the arguments. -/
theorem out_eq (V : Valuation τ sig (Elt Ideal)) :
    after (ops (F := Ideal)) V (Proc.devRef .tc main_v83)
      = Stages.outR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp (disch := decide) only [ops, after_app, valA4', valA5', valB7', valB9', valC16', valD23', valE37', valF40', valG47', valG50', valH53', valI57', valJ82', valK83', frameA, frameB, frameC, frameD, frameE, frameF, frameG1, frameG2, frameH, frameI, frameJ, frameK,
    Stages.outR, Stages.rowsR, Stages.naR]

end Vals

/-- Every weakly fair execution of the reference from `m` terminates, its result at `Stages.outR` of the arguments and the
    arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v83)
        = Stages.outR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c main_v83).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (StableHlo.run_seq scopedRefs_eq scopedSems_eq defs main (fun _ => ops) main_eq (fun _ => ops_sub) m ρ (fun _ => ops_fresh))

end Cert.ReferenceIdeal.Value

end
-- ==== Proof.RefReadA.lean ====
/-
  The reference's first stages read at an index: the projection as a sum of 128 products plus the bias; the two endpoint
  rows of the edge list; the row gather (numpy's index normalisation is the identity on a non-negative word); and the
  attention weight, the 65-term sum split into the source head's 32 terms, the destination head's 32 and the edge feature's one.
-/
import proofs.«411918_j61280593379541_2_alg».proof.Proof.RStages
import proofs.«411918_j61280593379541_2_alg».proof.Proof.Spec
import proofs.«411918_j61280593379541_2_alg».proof.Proof.IndexOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate
import Idealize.ShloMosaic.Lib.StackMember

set_option maxRecDepth 16384

noncomputable section

open scoped BigOperators

namespace Cert.ReferenceIdeal.Read

open Idealize.ShloMosaic Idealize.ShloMosaic.ValueIdx Cert.ReferenceIdeal Cert.ReferenceIdeal.Stages Cert.GAT

variable [Facts]
open Facts₀ Facts

theorem zR_apply (h : FVec Ideal S50000x128 .f32) (W : FVec Ideal S128x128 .f32) (bias : FVec Ideal S128 .f32)
    (n : Fin 50000) (q : Fin 128) : zR h W bias (ix2 n q) = z h W bias n q := by
  unfold zR z
  rw [addf_apply]
  congr 1
  · show Host.dotGeneral (DotDims.plain 50000 128 128) none h _ (ix2 n q) = _
    rw [StackMember.dotGeneral_plain_apply]
    refine Finset.sum_congr rfl fun k _ => ?_
    rw [transpose_ix2_apply]
  · refine (broadcastInDim_apply _ _ _ (ix2 n q) (ix2 (0 : Fin 1) q) (fun a => ?_)).trans ?_
    · match a with
      | ⟨0, _⟩ => rfl
      | ⟨1, _⟩ => rfl
    · refine broadcastInDim_apply _ _ _ (ix2 (0 : Fin 1) q) (ix1 q) (fun a => ?_)
      match a with
      | ⟨0, _⟩ => rfl

theorem srcR_apply (edge : IVec S2x800000 32) (e : Fin 800000) : srcR edge (ix1 e) = edge (ix2 (0 : Fin 2) e) := by
  unfold srcR
  rw [shapeCast_1a_a_apply]
  exact slice2_axis0_apply 0 edge _ (0 : Fin 1) e (0 : Fin 2) rfl

theorem dstR_apply (edge : IVec S2x800000 32) (e : Fin 800000) : dstR edge (ix1 e) = edge (ix2 (1 : Fin 2) e) := by
  unfold dstR
  rw [shapeCast_1a_a_apply]
  exact slice2_axis0_apply 1 edge _ (0 : Fin 1) e (1 : Fin 2) rfl

/-- The index normalisation leaves a non-negative word alone: the one-column start array at `(e, 0)` is the word itself. -/
theorem readA_wrapR_apply (x : IVec S800000 32) (e : Fin 800000) (hx : 0 ≤ (x (ix1 e)).toInt) :
    wrapR x (ix2 e (0 : Fin 1)) = x (ix1 e) := by
  unfold wrapR
  refine (broadcastInDim_apply _ _ _ (ix2 e (0 : Fin 1)) (ix1 e) (fun a => ?_)).trans ?_
  · match a with
    | ⟨0, _⟩ => rfl
  · rw [select_apply]
    have hc : cmpi .slt x (broadcastInDim S800000 ![] bcast_S_S800000 (constantI S_ 32 0#32)) (ix1 e) = 0#1 := by
      show IntOp.cmpi .slt (x (ix1 e)) 0#32 = 0#1
      have h0 : (x (ix1 e)).slt 0#32 = false := by
        rw [BitVec.slt]
        simp only [BitVec.toInt_zero, decide_eq_false_iff_not, not_lt]
        exact hx
      simp only [IntOp.cmpi, h0]
      rfl
    rw [hc, select_zero]

/-- The reshape `[N, 128] → [N, 4, 32]` reads, at `(n, a, d)`, column `32a + d` of row `n`. -/
theorem readA_heads_apply (Z : FVec Ideal S50000x128 .f32) (n : Fin 50000) (a : Fin 4) (d : Fin 32) :
    shapeCast S50000x4x32 Z shapeCasts_S50000x128_S50000x4x32 (ix3 n a d) = Z (ix2 n (col a d)) := by
  refine shapeCast_apply Z _ (ix3 n a d) (ix2 n (col a d)) ?_
  rw [Shape.rowMajor_val_two, Shape.rowMajor_val_three]
  show n.val * 128 + (32 * a.val + d.val) = (n.val * 4 + a.val) * 32 + d.val
  omega

theorem rowsR_apply (Z : FVec Ideal S50000x128 .f32) (x : IVec S800000 32)
    (hx : ∀ e : Fin 800000, 0 ≤ (x (ix1 e)).toInt ∧ (x (ix1 e)).toInt < 50000)
    (e : Fin 800000) (a : Fin 4) (d : Fin 32) :
    rowsR Z x (ix3 e a d) = Z (ix2 (node (x (ix1 e))) (col a d)) := by
  show Host.gather gathHK (shapeCast S50000x4x32 Z shapeCasts_S50000x128_S50000x4x32) (wrapR x) (ix3 e a d) = _
  rw [gathHK_apply, readA_wrapR_apply x e (hx e).1, readA_heads_apply]

/-- A sum of 65 terms is the sum of the first 32, the next 32 and the last one. -/
theorem readA_sum_fin65 {M : Type*} [AddCommMonoid M] (f : Fin 65 → M) :
    ∑ j : Fin 65, f j
      = (∑ d : Fin 32, f ⟨d.val, by omega⟩) + (∑ d : Fin 32, f ⟨32 + d.val, by omega⟩) + f ⟨64, by omega⟩ := by
  rw [Fin.sum_univ_castSucc]
  congr 1
  exact Fin.sum_univ_add (a := 32) (b := 32) (fun i : Fin (32 + 32) => f (Fin.castSucc i))

/-- The edge feature spread over the four heads as a `[E, 4, 1]` array. -/
def readA_featB (feat : FVec Ideal S800000x1 .f32) : FVec Ideal S800000x4x1 .f32 :=
  broadcastInDim S800000x4x1 ![0, 1, 2] bcast_S800000x1x1_S800000x4x1_0_1_2
    (broadcastInDim S800000x1x1 ![0, 2] bcast_S800000x1_S800000x1x1_0_2 feat)

theorem readA_featB_apply (feat : FVec Ideal S800000x1 .f32) (e : Fin 800000) (a : Fin 4) :
    readA_featB feat (ix3 e a (0 : Fin 1)) = feat (ix2 e (0 : Fin 1)) := by
  unfold readA_featB
  refine (broadcastInDim_apply _ _ _ (ix3 e a (0 : Fin 1)) (ix3 e (0 : Fin 1) (0 : Fin 1)) (fun b => ?_)).trans ?_
  · match b with
    | ⟨0, _⟩ => rfl
    | ⟨1, _⟩ => rfl
    | ⟨2, _⟩ => rfl
  · refine broadcastInDim_apply _ _ _ (ix3 e (0 : Fin 1) (0 : Fin 1)) (ix2 e (0 : Fin 1)) (fun b => ?_)
    match b with
    | ⟨0, _⟩ => rfl
    | ⟨1, _⟩ => rfl

/-- The 65 entries per edge and head: the source head, the destination head, the edge feature. -/
def readA_catR (hs hd : FVec Ideal S800000x4x32 .f32) (feat : FVec Ideal S800000x1 .f32) : FVec Ideal S800000x4x65 .f32 :=
  concatenate S800000x4x65 2 [⟨S800000x4x32, hs⟩, ⟨S800000x4x32, hd⟩, ⟨S800000x4x1, readA_featB feat⟩]
    concatenates_S800000x4x32_S800000x4x32_S800000x4x1_S800000x4x65_d2

theorem readA_catR_src (hs hd : FVec Ideal S800000x4x32 .f32) (feat : FVec Ideal S800000x1 .f32)
    (e : Fin 800000) (a : Fin 4) (d : Fin 32) :
    readA_catR hs hd feat (ix3 e a (⟨d.val, by omega⟩ : Fin 65)) = hs (ix3 e a d) := by
  unfold readA_catR
  refine concatenate_apply_piece _ _ _ _ 0 ?_ S800000x4x32 hs ?_ ?_ 0 ?_ (ix3 e a d) ?_ ?_
  · show (0 : Nat) < 3
    omega
  · rfl
  · rfl
  · rfl
  · intro b hb
    match b with
    | ⟨0, _⟩ => rfl
    | ⟨1, _⟩ => rfl
    | ⟨2, _⟩ => exact absurd rfl hb
  · show 0 + d.val = d.val
    omega

theorem readA_catR_dst (hs hd : FVec Ideal S800000x4x32 .f32) (feat : FVec Ideal S800000x1 .f32)
    (e : Fin 800000) (a : Fin 4) (d : Fin 32) :
    readA_catR hs hd feat (ix3 e a (⟨32 + d.val, by omega⟩ : Fin 65)) = hd (ix3 e a d) := by
  unfold readA_catR
  refine concatenate_apply_piece _ _ _ _ 1 ?_ S800000x4x32 hd ?_ ?_ 32 ?_ (ix3 e a d) ?_ ?_
  · show (1 : Nat) < 3
    omega
  · rfl
  · rfl
  · rfl
  · intro b hb
    match b with
    | ⟨0, _⟩ => rfl
    | ⟨1, _⟩ => rfl
    | ⟨2, _⟩ => exact absurd rfl hb
  · rfl

theorem readA_catR_feat (hs hd : FVec Ideal S800000x4x32 .f32) (feat : FVec Ideal S800000x1 .f32)
    (e : Fin 800000) (a : Fin 4) :
    readA_catR hs hd feat (ix3 e a (⟨64, by omega⟩ : Fin 65)) = feat (ix2 e (0 : Fin 1)) := by
  unfold readA_catR
  refine (concatenate_apply_piece _ _ _ _ 2 ?_ S800000x4x1 (readA_featB feat) ?_ ?_ 64 ?_ (ix3 e a (0 : Fin 1)) ?_ ?_).trans
    (readA_featB_apply feat e a)
  · show (2 : Nat) < 3
    omega
  · rfl
  · rfl
  · rfl
  · intro b hb
    match b with
    | ⟨0, _⟩ => rfl
    | ⟨1, _⟩ => rfl
    | ⟨2, _⟩ => exact absurd rfl hb
  · rfl

/-- The attention table spread over the edges as an `[E, 4, 65]` array reads `att (a, k)` at `(e, a, k)`. -/
theorem readA_attB_apply (att : FVec Ideal S4x65 .f32) (e : Fin 800000) (a : Fin 4) (k : Fin 65) :
    broadcastInDim S800000x4x65 ![0, 1, 2] bcast_S1x4x65_S800000x4x65_0_1_2
      (broadcastInDim S1x4x65 ![1, 2] bcast_S4x65_S1x4x65_1_2 att) (ix3 e a k) = att (ix2 a k) := by
  refine (broadcastInDim_apply _ _ _ (ix3 e a k) (ix3 (0 : Fin 1) a k) (fun b => ?_)).trans ?_
  · match b with
    | ⟨0, _⟩ => rfl
    | ⟨1, _⟩ => rfl
    | ⟨2, _⟩ => rfl
  · refine broadcastInDim_apply _ _ _ (ix3 (0 : Fin 1) a k) (ix2 a k) (fun b => ?_)
    match b with
    | ⟨0, _⟩ => rfl
    | ⟨1, _⟩ => rfl

/-- The logit array: the 65 products per edge and head, summed. -/
def readA_sR (hs hd : FVec Ideal S800000x4x32 .f32) (feat : FVec Ideal S800000x1 .f32) (att : FVec Ideal S4x65 .f32) :
    FVec Ideal S800000x4 .f32 :=
  Host.reduceAdd
    (mulf (readA_catR hs hd feat) (broadcastInDim S800000x4x65 ![0, 1, 2] bcast_S1x4x65_S800000x4x65_0_1_2
      (broadcastInDim S1x4x65 ![1, 2] bcast_S4x65_S1x4x65_1_2 att)))
    (constant S_ .f32 0x00000000#32) reducesTo_S800000x4x65_S800000x4_d2 h_S_

theorem readA_sR_apply (hs hd : FVec Ideal S800000x4x32 .f32) (feat : FVec Ideal S800000x1 .f32) (att : FVec Ideal S4x65 .f32)
    (e : Fin 800000) (a : Fin 4) :
    readA_sR hs hd feat att (ix2 e a)
      = (∑ d : Fin 32, hs (ix3 e a d) * att (ix2 a (⟨d.val, by omega⟩ : Fin 65)))
          + (∑ d : Fin 32, hd (ix3 e a d) * att (ix2 a (⟨32 + d.val, by omega⟩ : Fin 65)))
          + feat (ix2 e (0 : Fin 1)) * att (ix2 a (⟨64, by omega⟩ : Fin 65)) := by
  have hR : S800000x4x65.Reduces [2] S800000x4 := by
    obtain ⟨h1, h2⟩ := reducesTo_S800000x4x65_S800000x4_d2
    exact ⟨h1, by decide, h2⟩
  unfold readA_sR
  show Ideal.hostReduceAdd reducesTo_S800000x4x65_S800000x4_d2 _ (Ideal.ofBits .f32 0x00000000#32) (ix2 e a) = _
  rw [Ideal.hostReduceAdd_single _ hR, Ideal.ofBits_zero_f32, zero_add]
  have hterm : ∀ k : Fin 65,
      mulf (readA_catR hs hd feat) (broadcastInDim S800000x4x65 ![0, 1, 2] bcast_S1x4x65_S800000x4x65_0_1_2
        (broadcastInDim S1x4x65 ![1, 2] bcast_S4x65_S1x4x65_1_2 att)) (hR.lift (ix2 e a) k)
        = readA_catR hs hd feat (ix3 e a k) * att (ix2 a k) := by
    intro k
    have hl : hR.lift (ix2 e a) k = ix3 e a k := by
      funext c; apply Fin.ext
      match c with
      | ⟨0, _⟩ => rfl
      | ⟨1, _⟩ => rfl
      | ⟨2, _⟩ => rfl
    rw [hl, mulf_apply, readA_attB_apply]
  refine (Finset.sum_congr rfl fun k _ => hterm k).trans ?_
  show (∑ k : Fin 65, readA_catR hs hd feat (ix3 e a k) * att (ix2 a k)) = _
  rw [readA_sum_fin65]
  simp only [readA_catR_src, readA_catR_dst, readA_catR_feat]

/-- Leaky rectifier, clip and exponential applied to a logit array, read at an index. -/
theorem readA_weightR_apply (s : FVec Ideal S800000x4 .f32) (i : S800000x4.Idx) :
    Host.exp (minimumf (broadcastInDim S800000x4 ![] bcast_S_S800000x4 (id (constant S_ .f32 0x41A00000#32)))
      (maximumf (broadcastInDim S800000x4 ![] bcast_S_S800000x4 (id (constant S_ .f32 0xC1A00000#32)))
        (select (cmpf .oge s (broadcastInDim S800000x4 ![] bcast_S_S800000x4 (constant S_ .f32 0x00000000#32))) s
          (mulf (broadcastInDim S800000x4 ![] bcast_S_S800000x4 (constant S_ .f32 0x3E4CCCCD#32)) s)))) i
      = weightOf (s i) := by
  unfold weightOf clip leaky
  simp only [Host.exp, Ideal.hostUnary_exp_def, minimumf_apply, maximumf_apply, select_apply, cmpf_apply, mulf_apply,
    Ideal.cmpf_def, StableHlo.Predicate.bcast_scalar _ h_S_, constant_apply, id_eq]

theorem alphaR_apply (hs hd : FVec Ideal S800000x4x32 .f32) (feat : FVec Ideal S800000x1 .f32) (att : FVec Ideal S4x65 .f32)
    (e : Fin 800000) (a : Fin 4) :
    alphaR hs hd feat att (ix2 e a)
      = weightOf ((∑ d : Fin 32, hs (ix3 e a d) * att (ix2 a (⟨d.val, by omega⟩ : Fin 65)))
          + (∑ d : Fin 32, hd (ix3 e a d) * att (ix2 a (⟨32 + d.val, by omega⟩ : Fin 65)))
          + feat (ix2 e (0 : Fin 1)) * att (ix2 a (⟨64, by omega⟩ : Fin 65))) := by
  have hw := readA_weightR_apply (readA_sR hs hd feat att) (ix2 e a)
  rw [readA_sR_apply] at hw
  exact hw

end Cert.ReferenceIdeal.Read

end
-- ==== Proof.ScatterMerge.lean ====
/-
  A scatter-add of `[E, 4, 32]` rows into `[N, 4, 32]` is the scatter-add of the same rows laid out as `[E, 128]` into
  `[N, 128]`: an update `(e, ·)` lands on the node its start word names, when that word is a node number, and is dropped
  otherwise, whatever the row's layout; so the updates landing on `(n, a, d)` are the `(e, a, d)` with `e` landing on `n`,
  and those landing on `(n, 32a + d)` the `(e, 32a + d)` with the same `e`.
-/
import proofs.«411918_j61280593379541_2_alg».proof.Proof.Spec
import proofs.«411918_j61280593379541_2_alg».proof.Proof.IndexOps

noncomputable section

open scoped BigOperators

namespace Cert.GAT

open Idealize.ShloMosaic Idealize.ShloMosaic.ValueIdx

/-- An update lands on operand index `i` exactly when, on every axis, its start plus its window coordinate is `i`'s
    coordinate (the in-range test is then `i`'s own bound). -/
private theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  split
  · rename_i h
    constructor
    · intro hh a
      have h2 := Option.some.inj hh
      subst h2
      have h3 := (h a).1
      simp [Int.toNat_of_nonneg h3]
    · intro hh
      congr 1
      funext a
      apply Fin.ext
      show (d.start j idx a + d.window j a).toNat = (i a).val
      rw [hh a]; simp
  · rename_i h
    constructor
    · intro hh; cases hh
    · intro hh; exfalso; apply h; intro a; rw [hh a]
      exact ⟨Int.natCast_nonneg _, by exact_mod_cast (i a).isLt⟩

/-- Rank 2: on axis 0 the start is the update row's start word, read signed. -/
private theorem scatD_start0 (j : sExD.Idx) (idx : IVec sEx1 32) :
    scatD.start j idx 0 = (idx (ix2 (j 0) (0 : Fin 1))).toInt := by
  unfold ScatterDims.start
  rw [dif_pos (show (0 : Fin 2) ∈ scatD.scatterDimsToOperandDims from List.mem_singleton.mpr rfl)]
  have hsi : scatD.siIdx j ⟨List.idxOf (0 : Fin 2) scatD.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Rank 2: on axis 1 the start is 0. -/
private theorem scatD_start1 (j : sExD.Idx) (idx : IVec sEx1 32) : scatD.start j idx 1 = 0 := by
  unfold ScatterDims.start
  rw [dif_neg (by decide)]

/-- Rank 2: on the inserted axis 0 the window coordinate is 0. -/
private theorem scatD_window0 (j : sExD.Idx) : scatD.window j 0 = 0 := by
  unfold ScatterDims.window
  rw [dif_neg (by decide)]

/-- Rank 2: on axis 1 the window coordinate is the update's column. -/
private theorem scatD_window1 (j : sExD.Idx) : scatD.window j 1 = (j 1).val := by
  unfold ScatterDims.window
  rw [dif_pos (by decide)]
  rfl

/-- Rank 2: update `j` lands on `(n, q)` exactly when row `j 0`'s start word is `n` and `j`'s column is `q`. -/
private theorem scatD_lands (j : sExD.Idx) (idx : IVec sEx1 32) (n : Fin 50000) (q : Fin 128) :
    scatD.resultIdx? j idx = some (ix2 n q) ↔ (idx (ix2 (j 0) (0 : Fin 1))).toInt = (n.val : Int) ∧ j 1 = q := by
  rw [resultIdx?_eq_some_iff]
  constructor
  · intro h
    have h0 := h 0
    have h1 := h 1
    rw [scatD_start0, scatD_window0] at h0
    rw [scatD_start1, scatD_window1] at h1
    refine ⟨?_, Fin.ext ?_⟩
    · simpa using h0
    · have h1' : ((j 1).val : Int) = (q.val : Int) := by simpa using h1
      exact_mod_cast h1'
  · rintro ⟨h0, h1⟩ a
    match a with
    | ⟨0, _⟩ =>
      show scatD.start j idx 0 + (scatD.window j 0 : Int) = (n.val : Int)
      rw [scatD_start0, scatD_window0, h0]; simp
    | ⟨1, _⟩ =>
      show scatD.start j idx 1 + (scatD.window j 1 : Int) = (q.val : Int)
      rw [scatD_start1, scatD_window1, h1]; simp

/-- Rank 3: on axis 0 the start is the update row's start word, read signed. -/
private theorem scatHK_start0 (j : sExHxK.Idx) (idx : IVec sEx1 32) :
    scatHK.start j idx 0 = (idx (ix2 (j 0) (0 : Fin 1))).toInt := by
  unfold ScatterDims.start
  rw [dif_pos (show (0 : Fin 3) ∈ scatHK.scatterDimsToOperandDims from List.mem_singleton.mpr rfl)]
  have hsi : scatHK.siIdx j ⟨List.idxOf (0 : Fin 3) scatHK.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Rank 3: on axis 1 the start is 0. -/
private theorem scatHK_start1 (j : sExHxK.Idx) (idx : IVec sEx1 32) : scatHK.start j idx 1 = 0 := by
  unfold ScatterDims.start
  rw [dif_neg (by decide)]

/-- Rank 3: on axis 2 the start is 0. -/
private theorem scatHK_start2 (j : sExHxK.Idx) (idx : IVec sEx1 32) : scatHK.start j idx 2 = 0 := by
  unfold ScatterDims.start
  rw [dif_neg (by decide)]

/-- Rank 3: on the inserted axis 0 the window coordinate is 0. -/
private theorem scatHK_window0 (j : sExHxK.Idx) : scatHK.window j 0 = 0 := by
  unfold ScatterDims.window
  rw [dif_neg (by decide)]

/-- Rank 3: on axis 1 the window coordinate is the update's head. -/
private theorem scatHK_window1 (j : sExHxK.Idx) : scatHK.window j 1 = (j 1).val := by
  unfold ScatterDims.window
  rw [dif_pos (by decide)]
  rfl

/-- Rank 3: on axis 2 the window coordinate is the update's position inside the head. -/
private theorem scatHK_window2 (j : sExHxK.Idx) : scatHK.window j 2 = (j 2).val := by
  unfold ScatterDims.window
  rw [dif_pos (by decide)]
  rfl

/-- Rank 3: update `j` lands on `(n, a, d)` exactly when row `j 0`'s start word is `n` and `j`'s last two coordinates
    are `(a, d)`. -/
private theorem scatHK_lands (j : sExHxK.Idx) (idx : IVec sEx1 32) (n : Fin 50000) (a : Fin 4) (d : Fin 32) :
    scatHK.resultIdx? j idx = some (ix3 n a d) ↔
      (idx (ix2 (j 0) (0 : Fin 1))).toInt = (n.val : Int) ∧ j 1 = a ∧ j 2 = d := by
  rw [resultIdx?_eq_some_iff]
  constructor
  · intro h
    have h0 := h 0
    have h1 := h 1
    have h2 := h 2
    rw [scatHK_start0, scatHK_window0] at h0
    rw [scatHK_start1, scatHK_window1] at h1
    rw [scatHK_start2, scatHK_window2] at h2
    refine ⟨?_, Fin.ext ?_, Fin.ext ?_⟩
    · simpa using h0
    · have h1' : ((j 1).val : Int) = (a.val : Int) := by simpa using h1
      exact_mod_cast h1'
    · have h2' : ((j 2).val : Int) = (d.val : Int) := by simpa using h2
      exact_mod_cast h2'
  · rintro ⟨h0, h1, h2⟩ b
    match b with
    | ⟨0, _⟩ =>
      show scatHK.start j idx 0 + (scatHK.window j 0 : Int) = (n.val : Int)
      rw [scatHK_start0, scatHK_window0, h0]; simp
    | ⟨1, _⟩ =>
      show scatHK.start j idx 1 + (scatHK.window j 1 : Int) = (a.val : Int)
      rw [scatHK_start1, scatHK_window1, h1]; simp
    | ⟨2, _⟩ =>
      show scatHK.start j idx 2 + (scatHK.window j 2 : Int) = (d.val : Int)
      rw [scatHK_start2, scatHK_window2, h2]; simp

/-- `(32a + d) / 32 = a`. -/
private theorem headOf_col (a : Fin 4) (d : Fin 32) : headOf (col a d) = a := by
  apply Fin.ext; simp only [headOf, col]; omega
/-- `(32a + d) % 32 = d`. -/
private theorem within_col (a : Fin 4) (d : Fin 32) : within (col a d) = d := by
  apply Fin.ext; simp only [within, col]; omega
/-- `32 (q / 32) + q % 32 = q`. -/
private theorem col_headOf_within (q : Fin 128) : col (headOf q) (within q) = q := by
  apply Fin.ext; simp only [headOf, within, col]; omega

/-- The scatter-add of rows laid out `[E, 4, 32]` into zeros `[N, 4, 32]` is, entry by entry, the scatter-add of the same
    rows laid out `[E, 128]` into zeros `[N, 128]` (`c` the common initial value). -/
theorem scatHK_merge (c : EReal) (idx : IVec sEx1 32) (M3 : sExHxK.Idx → EReal) (M2 : sExD.Idx → EReal)
    (hM : ∀ (e : Fin 800000) (a : Fin 4) (d : Fin 32), M3 (ix3 e a d) = M2 (ix2 e (col a d)))
    (n : Fin 50000) (a : Fin 4) (d : Fin 32) :
    Ideal.hostScatterAdd scatHK (fun _ => c) idx M3 (ix3 n a d) = Ideal.hostScatterAdd scatD (fun _ => c) idx M2 (ix2 n (col a d)) := by
  -- Both sides are `c` plus a sum over the updates landing on the entry; the two sets of updates correspond under
  -- `(e, a, d) ↦ (e, 32a + d)`, with inverse `(e, q) ↦ (e, q / 32, q % 32)`, and the summands agree along it.
  unfold Ideal.hostScatterAdd
  refine congrArg (fun t => c + t) ?_
  refine Finset.sum_nbij' (fun j : sExHxK.Idx => (ix2 (j 0) (col (j 1) (j 2)) : sExD.Idx))
    (fun j : sExD.Idx => (ix3 (j 0) (headOf (j 1)) (within (j 1)) : sExHxK.Idx)) ?_ ?_ ?_ ?_ ?_
  · intro j hj
    obtain ⟨e, a', d', rfl⟩ : ∃ e a' d', j = ix3 e a' d' := ⟨j 0, j 1, j 2, eq_ix3 j⟩
    rw [Finset.mem_filter] at hj ⊢
    refine ⟨Finset.mem_univ _, ?_⟩
    obtain ⟨h0, h1, h2⟩ := (scatHK_lands _ idx n a d).1 hj.2
    have h1' : a' = a := h1
    have h2' : d' = d := h2
    subst h1' h2'
    show scatD.resultIdx? (ix2 e (col a' d')) idx = some (ix2 n (col a' d'))
    exact (scatD_lands _ idx n _).2 ⟨h0, rfl⟩
  · intro j hj
    obtain ⟨e, q, rfl⟩ : ∃ e q, j = ix2 e q := ⟨j 0, j 1, eq_ix2 j⟩
    rw [Finset.mem_filter] at hj ⊢
    refine ⟨Finset.mem_univ _, ?_⟩
    obtain ⟨h0, h1⟩ := (scatD_lands _ idx n (col a d)).1 hj.2
    have h1' : q = col a d := h1
    subst h1'
    show scatHK.resultIdx? (ix3 e (headOf (col a d)) (within (col a d))) idx = some (ix3 n a d)
    rw [headOf_col, within_col]
    exact (scatHK_lands _ idx n a d).2 ⟨h0, rfl, rfl⟩
  · intro j _
    obtain ⟨e, a', d', rfl⟩ : ∃ e a' d', j = ix3 e a' d' := ⟨j 0, j 1, j 2, eq_ix3 j⟩
    show ix3 e (headOf (col a' d')) (within (col a' d')) = ix3 e a' d'
    rw [headOf_col, within_col]
  · intro j _
    obtain ⟨e, q, rfl⟩ : ∃ e q, j = ix2 e q := ⟨j 0, j 1, eq_ix2 j⟩
    show ix2 e (col (headOf q) (within q)) = ix2 e q
    rw [col_headOf_within]
  · intro j _
    obtain ⟨e, a', d', rfl⟩ : ∃ e a' d', j = ix3 e a' d' := ⟨j 0, j 1, j 2, eq_ix3 j⟩
    exact hM e a' d'

end Cert.GAT

end
-- ==== Proof.RefReadB.lean ====
/-
  The reference's later stages read at an index: the denominators as the scatter-add of the weights at the destination words;
  the normalised weight (the gather of the denominators at a destination inside the index range reads that node's row); the
  message; the messages summed at their destinations, laid out as `[N, 128]`; and the layer-normalised residual through the
  exponential linear unit as jax spells it (`expm1` of the non-positive part is `exp − 1` on the extended reals).
-/
import proofs.«411918_j61280593379541_2_alg».proof.Proof.RStages
import proofs.«411918_j61280593379541_2_alg».proof.Proof.Spec
import proofs.«411918_j61280593379541_2_alg».proof.Proof.IndexOps
import proofs.«411918_j61280593379541_2_alg».proof.Proof.ScatterMerge
import proofs.«411918_j61280593379541_2_alg».proof.Proof.RefReadA
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

open scoped BigOperators

namespace Cert.ReferenceIdeal.Read

open Idealize.ShloMosaic Idealize.ShloMosaic.ValueIdx Cert.ReferenceIdeal Cert.ReferenceIdeal.Stages Cert.GAT

variable [Facts]
open Facts₀ Facts

/-- The destination row laid as a one-column array is the destination words' column. -/
theorem readB_bcast_dstR (edge : IVec S2x800000 32) :
    broadcastInDim S800000x1 ![0] bcast_S800000_S800000x1_0 (dstR edge) = dstCol edge := by
  funext j
  rw [eq_ix2 j]
  refine (broadcastInDim_apply _ _ _ _ (ix1 (j 0)) ?_).trans ?_
  · intro a'
    match a' with
    | ⟨0, _⟩ => rfl
  · exact dstR_apply edge (j 0)

/-- The word 1.0 is the number one. -/
theorem readB_one_bits : Ideal.ofBits .f32 0x3F800000#32 = 1 := IdealRules.sign_bit.ideal_onePat .f32

/-- A host sum over the second axis from the zero word, at row `n`: the sum of the row. -/
theorem readB_rowSum (X : FVec Ideal S50000x128 .f32) (n : Fin 50000) :
    Host.reduceAdd X (constant S_ .f32 0x00000000#32) reducesTo_S50000x128_S50000_d1 h_S_ (ix1 n)
      = ∑ k : Fin 128, X (ix2 n k) := by
  have hR : S50000x128.Reduces [1] S50000 := by
    obtain ⟨h1, h2⟩ := reducesTo_S50000x128_S50000_d1
    exact ⟨h1, Nat.one_pos, h2⟩
  show Ideal.hostReduceAdd reducesTo_S50000x128_S50000_d1 X (Ideal.ofBits .f32 0x00000000#32) (ix1 n) = _
  rw [Ideal.hostReduceAdd_single _ hR, Ideal.ofBits_zero_f32, zero_add]
  refine Finset.sum_congr rfl fun k _ => congrArg X ?_
  funext c
  apply Fin.ext
  match c with
  | ⟨0, _⟩ => rfl
  | ⟨1, _⟩ => rfl

/-- A column broadcast along the rows: `[50000, 1] → [50000, 128]` at `(n, k)` reads `(n, 0)`. -/
theorem readB_bcast_col {α : Type} (V : S50000x1.Idx → α) (n : Fin 50000) (k : Fin 128) :
    broadcastInDim S50000x128 ![0, 1] bcast_S50000x1_S50000x128_0_1 V (ix2 n k) = V (ix2 n (0 : Fin 1)) := by
  refine broadcastInDim_apply _ _ _ (ix2 n k) (ix2 n (0 : Fin 1)) ?_
  intro a'
  match a' with
  | ⟨0, _⟩ => rfl
  | ⟨1, _⟩ => rfl

/-- A feature vector broadcast down the rows: `[128] → [1, 128] → [50000, 128]` at `(n, q)` reads `q`. -/
theorem readB_bcast_row {α : Type} (v : S128.Idx → α) (n : Fin 50000) (q : Fin 128) :
    broadcastInDim S50000x128 ![0, 1] bcast_S1x128_S50000x128_0_1 (broadcastInDim S1x128 ![1] bcast_S128_S1x128_1 v) (ix2 n q)
      = v (ix1 q) := by
  refine (broadcastInDim_apply _ _ _ (ix2 n q) (ix2 (0 : Fin 1) q) ?_).trans ?_
  · intro a'
    match a' with
    | ⟨0, _⟩ => rfl
    | ⟨1, _⟩ => rfl
  · refine broadcastInDim_apply _ _ _ (ix2 (0 : Fin 1) q) (ix1 q) ?_
    intro a'
    match a' with
    | ⟨0, _⟩ => rfl

/-- The row sum over the width word, as the program lays it in a column, at `(n, 0)`. -/
theorem readB_meanR (X : FVec Ideal S50000x128 .f32) (n : Fin 50000) :
    Host.divf (broadcastInDim S50000x1 ![0] bcast_S50000_S50000x1_0
        (Host.reduceAdd X (constant S_ .f32 0x00000000#32) reducesTo_S50000x128_S50000_d1 h_S_))
      (broadcastInDim S50000x1 ![] bcast_S_S50000x1 (constant S_ .f32 0x43000000#32)) (ix2 n (0 : Fin 1))
      = Ideal.div (∑ k : Fin 128, X (ix2 n k)) cWidth := by
  show Ideal.div _ cWidth = _
  refine congrArg (fun s => Ideal.div s cWidth) ?_
  refine (broadcastInDim_apply _ _ _ (ix2 n (0 : Fin 1)) (ix1 n) ?_).trans (readB_rowSum X n)
  intro a'
  match a' with
  | ⟨0, _⟩ => rfl

/-- The exponential linear unit as the program spells it, at an entry. -/
theorem readB_eluR_apply (Y : FVec Ideal S50000x128 .f32) (n : Fin 50000) (q : Fin 128) :
    eluR Y (ix2 n q) = elu (Y (ix2 n q)) := by
  show Scalar.select (Ideal.cmp .ogt (Y (ix2 n q)) c0) (Y (ix2 n q))
      (Ideal.ofBits .f32 0x3F800000#32 * (Ideal.exp (Scalar.select (Ideal.cmp .ogt (Y (ix2 n q)) c0) c0 (Y (ix2 n q))) - 1))
    = Scalar.select (Ideal.cmp .ogt (Y (ix2 n q)) c0) (Y (ix2 n q)) (Ideal.exp (Y (ix2 n q)) - 1)
  by_cases h : Ideal.cmp .ogt (Y (ix2 n q)) c0 = 1#1
  · rw [h, select_one, select_one]
  · rw [eq_zero_of_ne_one h]
    simp only [select_zero]
    rw [readB_one_bits, one_mul]

/-- The residual's layer normalisation, at an entry. -/
theorem readB_normR_apply (AG Z : FVec Ideal S50000x128 .f32) (g b : FVec Ideal S128 .f32) (n : Fin 50000) (q : Fin 128) :
    normR AG Z g b (ix2 n q)
      = normed (fun q' => AG (ix2 n q') + Z (ix2 n q')) (fun q' => g (ix1 q')) (fun q' => b (ix1 q')) q := by
  -- the row mean, wherever the program spreads it along a row
  have hmu : ∀ k : Fin 128,
      broadcastInDim S50000x128 ![0, 1] bcast_S50000x1_S50000x128_0_1
        (Host.divf (broadcastInDim S50000x1 ![0] bcast_S50000_S50000x1_0
            (Host.reduceAdd (addf AG Z) (constant S_ .f32 0x00000000#32) reducesTo_S50000x128_S50000_d1 h_S_))
          (broadcastInDim S50000x1 ![] bcast_S_S50000x1 (constant S_ .f32 0x43000000#32))) (ix2 n k)
        = mean (fun q' => AG (ix2 n q') + Z (ix2 n q')) := fun k =>
    (readB_bcast_col _ n k).trans (readB_meanR (addf AG Z) n)
  show (AG (ix2 n q) + Z (ix2 n q) - _) * _ * _ + _
    = (AG (ix2 n q) + Z (ix2 n q) - mean (fun q' => AG (ix2 n q') + Z (ix2 n q')))
        * Ideal.rsqrt (variance (fun q' => AG (ix2 n q') + Z (ix2 n q')) + cEps) * g (ix1 q) + b (ix1 q)
  refine congrArg₂ (· + ·) (congrArg₂ (· * ·) (congrArg₂ (· * ·) (congrArg₂ (· - ·) rfl ?_) ?_) ?_) ?_
  · exact hmu q
  · refine (readB_bcast_col _ n q).trans ?_
    show Ideal.rsqrt (_ + cEps) = _
    refine congrArg (fun v => Ideal.rsqrt (v + cEps)) ?_
    refine (readB_meanR _ n).trans ?_
    show Ideal.div _ cWidth = Ideal.div _ cWidth
    refine congrArg (fun s => Ideal.div s cWidth) ?_
    refine Finset.sum_congr rfl fun k _ => ?_
    show (AG (ix2 n k) + Z (ix2 n k) - _) * (AG (ix2 n k) + Z (ix2 n k) - _) = _
    exact congrArg₂ (· * ·) (congrArg₂ (· - ·) rfl (hmu k)) (congrArg₂ (· - ·) rfl (hmu k))
  · exact readB_bcast_row g n q
  · exact readB_bcast_row b n q

theorem denomR_eq (AL : FVec Ideal S800000x4 .f32) (edge : IVec S2x800000 32) :
    denomR AL (dstR edge) = Ideal.hostScatterAdd scatH (fun _ => c0) (dstCol edge) AL := by
  have h1 : (broadcastInDim S50000x4 ![] bcast_S_S50000x4 (constant (F := Ideal) S_ .f32 0x00000000#32)) = (fun _ => c0) := by
    funext j; rfl
  show Ideal.hostScatterAdd scatter_S50000x4_S800000x1_S800000x4_1_0_0_1 _ _ AL = _
  rw [h1, readB_bcast_dstR]
  rfl

theorem naR_apply (AL : FVec Ideal S800000x4 .f32) (DN : FVec Ideal S50000x4 .f32) (edge : IVec S2x800000 32) (hr : InRange edge)
    (e : Fin 800000) (a : Fin 4) :
    naR AL DN (dstR edge) (ix2 e a) = Ideal.div (AL (ix2 e a)) (DN (ix2 (dst edge e) a) + cTiny) := by
  show Ideal.div (AL (ix2 e a)) (Host.gather gathH DN (wrapR (dstR edge)) (ix2 e a) + cTiny) = _
  rw [gathH_apply]
  have hw : wrapR (dstR edge) (ix2 e (0 : Fin 1)) = edge (ix2 (1 : Fin 2) e) := by
    refine (broadcastInDim_apply _ _ _ _ (ix1 e) ?_).trans ?_
    · intro a'
      match a' with
      | ⟨0, _⟩ => rfl
    · show Scalar.select (IntOp.cmpi .slt (dstR edge (ix1 e)) 0#32) _ (dstR edge (ix1 e)) = _
      rw [dstR_apply]
      have h0 := (hr (1 : Fin 2) e).1
      have hc : IntOp.cmpi .slt (edge (ix2 (1 : Fin 2) e)) 0#32 = 0#1 := by
        apply eq_zero_of_ne_one
        intro h
        have h' : BitVec.ofBool ((edge (ix2 (1 : Fin 2) e)).slt 0#32) = 1#1 := h
        rw [StableHlo.Predicate.ofBool_eq_one_iff] at h'
        simp only [BitVec.slt, decide_eq_true_eq] at h'
        have hz : (0#32 : BitVec 32).toInt = 0 := by decide
        omega
      rw [hc, select_zero]
  rw [hw]
  rfl

theorem msgR_apply (hs : FVec Ideal S800000x4x32 .f32) (w : FVec Ideal S800000x4 .f32) (e : Fin 800000) (a : Fin 4) (d : Fin 32) :
    msgR hs w (ix3 e a d) = hs (ix3 e a d) * w (ix2 e a) := by
  show hs (ix3 e a d) * _ = _
  congr 1
  refine (broadcastInDim_apply _ _ _ (ix3 e a d) (ix3 e a (0 : Fin 1)) ?_).trans ?_
  · intro a'
    match a' with
    | ⟨0, _⟩ => rfl
    | ⟨1, _⟩ => rfl
    | ⟨2, _⟩ => rfl
  · refine (broadcastInDim_apply _ _ _ (ix3 e a (0 : Fin 1)) (ix2 e a) ?_)
    intro a'
    match a' with
    | ⟨0, _⟩ => rfl
    | ⟨1, _⟩ => rfl

theorem aggR_apply (M3 : FVec Ideal S800000x4x32 .f32) (M2 : sExD.Idx → EReal)
    (hM : ∀ (e : Fin 800000) (a : Fin 4) (d : Fin 32), M3 (ix3 e a d) = M2 (ix2 e (col a d)))
    (edge : IVec S2x800000 32) (n : Fin 50000) (q : Fin 128) :
    aggR M3 (dstR edge) (ix2 n q) = Ideal.hostScatterAdd scatD (fun _ => c0) (dstCol edge) M2 (ix2 n q) := by
  have hq : col (headOf q) (within q) = q := by
    apply Fin.ext
    show 32 * (q.val / 32) + q.val % 32 = q.val
    omega
  refine (shapeCast_apply _ _ (ix2 n q) (ix3 n (headOf q) (within q)) ?_).trans ?_
  · rw [Shape.rowMajor_val_three, Shape.rowMajor_val_two]
    show (n.val * 4 + q.val / 32) * 32 + q.val % 32 = n.val * 128 + q.val
    omega
  · have h1 : (broadcastInDim S50000x4x32 ![] bcast_S_S50000x4x32 (constant (F := Ideal) S_ .f32 0x00000000#32))
        = (fun _ => c0) := by
      funext j; rfl
    have key : (Host.scatterAdd scatter_S50000x4x32_S800000x1_S800000x4x32_12_0_0_1
        (broadcastInDim S50000x4x32 ![] bcast_S_S50000x4x32 (constant S_ .f32 0x00000000#32))
        (broadcastInDim S800000x1 ![0] bcast_S800000_S800000x1_0 (dstR edge)) M3 : FVec Ideal S50000x4x32 .f32)
        = Ideal.hostScatterAdd scatHK (fun _ => c0) (dstCol edge) M3 := by
      show Ideal.hostScatterAdd scatter_S50000x4x32_S800000x1_S800000x4x32_12_0_0_1 _ _ M3 = _
      rw [h1, readB_bcast_dstR]
      rfl
    refine (congrFun key _).trans ?_
    refine (scatHK_merge c0 (dstCol edge) M3 M2 hM n (headOf q) (within q)).trans ?_
    exact congrArg (fun c => Ideal.hostScatterAdd scatD (fun _ => c0) (dstCol edge) M2 (ix2 n c)) hq

theorem eluR_normR_apply (AG Z : FVec Ideal S50000x128 .f32) (g b : FVec Ideal S128 .f32) (n : Fin 50000) (q : Fin 128) :
    eluR (normR AG Z g b) (ix2 n q)
      = elu (normed (fun q' => AG (ix2 n q') + Z (ix2 n q')) (fun q' => g (ix1 q')) (fun q' => b (ix1 q')) q) := by
  rw [readB_eluR_apply, readB_normR_apply]

end Cert.ReferenceIdeal.Read

end
-- ==== Proof.ReferenceValue.lean ====
/-
  The reference program's result as the layer's definition: its stages in turn, each read at an index. The rows of `z`
  seen as `[N, 4, 32]` at an endpoint are the rows of `z` at columns `32a + d`; the 65-term sum is the logit; the
  denominators and the summed messages are the same scatter-adds; the closing stage is the layer norm and the unit.
-/
import proofs.«411918_j61280593379541_2_alg».proof.Proof.RStages
import proofs.«411918_j61280593379541_2_alg».proof.Proof.Spec
import proofs.«411918_j61280593379541_2_alg».proof.Proof.KernelMath
import proofs.«411918_j61280593379541_2_alg».proof.Proof.RefReadA
import proofs.«411918_j61280593379541_2_alg».proof.Proof.RefReadB

set_option maxRecDepth 16384

noncomputable section

open scoped BigOperators

namespace Cert.ReferenceIdeal.Read

open Idealize.ShloMosaic Idealize.ShloMosaic.ValueIdx Cert.ReferenceIdeal Cert.ReferenceIdeal.Stages Cert.GAT

variable [Facts]
open Facts₀ Facts

variable (h : FVec Ideal S50000x128 .f32) (edge : IVec S2x800000 32) (feat : FVec Ideal S800000x1 .f32) (W : FVec Ideal S128x128 .f32)
  (bias : FVec Ideal S128 .f32) (att : FVec Ideal S4x65 .f32) (g b : FVec Ideal S128 .f32)

theorem zR_eq : zR h W bias = zA h W bias := ext2 fun n q => zR_apply h W bias n q

/-- The gathered rows at a source, and at a destination. -/
theorem rows_src (hr : InRange edge) (e : Fin 800000) (a : Fin 4) (d : Fin 32) :
    rowsR (zA h W bias) (srcR edge) (ix3 e a d) = z h W bias (src edge e) (col a d) := by
  rw [rowsR_apply (zA h W bias) (srcR edge) (fun e' => by rw [srcR_apply]; exact hr 0 e') e a d, srcR_apply]
  rfl
theorem rows_dst (hr : InRange edge) (e : Fin 800000) (a : Fin 4) (d : Fin 32) :
    rowsR (zA h W bias) (dstR edge) (ix3 e a d) = z h W bias (dst edge e) (col a d) := by
  rw [rowsR_apply (zA h W bias) (dstR edge) (fun e' => by rw [dstR_apply]; exact hr 1 e') e a d, dstR_apply]
  rfl

/-- The attention weights. -/
theorem alphaR_eq (hr : InRange edge) :
    alphaR (rowsR (zA h W bias) (srcR edge)) (rowsR (zA h W bias) (dstR edge)) feat att = alphaA h edge feat W bias att := by
  refine ext2 fun e a => ?_
  rw [alphaR_apply]
  simp only [rows_src h edge W bias hr, rows_dst h edge W bias hr]
  rfl

/-- The normalised weights. -/
theorem naR_eq (hr : InRange edge) :
    naR (alphaA h edge feat W bias att) (denomR (alphaA h edge feat W bias att) (dstR edge)) (dstR edge) = naA h edge feat W bias att := by
  refine ext2 fun e a => ?_
  rw [naR_apply _ _ edge hr e a, denomR_eq]
  rfl

/-- The whole reference is the layer. -/
theorem outR_eq (hr : InRange edge) : outR h edge feat W bias att g b = outA h edge feat W bias att g b := by
  unfold outR
  simp only [zR_eq h W bias, alphaR_eq h edge feat W bias att hr, naR_eq h edge feat W bias att hr]
  refine ext2 fun n q => ?_
  rw [eluR_normR_apply]
  have hagg : ∀ q' : Fin 128, aggR (msgR (rowsR (zA h W bias) (srcR edge)) (naA h edge feat W bias att)) (dstR edge) (ix2 n q')
      = aggA h edge feat W bias att (ix2 n q') := fun q' =>
    aggR_apply _ (msgA h edge feat W bias att) (fun e a d => by
      rw [msgR_apply, rows_src h edge W bias hr]
      show _ = msg h edge feat W bias att e (col a d)
      unfold msg
      rw [headOf_col]
      rfl) edge n q'
  simp only [hagg]
  rfl

end Cert.ReferenceIdeal.Read

end
-- ==== Proof.InputRange.lean ====
/-
  The index range out of the precondition: its last two conjuncts say every word of the edge list is at least 0 and
  below 50000 read signed; an all-true reduction of a comparison is the comparison at every index.
-/
import proofs.«411918_j61280593379541_2_alg».proof.Defs
import proofs.«411918_j61280593379541_2_alg».proof.Proof.Spec
import Idealize.ShloMosaic.Lib.ReduceAll
import Idealize.ShloMosaic.Lib.ValueIdx
import Idealize.ShloMosaic.Lib.StableHlo.Predicate

noncomputable section

namespace Cert.InputRange

open Idealize.ShloMosaic Idealize.ShloMosaic.ValueIdx Idealize.SL.Sem Cert.GAT

/-- A word at least the zero word, compared signed, reads nonnegative. -/
theorem nonneg_of_sge_zero {w : BitVec 32} (h : IntOp.cmpi .sge w 0#32 = 1#1) : 0 ≤ w.toInt := by
  have h' := IntOp.cmpi_sge.1 h
  rwa [show (0#32 : BitVec 32).toInt = 0 from by decide] at h'

/-- A word below the word 50000, compared signed, reads below 50000. -/
theorem lt_of_slt_bound {w : BitVec 32} (h : IntOp.cmpi .slt w 50000#32 = 1#1) : w.toInt < 50000 := by
  have h' := IntOp.cmpi_slt.1 h
  rwa [show (50000#32 : BitVec 32).toInt = 50000 from by decide] at h'

/-- The rank-0 shape has one index. -/
instance subsingleton_scalarIdx : Subsingleton Cert.Pre_finite_inputs.S_.Idx :=
  ⟨fun a b => funext fun d => d.elim0⟩

variable [Cert.Pre_finite_inputs.Facts]

/-- Under the precondition every endpoint word of the kernel's edge list is a node number. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg1)) := by
  -- the predicate's value at the scalar shape's one index is the bit 1
  have h0 := congrFun (h c) ValueIdx.ix0
  dsimp only [Cert.Pre_finite_inputs.fn, Cert.Pre_finite_inputs.fn_part1, Cert.Pre_finite_inputs.fn_part2] at h0
  -- a conjunction of nine bits is 1: keep the last two
  simp only [andi, IntOp.andi_eq_one] at h0
  obtain ⟨⟨-, hge⟩, hlt⟩ := h0
  intro r e
  -- an all-true reduction is the comparison at every index
  have a := Host.reduce_andi_all _ _ _ _ _ hge (ix2 r e)
  have b := Host.reduce_andi_all _ _ _ _ _ hlt (ix2 r e)
  -- the compared constant is the broadcast of a scalar: the same word at every index
  exact ⟨nonneg_of_sge_zero a, lt_of_slt_bound b⟩

end Cert.InputRange

end
-- ==== Proof.lean ====
/- The proof of `Cert.Claim` (proofs.«411918_j61280593379541_2_alg».proof.Defs): a graph attention layer as four kernels among
   host gathers and scatter-adds, against its jnp reference, equal over the extended reals for finite features and edge
   endpoints that are node numbers.

   The frames of the two kernel programs are the generated ones; the reference has no kernel, so its frame is its run
   with the result dropped. The ideal pass rewrote nothing, so the idealization is the program's own text read at the
   ideal instance. For the value claim both programs end at ONE function of the argument arrays, `Cert.GAT.outA`
   (Proof/Spec.lean): the kernel program launch by launch (Proof/KernelValue.lean over the four launches' whole-array
   functions, the host operations between them and the algebra of Proof/KernelMath.lean), the reference stage by stage
   (Proof/ReferenceValue.lean). The one place the index range enters: a row gather that would fill an out-of-range row
   with the not-a-number word, against one that clamps, agree on the rows a node number names. -/
import proofs.«411918_j61280593379541_2_alg».proof.Defs
import proofs.«411918_j61280593379541_2_alg».proof.Proof.Gen.Kernel
import proofs.«411918_j61280593379541_2_alg».proof.Proof.Gen.Kernel.Skeleton
import proofs.«411918_j61280593379541_2_alg».proof.Proof.Gen.Kernel.Launch
import proofs.«411918_j61280593379541_2_alg».proof.Proof.Gen.Kernel.Points
import proofs.«411918_j61280593379541_2_alg».proof.Proof.Gen.Kernel.Frame
import proofs.«411918_j61280593379541_2_alg».proof.Proof.Gen.KernelIdeal
import proofs.«411918_j61280593379541_2_alg».proof.Proof.Gen.KernelIdeal.Skeleton
import proofs.«411918_j61280593379541_2_alg».proof.Proof.Gen.KernelIdeal.Launch
import proofs.«411918_j61280593379541_2_alg».proof.Proof.Gen.KernelIdeal.Points
import proofs.«411918_j61280593379541_2_alg».proof.Proof.Gen.KernelIdeal.Frame
import proofs.«411918_j61280593379541_2_alg».proof.Proof.Gen.ReferenceIdeal
import proofs.«411918_j61280593379541_2_alg».proof.Proof.Gen.Pre_finite_inputs
import proofs.«411918_j61280593379541_2_alg».proof.Proof.KernelIdealRun
import proofs.«411918_j61280593379541_2_alg».proof.Proof.KernelValue
import proofs.«411918_j61280593379541_2_alg».proof.Proof.RefRun
import proofs.«411918_j61280593379541_2_alg».proof.Proof.ReferenceValue
import proofs.«411918_j61280593379541_2_alg».proof.Proof.InputRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run m ρ)

/-- Both programs end at the layer's output `Cert.GAT.outA` of the (agreeing) argument arrays. -/
theorem algebraic : Cert.algebraic_KernelIdeal_ReferenceIdeal := by
  intro m ρ m' ρ' hpre hagree
  have hr := fun c => Cert.InputRange.inRange_of_pre m hpre c
  have hk := (θ_run Cert.KernelIdeal.defs _ _).mono
    (fun r h c => (⟨(h c).1.trans (Cert.KernelIdeal.Value.out_value m ρ c (hr c)), (h c).2⟩ : _ ∧ _))
    (Cert.KernelIdeal.Gen.run_out (F := Ideal) m ρ)
  refine ⟨_, hk, ?_⟩
  refine (θ_run Cert.ReferenceIdeal.defs _ _).mono (fun r h c => ⟨(h c).1.trans ?_, (h c).2⟩)
    (Cert.ReferenceIdeal.Value.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.ReferenceIdeal.Read.outR_eq _ _ _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
